-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10_1)) (v1 : (c : Dev Cert.KernelIdeal.nD) → Buf (Elt Ideal) ((c.tc : Thread Cert.KernelIdeal.nD Cert.KernelIdeal.τ).loc Cert.KernelIdeal.main_v10_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_1) = v0 c
          ∧ r.2.mem ((c.tc : Thread Cert.KernelIdeal.nD Cert.KernelIdeal.τ).loc Cert.KernelIdeal.main_v10_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1x2048x2048 : Shape := ⟨3, ![1, 2048, 2048]⟩
abbrev S1024x1024 : Shape := ⟨2, ![1024, 1024]⟩
abbrev S1024 : Shape := ⟨1, ![1024]⟩
abbrev S_ : Shape := ⟨0, ![]⟩
abbrev S1x2048 : Shape := ⟨2, ![1, 2048]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1x2048x2048 : S_.BroadcastsInDim S1x2048x2048 (![] : Fin 0 → Fin S1x2048x2048.rank)
  reducesTo_S1x2048x2048_S1x2048_d2 : S1x2048x2048.ReducesTo [2] S1x2048
  reducesTo_S1x2048_S_d0_1 : S1x2048.ReducesTo [0, 1] S_

variable [Facts]

def fn_part2 {F : FTy → Type} [FloatOps F] (main_arg1 : IVec S1x2048x2048 32) (main_arg8 : FVec F S1024x1024 .f32) (main_arg9 : FVec F S1024 .f32) (main_v33 : IVec S_ 1) : IVec S_ 1 :=
  let main_v34 : FVec F S1024x1024 .f32 := Host.absf main_arg8
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg9
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_c_16 : IVec S_ 32 := constantI S_ 32 0#32
  let main_v44 : IVec S1x2048x2048 32 := broadcastInDim S1x2048x2048 ![] bcast_S_S1x2048x2048 main_c_16
  let main_v45 : IVec S1x2048x2048 1 := cmpi .ne main_arg1 main_v44
  let main_c_17 : IVec S_ 1 := constantI S_ 1 0#1
  let main_v46 : IVec S1x2048 1 := (fun x v => Host.reduce IntOp.ori x v reducesTo_S1x2048x2048_S1x2048_d2 h_S_) main_v45 main_c_17
  let main_c_18 : IVec S_ 1 := constantI S_ 1 1#1
  let main_v47 : IVec S_ 1 := (fun x v => Host.reduce IntOp.andi x v reducesTo_S1x2048_S_d0_1 h_S_) main_v46 main_c_18
  let main_v48 : IVec S_ 1 := andi main_v43 main_v47
  main_v48

def fn_part1 {F : FTy → Type} [FloatOps F] (main_arg1 : IVec S1x2048x2048 32) (main_arg5 : FVec F S1024 .f32) (main_arg6 : FVec F S1024x1024 .f32) (main_arg7 : FVec F S1024 .f32) (main_arg8 : FVec F S1024x1024 .f32) (main_arg9 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg1 main_arg8 main_arg9 main_v33

def fn {F : FTy → Type} [FloatOps F] (main_arg0 : FVec F S4x2048x1024 .f32) (main_arg1 : IVec S1x2048x2048 32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg1 main_arg5 main_arg6 main_arg7 main_arg8 main_arg9 main_v13 main_v16
-- ==== Kernel.lean ====
abbrev S4x2048x1024 : Shape := ⟨3, ![4, 2048, 1024]⟩
abbrev S1x2048x2048 : Shape := ⟨3, ![1, 2048, 2048]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S512x1024 : Shape := ⟨2, ![512, 1024]⟩
abbrev S4x2048x2048 : Shape := ⟨3, ![4, 2048, 2048]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S256x1024 : Shape := ⟨2, ![256, 1024]⟩
abbrev S2048x1024 : Shape := ⟨2, ![2048, 1024]⟩
abbrev S256x2048 : Shape := ⟨2, ![256, 2048]⟩
abbrev S1024x2048 : Shape := ⟨2, ![1024, 2048]⟩
abbrev S256 : Shape := ⟨1, ![256]⟩
abbrev S256x1 : Shape := ⟨2, ![256, 1]⟩

abbrev nBuf : Space → Nat
  | .hbm => 24
  | .vmem => 28
  | .smem => 0
  | _ => 0

abbrev bufTy : (tb : Table) → Fin (tcTables nBuf tb) → BufTy
  | .hbm, ⟨0, _⟩ => ⟨S4x2048x1024, .f32⟩
  | .hbm, ⟨1, _⟩ => ⟨S1x2048x2048, .i32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S4x2048x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S4x2048x1024, .bf16⟩
  | .hbm, ⟨20, _⟩ => ⟨S4x2048x1024, .bf16⟩
  | .hbm, ⟨21, _⟩ => ⟨S4x2048x1024, .bf16⟩
  | .hbm, ⟨22, _⟩ => ⟨S4x2048x2048, .f32⟩
  | .hbm, ⟨23, _⟩ => ⟨S4x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x2048x1024, .bf16⟩
  | .local _ .vmem, ⟨17, _⟩ => ⟨S1x2048x1024, .bf16⟩
  | .local _ .vmem, ⟨18, _⟩ => ⟨S1x2048x1024, .bf16⟩
  | .local _ .vmem, ⟨19, _⟩ => ⟨S1x2048x1024, .bf16⟩
  | .local _ .vmem, ⟨20, _⟩ => ⟨S1x256x2048, .i32⟩
  | .local _ .vmem, ⟨21, _⟩ => ⟨S1x256x2048, .i32⟩
  | .local _ .vmem, ⟨22, _⟩ => ⟨S1024x1024, .bf16⟩
  | .local _ .vmem, ⟨23, _⟩ => ⟨S1x1024, .f32⟩
  | .local _ .vmem, ⟨24, _⟩ => ⟨S1x256x2048, .f32⟩
  | .local _ .vmem, ⟨25, _⟩ => ⟨S1x256x2048, .f32⟩
  | .local _ .vmem, ⟨26, _⟩ => ⟨S1x256x1024, .f32⟩
  | .local _ .vmem, ⟨27, _⟩ => ⟨S1x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v10_0 : Ref sig .tc := ⟨.hbm, 22, rfl⟩
abbrev main_v10_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem6_1 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x2048 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  bitsLt_bf16_f32 : FTy.bits .bf16 < FTy.bits .f32
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  transposes_S2048x1024_p1_0_S1024x2048 : S2048x1024.Transposes [1, 0] S1024x2048
  reduces_S256x2048_S256 : S256x2048.Reduces [1] S256
  shapeCasts_S256_S256x1 : S256.ShapeCasts S256x1
  broadcasts_S256x1_S256x2048 : S256x1.Broadcasts S256x2048
  shapeCasts_S256x2048_S1x256x2048 : S256x2048.ShapeCasts S1x256x2048
  broadcasts_S1x1024_S256x1024 : S1x1024.Broadcasts S256x1024
  shapeCasts_S256x1024_S1x256x1024 : S256x1024.ShapeCasts S1x256x1024
  dot_S512x1024_S1024x1024_S512x1024_1_0_0_1_n_n_wf : DotDims.WF S512x1024 S1024x1024 S512x1024 [1] [0] [0] [1] [] []
  dot_S256x1024_S1024x2048_S256x2048_1_0_0_1_n_n_wf : DotDims.WF S256x1024 S1024x2048 S256x2048 [1] [0] [0] [1] [] []
  dot_S256x2048_S2048x1024_S256x1024_1_0_0_1_n_n_wf : DotDims.WF S256x2048 S2048x1024 S256x1024 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .bf16 = 32 ∨ (Rect.block (s := S4x2048x1024) S1x512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S4x2048x1024.size a
  hwx0_7 : ∀ i : grid0.Coords, EltTy.bits .bf16 = 32 ∨ (Rect.block (s := S4x2048x1024) S1x512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x1024.size a ≤ S4x2048x1024.size a
  hwx0_8 : ∀ i : grid0.Coords, EltTy.bits .bf16 = 32 ∨ (Rect.block (s := S4x2048x1024) S1x512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x1024.size a ≤ S4x2048x1024.size a
  hwx0_9 : ∀ i : grid0.Coords, EltTy.bits .bf16 = 32 ∨ (Rect.block (s := S4x2048x1024) S1x512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x2048x1024.size a
  hwx1_0 : ∀ i : grid1.Coords, EltTy.bits .bf16 = 32 ∨ (Rect.block (s := S4x2048x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x2048.size a ≤ S1x2048x2048.size a
  hwx1_3 : ∀ i : grid1.Coords, EltTy.bits .i32 = 32 ∨ (Rect.block (s := S1x2048x2048) S1x256x2048.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x2048.size a ≤ S4x2048x2048.size a
  hwx1_6 : ∀ i : grid1.Coords, EltTy.bits .f32 = 32 ∨ (Rect.block (s := S4x2048x2048) S1x256x2048.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x256x1024.size a ≤ S4x2048x1024.size a
  hwx1_7 : ∀ i : grid1.Coords, EltTy.bits .f32 = 32 ∨ (Rect.block (s := S4x2048x1024) S1x256x1024.size (cc1_transform_7 i) (hinb1_7 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9_0) S1x512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_1) S1x512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_2) S1x512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v9_0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_1) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9_2) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1x256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10_0) S1x256x2048.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v10_1) S1x256x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1x2048x2048 : Shape := ⟨3, ![1, 2048, 2048]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x2048x2048, .i32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S4x2048x1024, .f32⟩
  | .hbm, ⟨11, _⟩ => ⟨S1x1x1024, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S1x1x1024, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S1x1x1024, .f32⟩
  | .hbm, ⟨20, _⟩ => ⟨S4x2048x1024, .f32⟩
  | .hbm, ⟨21, _⟩ => ⟨S4x2048x1024, .f32⟩
  | .hbm, ⟨22, _⟩ => ⟨S4x2048x2048, .f32⟩
  | .hbm, ⟨23, _⟩ => ⟨S_, .f32⟩
  | .hbm, ⟨24, _⟩ => ⟨S_, .f32⟩
  | .hbm, ⟨25, _⟩ => ⟨S4x2048x2048, .f32⟩
  | .hbm, ⟨26, _⟩ => ⟨S4x2048x2048, .f32⟩
  | .hbm, ⟨27, _⟩ => ⟨S_, .i32⟩
  | .hbm, ⟨28, _⟩ => ⟨S1x2048x2048, .i32⟩
  | .hbm, ⟨29, _⟩ => ⟨S1x2048x2048, .i1⟩
  | .hbm, ⟨30, _⟩ => ⟨S_, .f32⟩
  | .hbm, ⟨31, _⟩ => ⟨S4x2048x2048, .i1⟩
  | .hbm, ⟨32, _⟩ => ⟨S4x2048x2048, .f32⟩
  | .hbm, ⟨33, _⟩ => ⟨S4x2048x2048, .f32⟩
  | .hbm, ⟨34, _⟩ => ⟨S_, .f32⟩
  | .hbm, ⟨35, _⟩ => ⟨S4x2048, .f32⟩
  | .hbm, ⟨36, _⟩ => ⟨S_, .f32⟩
  | .hbm, ⟨37, _⟩ => ⟨S4x2048, .f32⟩
  | .hbm, ⟨38, _⟩ => ⟨S4x2048, .f32⟩
  | .hbm, ⟨39, _⟩ => ⟨S4x2048x1, .f32⟩
  | .hbm, ⟨40, _⟩ => ⟨S4x2048x2048, .f32⟩
  | .hbm, ⟨41, _⟩ => ⟨S4x2048x2048, .f32⟩
  | .hbm, ⟨42, _⟩ => ⟨S4x2048x2048, .f32⟩
  | .hbm, ⟨43, _⟩ => ⟨S_, .f32⟩
  | .hbm, ⟨44, _⟩ => ⟨S4x2048, .f32⟩
  | .hbm, ⟨45, _⟩ => ⟨S4x2048x1, .f32⟩
  | .hbm, ⟨46, _⟩ => ⟨S4x2048x2048, .f32⟩
  | .hbm, ⟨47, _⟩ => ⟨S4x2048x2048, .f32⟩
  | .hbm, ⟨48, _⟩ => ⟨S4x2048x1024, .f32⟩
  | .hbm, ⟨49, _⟩ => ⟨S4x2048x1024, .f32⟩
  | .hbm, ⟨50, _⟩ => ⟨S1x1x1024, .f32⟩
  | .hbm, ⟨51, _⟩ => ⟨S4x2048x1024, .f32⟩
  | .hbm, ⟨52, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  bcast_S_S1x2048x2048 : S_.BroadcastsInDim S1x2048x2048 (![] : Fin 0 → Fin S1x2048x2048.rank)
  bcast_S1x2048x2048_S4x2048x2048_0_1_2 : S1x2048x2048.BroadcastsInDim S4x2048x2048 (![0, 1, 2] : Fin 3 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.LibRows.lean ====
/-
  Row-wise reading of two-dimensional arrays at the ideal values, for any number of rows.

  A network that treats every row of its input alike (a chain of affine layers, pointwise
  functions, joins of feature vectors and reductions along the feature axis) is one function of a
  single row. This file says so layer by layer, at the level of whole arrays: an array is
  `ofRows f` when its row `i` is `f i`, and each layer sends `ofRows f` to `ofRows` of the
  layer's row function applied to `f i`. The statements hold for every row count, so the same
  lemma reads a block of rows and the whole array.

  * `lin w b v`: the affine map `j ↦ (∑ₖ v k · w (j,k)) + b j` (weights stored output-major).
  * `cat u v`: two feature vectors joined.
  * `rowMax`, `rowSum`: the fold of `max` from `⊥`, and the sum, over a row.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Idealize.ShloMosaic.Rows

open Idealize.ShloMosaic Idealize.ShloMosaic.ValueIdx

variable {N K M : ℕ}

/-! ## Arrays as families of rows -/

/-- The array whose row `i` is `f i`. -/
def ofRows (f : Fin N → Fin K → EReal) : FVec Ideal ⟨2, ![N, K]⟩ .f32 := fun i => f (i 0) (i 1)

/-- Row `i` of an array. -/
def rowOf (A : FVec Ideal ⟨2, ![N, K]⟩ .f32) (i : Fin N) : Fin K → EReal := fun k => A (ix2 i k)

theorem rowOf_ofRows (f : Fin N → Fin K → EReal) (i : Fin N) : rowOf (ofRows f) i = f i := rfl

theorem ofRows_apply (f : Fin N → Fin K → EReal) (i : Fin N) (k : Fin K) : ofRows f (ix2 i k) = f i k := rfl

theorem ofRows_rowOf (A : FVec Ideal ⟨2, ![N, K]⟩ .f32) : ofRows (rowOf A) = A :=
  funext fun i => (congrArg A (eq_ix2 i)).symm

/-- Two arrays are equal when they agree at every (row, column). -/
theorem ext_ix2 {A B : FVec Ideal ⟨2, ![N, K]⟩ .f32} (h : ∀ i k, A (ix2 i k) = B (ix2 i k)) : A = B :=
  funext fun j => by rw [eq_ix2 j]; exact h _ _

/-! ## A plain matrix product read at (row, column) -/

theorem plain_lhs_0 (i : (⟨2, ![N, M]⟩ : Shape).Idx) (q : (DotDims.plain N K M).contr.Idx) :
    ((DotDims.plain N K M).lhsIdx i q 0).val = (i 0).val := by
  unfold DotDims.lhsIdx
  rw [dif_neg (show ¬(0 : Fin (⟨2, ![N, K]⟩ : Shape).rank) ∈ (DotDims.plain N K M).lhsBatch from List.not_mem_nil),
    dif_pos (show (0 : Fin (⟨2, ![N, K]⟩ : Shape).rank) ∈ (DotDims.plain N K M).lhsNonContracting from List.mem_singleton.mpr rfl)]
  rfl

theorem plain_lhs_1 (i : (⟨2, ![N, M]⟩ : Shape).Idx) (q : (DotDims.plain N K M).contr.Idx) :
    ((DotDims.plain N K M).lhsIdx i q 1).val = (q ⟨0, Nat.one_pos⟩).val :=
  (DotDims.plain N K M).lhsIdx_val_of_single rfl i q

theorem plain_rhs_0 (i : (⟨2, ![N, M]⟩ : Shape).Idx) (q : (DotDims.plain N K M).contr.Idx) :
    ((DotDims.plain N K M).rhsIdx i q 0).val = (q ⟨0, Nat.one_pos⟩).val :=
  (DotDims.plain N K M).rhsIdx_val_of_single rfl i q

theorem plain_rhs_1 (i : (⟨2, ![N, M]⟩ : Shape).Idx) (q : (DotDims.plain N K M).contr.Idx) :
    ((DotDims.plain N K M).rhsIdx i q 1).val = (i 1).val := by
  unfold DotDims.rhsIdx
  rw [dif_neg (show ¬(1 : Fin (⟨2, ![K, M]⟩ : Shape).rank) ∈ (DotDims.plain N K M).rhsBatch from List.not_mem_nil),
    dif_pos (show (1 : Fin (⟨2, ![K, M]⟩ : Shape).rank) ∈ (DotDims.plain N K M).rhsNonContracting from List.mem_singleton.mpr rfl)]
  rfl

/-- The sum over the one contracted axis, re-indexed by its coordinate. -/
theorem plain_sum (l : FVec Ideal ⟨2, ![N, K]⟩ .f32) (r : FVec Ideal ⟨2, ![K, M]⟩ .f32) (i : Fin N) (j : Fin M) :
    (∑ q : (DotDims.plain N K M).contr.Idx, l ((DotDims.plain N K M).lhsIdx (ix2 i j) q) * r ((DotDims.plain N K M).rhsIdx (ix2 i j) q))
      = ∑ k : Fin K, l (ix2 i k) * r (ix2 k j) := by
  rw [← Equiv.sum_comp (contrEquiv1 (DotDims.plain N K M) K rfl rfl).symm]
  refine Finset.sum_congr rfl fun k _ => ?_
  have hk := contrEquiv1_symm_val (DotDims.plain N K M) K rfl rfl k
  have el : (DotDims.plain N K M).lhsIdx (ix2 i j) ((contrEquiv1 (DotDims.plain N K M) K rfl rfl).symm k) = ix2 i k :=
    funext fun a => Fin.ext (by
      match a with
      | ⟨0, _⟩ => exact plain_lhs_0 _ _
      | ⟨1, _⟩ => exact (plain_lhs_1 _ _).trans hk)
  have er : (DotDims.plain N K M).rhsIdx (ix2 i j) ((contrEquiv1 (DotDims.plain N K M) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into a zero accumulator, at (i, j): the sum over k of l (i,k) · r (k,j). -/
theorem matmul_plain_apply (l : FVec Ideal ⟨2, ![N, K]⟩ .f32) (r : FVec Ideal ⟨2, ![K, M]⟩ .f32) (i : Fin N) (j : Fin M) :
    matmul (DotDims.plain N K M) none l r (constant ⟨2, ![N, M]⟩ .f32 0x00000000#32) (ix2 i j)
      = ∑ k : Fin K, l (ix2 i k) * r (ix2 k j) := by
  show FloatOps.matmul (DotDims.plain N K M) none l r (constant ⟨2, ![N, M]⟩ .f32 0x00000000#32) (ix2 i j) = _
  rw [Ideal.matmul_constant_zero_apply]
  exact plain_sum l r i j

/-- The host's product, at (i, j): the same sum. -/
theorem dotGeneral_plain_apply (l : FVec Ideal ⟨2, ![N, K]⟩ .f32) (r : FVec Ideal ⟨2, ![K, M]⟩ .f32) (i : Fin N) (j : Fin M) :
    Host.dotGeneral (DotDims.plain N K M) none l r (ix2 i j) = ∑ k : Fin K, l (ix2 i k) * r (ix2 k j) := by
  show FloatOps.dotGeneral (DotDims.plain N K M) none .single l r (ix2 i j) = _
  rw [Ideal.dotGeneral_apply]
  exact plain_sum l r i j

/-! ## An affine layer -/

/-- One affine layer on a row `v`: output feature `j` is `(∑ₖ v k · w (j,k)) + b j`. -/
def lin (w : FVec Ideal ⟨2, ![M, K]⟩ .f32) (b : FVec Ideal ⟨1, ![M]⟩ .f32) (v : Fin K → EReal) : Fin M → EReal :=
  fun j => (∑ k : Fin K, v k * w (ix2 j k)) + b (ix1 j)

/-- The kernel's spelling of an affine layer: product with the transposed weights into a zero accumulator, plus the
    bias laid along every row. -/
theorem klin_eq (h : FVec Ideal ⟨2, ![N, K]⟩ .f32) (w : FVec Ideal ⟨2, ![M, K]⟩ .f32) (b : FVec Ideal ⟨1, ![M]⟩ .f32)
    (tr : (⟨2, ![M, K]⟩ : Shape).Transposes [1, 0] ⟨2, ![K, M]⟩) (sc : (⟨1, ![M]⟩ : Shape).ShapeCasts ⟨2, ![1, M]⟩)
    (bc : (⟨2, ![1, M]⟩ : Shape).Broadcasts ⟨2, ![N, M]⟩) :
    addf (matmul (DotDims.plain N K M) none h (transpose ⟨2, ![K, M]⟩ [1, 0] w tr) (constant ⟨2, ![N, M]⟩ .f32 0x00000000#32))
        (broadcastTo ⟨2, ![N, M]⟩ (shapeCast ⟨2, ![1, M]⟩ b sc) bc)
      = ofRows fun i => lin w b (rowOf h i) := by
  refine ext_ix2 fun i j => ?_
  rw [addf_apply, matmul_plain_apply, broadcastTo_1b_ab_apply, shapeCast_a_1a_apply, ofRows_apply]
  unfold lin rowOf
  exact congrArg (· + b (ix1 j)) (Finset.sum_congr rfl fun k _ => by rw [transpose_ix2_apply])

/-- The host's spelling: `dot_general` with the transposed weights, plus the bias broadcast in two steps. -/
theorem hlin_eq (h : FVec Ideal ⟨2, ![N, K]⟩ .f32) (w : FVec Ideal ⟨2, ![M, K]⟩ .f32) (b : FVec Ideal ⟨1, ![M]⟩ .f32)
    (tr : (⟨2, ![M, K]⟩ : Shape).Transposes [1, 0] ⟨2, ![K, M]⟩)
    (b1 : (⟨1, ![M]⟩ : Shape).BroadcastsInDim ⟨2, ![1, M]⟩ ![1])
    (b2 : (⟨2, ![1, M]⟩ : Shape).BroadcastsInDim ⟨2, ![N, M]⟩ ![0, 1]) :
    addf (Host.dotGeneral (DotDims.plain N K M) none h (transpose ⟨2, ![K, M]⟩ [1, 0] w tr))
        (broadcastInDim ⟨2, ![N, M]⟩ ![0, 1] b2 (broadcastInDim ⟨2, ![1, M]⟩ ![1] b1 b))
      = ofRows fun i => lin w b (rowOf h i) := by
  refine ext_ix2 fun i j => ?_
  rw [addf_apply, dotGeneral_plain_apply, Idealize.ShloMosaic.broadcastInDim_oneRow_apply, ofRows_apply]
  have e : broadcastInDim ⟨2, ![1, M]⟩ ![1] b1 b (ix2 (0 : Fin 1) j) = b (ix1 j) :=
    broadcastInDim_apply ![1] b1 b (ix2 (0 : Fin 1) j) (ix1 j) fun a => by
      match a with
      | ⟨0, _⟩ =>
        show j.val = if M = 1 then 0 else j.val
        split
        · have := j.isLt; omega
        · rfl
  rw [e]
  unfold lin rowOf
  exact congrArg (· + b (ix1 j)) (Finset.sum_congr rfl fun k _ => by rw [transpose_ix2_apply])

/-! ## Two feature vectors joined -/

/-- `u` followed by `v`. -/
def cat {A B C : ℕ} (hC : A + B = C) (u : Fin A → EReal) (v : Fin B → EReal) : Fin C → EReal :=
  fun j => if h : j.val < A then u ⟨j.val, h⟩ else v ⟨j.val - A, by have := j.isLt; omega⟩

/-- Joining two arrays along the feature axis joins their rows. -/
theorem cat_eq {A B C : ℕ} (hC : A + B = C) (x₁ : FVec Ideal ⟨2, ![N, A]⟩ .f32) (x₂ : FVec Ideal ⟨2, ![N, B]⟩ .f32)
    (hc : Shape.Concatenates [⟨2, ![N, A]⟩, ⟨2, ![N, B]⟩] ⟨2, ![N, C]⟩ 1) :
    concatenate ⟨2, ![N, C]⟩ 1 [⟨⟨2, ![N, A]⟩, x₁⟩, ⟨⟨2, ![N, B]⟩, x₂⟩] hc
      = ofRows fun i => cat hC (rowOf x₁ i) (rowOf x₂ i) := by
  refine ext_ix2 fun i j => ?_
  rw [ofRows_apply]
  unfold cat rowOf
  by_cases h : j.val < A
  · rw [dif_pos h]
    exact concatenate_pair_apply_left 1 x₁ x₂ hc (ix2 i j) rfl (ix2 i ⟨j.val, h⟩) fun b => by
      match b with
      | ⟨0, _⟩ => rfl
      | ⟨1, _⟩ => rfl
  · rw [dif_neg h]
    have hj := j.isLt
    refine concatenate_pair_apply_right 1 x₁ x₂ hc (ix2 i j) rfl rfl (ix2 i ⟨j.val - A, by omega⟩) (fun b hb => ?_) ?_
    · match b with
      | ⟨0, _⟩ => rfl
      | ⟨1, _⟩ => exact absurd rfl hb
    · show j.val - A + A = j.val
      omega

/-! ## Pointwise operations, row by row -/

section Pointwise
variable (x y : FVec Ideal ⟨2, ![N, K]⟩ .f32)

theorem sin_rows : sin x = ofRows fun i k => Ideal.sin (rowOf x i k) := ext_ix2 fun _ _ => rfl
theorem cos_rows : cos x = ofRows fun i k => Ideal.cos (rowOf x i k) := ext_ix2 fun _ _ => rfl
theorem exp_rows : exp x = ofRows fun i k => Ideal.exp (rowOf x i k) := ext_ix2 fun _ _ => rfl
theorem hsin_rows : Host.sin x = ofRows fun i k => Ideal.sin (rowOf x i k) := ext_ix2 fun _ _ => rfl
theorem hcos_rows : Host.cos x = ofRows fun i k => Ideal.cos (rowOf x i k) := ext_ix2 fun _ _ => rfl
theorem hexp_rows : Host.exp x = ofRows fun i k => Ideal.exp (rowOf x i k) := ext_ix2 fun _ _ => rfl
theorem addf_rows : addf x y = ofRows fun i k => rowOf x i k + rowOf y i k := ext_ix2 fun _ _ => rfl
theorem subf_rows : subf x y = ofRows fun i k => rowOf x i k - rowOf y i k := ext_ix2 fun _ _ => rfl
theorem mulf_rows : mulf x y = ofRows fun i k => rowOf x i k * rowOf y i k := ext_ix2 fun _ _ => rfl
theorem maximumf_rows : maximumf x y = ofRows fun i k => max (rowOf x i k) (rowOf y i k) := ext_ix2 fun _ _ => rfl
theorem divf_rows : divf x y = ofRows fun i k => Ideal.div (rowOf x i k) (rowOf y i k) := ext_ix2 fun _ _ => rfl
theorem hdivf_rows : Host.divf x y = ofRows fun i k => Ideal.div (rowOf x i k) (rowOf y i k) := ext_ix2 fun _ _ => rfl

end Pointwise

/-- A row of a kernel's scalar splat. -/
theorem rowOf_broadcast (b : BitVec 32) (i : Fin N) :
    rowOf (broadcast ⟨2, ![N, K]⟩ (Scalar.ofBits (F := Ideal) .f32 b)) i = fun _ => Ideal.ofBits .f32 b := rfl

/-- A row of the host's scalar constant broadcast to an array. -/
theorem rowOf_broadcastInDim_const (b : BitVec 32) (hb : (⟨0, ![]⟩ : Shape).BroadcastsInDim ⟨2, ![N, K]⟩ ![]) (i : Fin N) :
    rowOf (broadcastInDim ⟨2, ![N, K]⟩ ![] hb (constant (F := Ideal) ⟨0, ![]⟩ .f32 b)) i = fun _ => Ideal.ofBits .f32 b :=
  funext fun k => broadcastInDim_scalar_apply hb _ (ix2 i k)

/-! ## One value per row -/

/-- The one-axis array whose entry `i` is `f i`. -/
def ofVals (f : Fin N → EReal) : FVec Ideal ⟨1, ![N]⟩ .f32 := fun i => f (i 0)

/-- Entry `i` of a one-axis array. -/
def valOf (c : FVec Ideal ⟨1, ![N]⟩ .f32) (i : Fin N) : EReal := c (ix1 i)

theorem valOf_ofVals (f : Fin N → EReal) (i : Fin N) : valOf (ofVals f) i = f i := rfl

theorem ext_ix1 {a b : FVec Ideal ⟨1, ![N]⟩ .f32} (h : ∀ i, a (ix1 i) = b (ix1 i)) : a = b :=
  funext fun j => by rw [eq_ix1 j]; exact h _

theorem maximumf_vals (a b : FVec Ideal ⟨1, ![N]⟩ .f32) : maximumf a b = ofVals fun i => max (valOf a i) (valOf b i) :=
  ext_ix1 fun _ => rfl

theorem valOf_broadcast (b : BitVec 32) (i : Fin N) :
    valOf (broadcast ⟨1, ![N]⟩ (Scalar.ofBits (F := Ideal) .f32 b)) i = Ideal.ofBits .f32 b := rfl

theorem valOf_broadcastInDim_const (b : BitVec 32) (hb : (⟨0, ![]⟩ : Shape).BroadcastsInDim ⟨1, ![N]⟩ ![]) (i : Fin N) :
    valOf (broadcastInDim ⟨1, ![N]⟩ ![] hb (constant (F := Ideal) ⟨0, ![]⟩ .f32 b)) i = Ideal.ofBits .f32 b :=
  broadcastInDim_scalar_apply hb _ (ix1 i)

/-- The index a reduction over the feature axis reads: row `i`, feature `k`. -/
theorem lift_ix1 (h : (⟨2, ![N, M]⟩ : Shape).Reduces [1] ⟨1, ![N]⟩) (i : Fin N) (k : Fin M) :
    h.lift (ix1 i) k = ix2 i k :=
  funext fun a => Fin.ext (by
    match a with
    | ⟨0, _⟩ => rfl
    | ⟨1, _⟩ => rfl)

/-- The largest entry of a row, folded from the word `0xFF800000`'s value. -/
def rowMax (v : Fin M → EReal) : EReal := (Finset.univ : Finset (Fin M)).fold max (Ideal.ofBits .f32 0xFF800000#32) v

/-- A kernel's maximum along the feature axis. -/
theorem kmax_eq (x : FVec Ideal ⟨2, ![N, M]⟩ .f32) (h : (⟨2, ![N, M]⟩ : Shape).Reduces [1] ⟨1, ![N]⟩)
    (hφ : FKind.Formats .f32) (hacc : (0xFF800000#32 : BitVec 32) = FKind.maximumf.neutral .f32 hφ) :
    multiReduction .maximumf [1] ⟨1, ![N]⟩ x 0xFF800000#32 h hφ hacc = ofVals fun i => rowMax (rowOf x i) := by
  refine ext_ix1 fun i => ?_
  rw [Ideal.multiReduction_maximumf_single]
  show _ = rowMax (rowOf x i)
  unfold rowMax
  congr 1
  funext k
  exact congrArg x (lift_ix1 h i k)

/-- The host's maximum along the feature axis, from the same initial word. -/
theorem hmax_eq (x : FVec Ideal ⟨2, ![N, M]⟩ .f32) (h' : (⟨2, ![N, M]⟩ : Shape).ReducesTo [1] ⟨1, ![N]⟩)
    (h : (⟨2, ![N, M]⟩ : Shape).Reduces [1] ⟨1, ![N]⟩) (hu : 0 < (⟨0, ![]⟩ : Shape).numel) :
    Host.reduce FloatOps.maximumf x (constant (F := Ideal) ⟨0, ![]⟩ .f32 0xFF800000#32) h' hu
      = ofVals fun i => rowMax (rowOf x i) := by
  refine ext_ix1 fun i => ?_
  rw [Host.reduce_eq_fold_single FloatOps.maximumf x _ h' h hu]
  show _ = rowMax (rowOf x i)
  unfold rowMax
  congr 1
  funext k
  exact congrArg x (lift_ix1 h i k)

/-- A kernel's sum along the feature axis. -/
theorem ksum_eq (x : FVec Ideal ⟨2, ![N, M]⟩ .f32) (h : (⟨2, ![N, M]⟩ : Shape).Reduces [1] ⟨1, ![N]⟩)
    (hφ : FKind.Formats .f32) (hacc : (0x00000000#32 : BitVec 32) = FKind.add.neutral .f32 hφ) :
    multiReduction .add [1] ⟨1, ![N]⟩ x 0x00000000#32 h hφ hacc = ofVals fun i => ∑ k : Fin M, rowOf x i k := by
  refine ext_ix1 fun i => ?_
  rw [Ideal.multiReduction_add_single]
  exact Finset.sum_congr rfl fun k _ => congrArg x (lift_ix1 h i k)

/-- The host's sum along the feature axis from a zero initial value. -/
theorem hsum_eq (x : FVec Ideal ⟨2, ![N, M]⟩ .f32) (h' : (⟨2, ![N, M]⟩ : Shape).ReducesTo [1] ⟨1, ![N]⟩)
    (h : (⟨2, ![N, M]⟩ : Shape).Reduces [1] ⟨1, ![N]⟩) (hu : 0 < (⟨0, ![]⟩ : Shape).numel) :
    Host.reduceAdd x (constant (F := Ideal) ⟨0, ![]⟩ .f32 0x00000000#32) h' hu
      = ofVals fun i => ∑ k : Fin M, rowOf x i k := by
  refine ext_ix1 fun i => ?_
  rw [hostReduceAdd_apply, Ideal.hostReduceAdd_single h' h]
  show Ideal.ofBits .f32 0x00000000#32 + _ = _
  rw [Ideal.ofBits_zero_f32, zero_add]
  exact Finset.sum_congr rfl fun k _ => congrArg x (lift_ix1 h i k)

/-! ## One value per row laid along the row -/

/-- The kernel's way: a unit feature axis added, then broadcast along it. -/
theorem kcol_eq (c : FVec Ideal ⟨1, ![N]⟩ .f32) (sc : (⟨1, ![N]⟩ : Shape).ShapeCasts ⟨2, ![N, 1]⟩)
    (bc : (⟨2, ![N, 1]⟩ : Shape).Broadcasts ⟨2, ![N, M]⟩) :
    broadcastTo ⟨2, ![N, M]⟩ (shapeCast ⟨2, ![N, 1]⟩ c sc) bc = ofRows fun i _ => valOf c i := by
  refine ext_ix2 fun i j => ?_
  have e1 := broadcastTo_apply (shapeCast ⟨2, ![N, 1]⟩ c sc) bc (ix2 i j) (ix2 i (0 : Fin 1)) (by
    intro a
    match a with
    | ⟨0, _⟩ =>
      show i.val = if N = 1 then 0 else i.val
      split
      · have := i.isLt; omega
      · rfl
    | ⟨1, _⟩ => rfl)
  have e2 := shapeCast_apply c sc (ix2 i (0 : Fin 1)) (ix1 i) (by
    rw [Shape.rowMajor_val_two, Shape.rowMajor_val_one]; show i.val = i.val * 1 + 0; omega)
  exact e1.trans e2

/-- A unit feature axis added to a one-axis array. -/
theorem kcol1_eq (c : FVec Ideal ⟨1, ![N]⟩ .f32) (sc : (⟨1, ![N]⟩ : Shape).ShapeCasts ⟨2, ![N, 1]⟩) :
    shapeCast ⟨2, ![N, 1]⟩ c sc = ofRows fun i _ => valOf c i := by
  refine ext_ix2 fun i j => ?_
  exact shapeCast_apply c sc (ix2 i j) (ix1 i) (by
    rw [Shape.rowMajor_val_two, Shape.rowMajor_val_one]; show i.val = i.val * 1 + j.val; have := j.isLt; omega)

/-- The host's way: two `broadcast_in_dim`s. -/
theorem hcol_eq (c : FVec Ideal ⟨1, ![N]⟩ .f32) (b1 : (⟨1, ![N]⟩ : Shape).BroadcastsInDim ⟨2, ![N, 1]⟩ ![0])
    (b2 : (⟨2, ![N, 1]⟩ : Shape).BroadcastsInDim ⟨2, ![N, M]⟩ ![0, 1]) :
    broadcastInDim ⟨2, ![N, M]⟩ ![0, 1] b2 (broadcastInDim ⟨2, ![N, 1]⟩ ![0] b1 c) = ofRows fun i _ => valOf c i := by
  refine ext_ix2 fun i j => ?_
  have e1 := broadcastInDim_apply ![0, 1] b2 (broadcastInDim ⟨2, ![N, 1]⟩ ![0] b1 c) (ix2 i j) (ix2 i (0 : Fin 1)) (by
    intro a
    match a with
    | ⟨0, _⟩ =>
      show i.val = if N = 1 then 0 else i.val
      split
      · have := i.isLt; omega
      · rfl
    | ⟨1, _⟩ => rfl)
  have e2 := broadcastInDim_apply ![0] b1 c (ix2 i (0 : Fin 1)) (ix1 i) (by
    intro a
    match a with
    | ⟨0, _⟩ =>
      show i.val = if N = 1 then 0 else i.val
      split
      · have := i.isLt; omega
      · rfl)
  exact e1.trans e2

end Idealize.ShloMosaic.Rows

end
-- ==== Proof.LibDotT.lean ====
/-
  A product with output-major weights,  a · wᵀ,  read at (row, column), at the ideal values and for
  any sizes.

  The weights `w` are stored M × K (one row per OUTPUT feature); the operand `a` is N × K. Two spellings
  of the same product:
  * the kernel's: one matrix product contracting axis 1 of BOTH operands (the right operand on its
    last axis) into a zero accumulator;
  * the host's: the weights transposed to K × M first, then a plain product contracting the left
    operand's axis 1 with the transposed weights' axis 0.
  At (i, j) each is the one sum  ∑ₖ a (i, k) · w (j, k).  The statements hold for every row count, so
  the same lemma reads a block of rows and the whole array.
-/
import proofs.«420197_j33234456936606_3_alg».proof.Proof.LibRows
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.Rows

open Idealize.ShloMosaic Idealize.ShloMosaic.ValueIdx

variable {N K M : ℕ}

/-! ## The operand indices of a product whose right operand is contracted on its last axis -/

/-- The left operand's row is the result's row. -/
theorem trhs_lhs_0 (i : (⟨2, ![N, M]⟩ : Shape).Idx) (q : (DotDims.transposedRhs N K M).contr.Idx) :
    ((DotDims.transposedRhs N K M).lhsIdx i q 0).val = (i 0).val := by
  unfold DotDims.lhsIdx
  rw [dif_neg (show ¬(0 : Fin (⟨2, ![N, K]⟩ : Shape).rank) ∈ (DotDims.transposedRhs N K M).lhsBatch from List.not_mem_nil),
    dif_pos (show (0 : Fin (⟨2, ![N, K]⟩ : Shape).rank) ∈ (DotDims.transposedRhs N K M).lhsNonContracting from List.mem_singleton.mpr rfl)]
  rfl

/-- The left operand's column is the contraction coordinate. -/
theorem trhs_lhs_1 (i : (⟨2, ![N, M]⟩ : Shape).Idx) (q : (DotDims.transposedRhs N K M).contr.Idx) :
    ((DotDims.transposedRhs N K M).lhsIdx i q 1).val = (q ⟨0, Nat.one_pos⟩).val :=
  (DotDims.transposedRhs N K M).lhsIdx_val_of_single rfl i q

/-- The right operand's row is the result's column. -/
theorem trhs_rhs_0 (i : (⟨2, ![N, M]⟩ : Shape).Idx) (q : (DotDims.transposedRhs N K M).contr.Idx) :
    ((DotDims.transposedRhs N K M).rhsIdx i q 0).val = (i 1).val := by
  unfold DotDims.rhsIdx
  rw [dif_neg (show ¬(0 : Fin (⟨2, ![M, K]⟩ : Shape).rank) ∈ (DotDims.transposedRhs N K M).rhsBatch from List.not_mem_nil),
    dif_pos (show (0 : Fin (⟨2, ![M, K]⟩ : Shape).rank) ∈ (DotDims.transposedRhs N K M).rhsNonContracting from List.mem_singleton.mpr rfl)]
  rfl

/-- The right operand's column is the contraction coordinate. -/
theorem trhs_rhs_1 (i : (⟨2, ![N, M]⟩ : Shape).Idx) (q : (DotDims.transposedRhs N K M).contr.Idx) :
    ((DotDims.transposedRhs N K M).rhsIdx i q 1).val = (q ⟨0, Nat.one_pos⟩).val :=
  (DotDims.transposedRhs N K M).rhsIdx_val_of_single rfl i q

/-- The sum over the one contracted axis, re-indexed by its coordinate: the right operand is read at (column, k). -/
theorem trhs_sum {φ₁ φ₂ : FTy} (l : FVec Ideal ⟨2, ![N, K]⟩ φ₁) (r : FVec Ideal ⟨2, ![M, K]⟩ φ₂) (i : Fin N) (j : Fin M) :
    (∑ q : (DotDims.transposedRhs N K M).contr.Idx,
        l ((DotDims.transposedRhs N K M).lhsIdx (ix2 i j) q) * r ((DotDims.transposedRhs N K M).rhsIdx (ix2 i j) q))
      = ∑ k : Fin K, l (ix2 i k) * r (ix2 j k) := by
  rw [← Equiv.sum_comp (contrEquiv1 (DotDims.transposedRhs N K M) K rfl rfl).symm]
  refine Finset.sum_congr rfl fun k _ => ?_
  have hk := contrEquiv1_symm_val (DotDims.transposedRhs N K M) K rfl rfl k
  have el : (DotDims.transposedRhs N K M).lhsIdx (ix2 i j) ((contrEquiv1 (DotDims.transposedRhs N K M) K rfl rfl).symm k) = ix2 i k :=
    funext fun a => Fin.ext (by
      match a with
      | ⟨0, _⟩ => exact trhs_lhs_0 _ _
      | ⟨1, _⟩ => exact (trhs_lhs_1 _ _).trans hk)
  have er : (DotDims.transposedRhs N K M).rhsIdx (ix2 i j) ((contrEquiv1 (DotDims.transposedRhs N K M) K rfl rfl).symm k) = ix2 j k :=
    funext fun a => Fin.ext (by
      match a with
      | ⟨0, _⟩ => exact trhs_rhs_0 _ _
      | ⟨1, _⟩ => exact (trhs_rhs_1 _ _).trans hk)
  rw [el, er]

/-! ## The two spellings at (row, column) -/

/-- The kernel's spelling: a product contracting axis 1 of both operands into a zero accumulator, at (i, j), is
    ∑ₖ l (i,k) · r (j,k) — whatever the operands' float formats. -/
theorem matmul_trhs_apply {φ₁ φ₂ : FTy} (l : FVec Ideal ⟨2, ![N, K]⟩ φ₁) (r : FVec Ideal ⟨2, ![M, K]⟩ φ₂) (i : Fin N) (j : Fin M) :
    matmul (DotDims.transposedRhs N K M) none l r (constant ⟨2, ![N, M]⟩ .f32 0x00000000#32) (ix2 i j)
      = ∑ k : Fin K, l (ix2 i k) * r (ix2 j k) := by
  show FloatOps.matmul (DotDims.transposedRhs N K M) none l r (constant ⟨2, ![N, M]⟩ .f32 0x00000000#32) (ix2 i j) = _
  rw [Ideal.matmul_constant_zero_apply]
  exact trhs_sum l r i j

/-- The host's spelling: the weights transposed, then the plain product, at (i, j): the same sum. -/
theorem dotGeneral_transpose_apply (l : FVec Ideal ⟨2, ![N, K]⟩ .f32) (w : FVec Ideal ⟨2, ![M, K]⟩ .f32)
    (tr : (⟨2, ![M, K]⟩ : Shape).Transposes [1, 0] ⟨2, ![K, M]⟩) (i : Fin N) (j : Fin M) :
    Host.dotGeneral (DotDims.plain N K M) none l (transpose ⟨2, ![K, M]⟩ [1, 0] w tr) (ix2 i j)
      = ∑ k : Fin K, l (ix2 i k) * w (ix2 j k) := by
  rw [dotGeneral_plain_apply]
  exact Finset.sum_congr rfl fun k _ => by rw [transpose_ix2_apply]

end Idealize.ShloMosaic.Rows

end
-- ==== Proof.LibCosineSoftmax.lean ====
/-
  Cosine similarity of every row of an array against a table of class prototypes, then a softmax
  over the classes: row by row, at the ideal values, for any sizes.

  * `unitRow b v`: the vector `v` divided by its Euclidean length, the length clamped below by the
    value of the word `b`:  v d / max (√(∑ₑ v e · v e)) b.
  * `dots w u`: the inner products of `u` with every row of the table `w`:  k ↦ ∑_d u d · w (k,d).
  * `softmaxRow s`: k ↦ exp (s k − max s) / ∑ⱼ exp (s j − max s), the maximum folded from −∞.

  Each is read off the kernel's spelling (lane reductions, a unit axis added and broadcast, a product
  contracting the last axis of both operands into a zero accumulator) and off the host's
  (`reduce`, two `broadcast_in_dim`s, `dot_general`), as arrays of rows. The statements hold for
  every row count, so one lemma reads a block of rows and the whole array.
-/
import proofs.«420197_j33234456936606_3_alg».proof.Proof.LibRows
import proofs.«420197_j33234456936606_3_alg».proof.Proof.LibDotT
import Mathlib.Data.Finset.Fold

noncomputable section

namespace Idealize.ShloMosaic.Rows

open Idealize.ShloMosaic Idealize.ShloMosaic.ValueIdx

variable {N D K M : ℕ}

/-! ## More layers read row by row -/

theorem sqrt_rows (x : FVec Ideal ⟨2, ![N, K]⟩ .f32) : sqrt x = ofRows fun i k => Ideal.sqrt (rowOf x i k) :=
  ext_ix2 fun _ _ => rfl

theorem hsqrt_rows (x : FVec Ideal ⟨2, ![N, K]⟩ .f32) : Host.sqrt x = ofRows fun i k => Ideal.sqrt (rowOf x i k) :=
  ext_ix2 fun _ _ => rfl

/-- A column (one entry per row) laid along every row, the kernel's way. -/
theorem kspread_eq (a : FVec Ideal ⟨2, ![N, 1]⟩ .f32) (bc : (⟨2, ![N, 1]⟩ : Shape).Broadcasts ⟨2, ![N, M]⟩) :
    broadcastTo ⟨2, ![N, M]⟩ a bc = ofRows fun i _ => a (ix2 i (0 : Fin 1)) := by
  refine ext_ix2 fun i j => ?_
  exact broadcastTo_apply a bc (ix2 i j) (ix2 i (0 : Fin 1)) (by
    intro b
    match b with
    | ⟨0, _⟩ =>
      show i.val = if N = 1 then 0 else i.val
      split
      · have := i.isLt; omega
      · rfl
    | ⟨1, _⟩ => rfl)

/-- A column laid along every row, the host's way. -/
theorem hspread_eq (a : FVec Ideal ⟨2, ![N, 1]⟩ .f32) (b2 : (⟨2, ![N, 1]⟩ : Shape).BroadcastsInDim ⟨2, ![N, M]⟩ ![0, 1]) :
    broadcastInDim ⟨2, ![N, M]⟩ ![0, 1] b2 a = ofRows fun i _ => a (ix2 i (0 : Fin 1)) := by
  refine ext_ix2 fun i j => ?_
  exact broadcastInDim_apply ![0, 1] b2 a (ix2 i j) (ix2 i (0 : Fin 1)) (by
    intro b
    match b with
    | ⟨0, _⟩ =>
      show i.val = if N = 1 then 0 else i.val
      split
      · have := i.isLt; omega
      · rfl
    | ⟨1, _⟩ => rfl)

/-- One value per row given a unit feature axis, the host's way. -/
theorem hcol1_eq (c : FVec Ideal ⟨1, ![N]⟩ .f32) (b1 : (⟨1, ![N]⟩ : Shape).BroadcastsInDim ⟨2, ![N, 1]⟩ ![0]) :
    broadcastInDim ⟨2, ![N, 1]⟩ ![0] b1 c = ofRows fun i _ => valOf c i := by
  refine ext_ix2 fun i j => ?_
  exact broadcastInDim_apply ![0] b1 c (ix2 i j) (ix1 i) (by
    intro b
    match b with
    | ⟨0, _⟩ =>
      show i.val = if N = 1 then 0 else i.val
      split
      · have := i.isLt; omega
      · rfl)

/-- The host's product contracting the last axis of both operands, at (i, j): ∑ₖ l (i,k) · r (j,k). -/
theorem dotGeneral_trhs_apply (l : FVec Ideal ⟨2, ![N, K]⟩ .f32) (r : FVec Ideal ⟨2, ![M, K]⟩ .f32) (i : Fin N) (j : Fin M) :
    Host.dotGeneral (DotDims.transposedRhs N K M) none l r (ix2 i j) = ∑ k : Fin K, l (ix2 i k) * r (ix2 j k) := by
  show FloatOps.dotGeneral (DotDims.transposedRhs N K M) none .single l r (ix2 i j) = _
  rw [Ideal.dotGeneral_apply]
  exact trhs_sum l r i j

/-! ## A row divided by its clamped length -/

/-- `v` over its Euclidean length, the length clamped below by the value of the word `b`. -/
def unitRow (b : BitVec 32) (v : Fin D → EReal) : Fin D → EReal :=
  fun d => Ideal.div (v d) (max (Ideal.sqrt (∑ e : Fin D, v e * v e)) (Ideal.ofBits .f32 b))

/-- The kernel's spelling: the lane sum of squares, a unit axis, the root, the clamp against a splat, the column
    broadcast along the row, the quotient. -/
theorem knormalize_eq (x : FVec Ideal ⟨2, ![N, D]⟩ .f32) (b : BitVec 32)
    (h : (⟨2, ![N, D]⟩ : Shape).Reduces [1] ⟨1, ![N]⟩) (hφ : FKind.Formats .f32)
    (hacc : (0x00000000#32 : BitVec 32) = FKind.add.neutral .f32 hφ)
    (sc : (⟨1, ![N]⟩ : Shape).ShapeCasts ⟨2, ![N, 1]⟩) (bc : (⟨2, ![N, 1]⟩ : Shape).Broadcasts ⟨2, ![N, D]⟩) :
    divf x (broadcastTo ⟨2, ![N, D]⟩
        (maximumf (sqrt (shapeCast ⟨2, ![N, 1]⟩ (multiReduction .add [1] ⟨1, ![N]⟩ (mulf x x) 0x00000000#32 h hφ hacc) sc))
          (broadcast ⟨2, ![N, 1]⟩ (Scalar.ofBits (F := Ideal) .f32 b))) bc)
      = ofRows fun i => unitRow b (rowOf x i) := by
  rw [mulf_rows, ksum_eq, kcol1_eq, sqrt_rows, maximumf_rows, kspread_eq, divf_rows]
  rfl

/-- The host's spelling: `reduce` from zero, `broadcast_in_dim` to a column, the root, the clamp against a broadcast
    constant, `broadcast_in_dim` along the row, the quotient. -/
theorem hnormalize_eq (x : FVec Ideal ⟨2, ![N, D]⟩ .f32) (b : BitVec 32)
    (h' : (⟨2, ![N, D]⟩ : Shape).ReducesTo [1] ⟨1, ![N]⟩) (h : (⟨2, ![N, D]⟩ : Shape).Reduces [1] ⟨1, ![N]⟩)
    (hu : 0 < (⟨0, ![]⟩ : Shape).numel)
    (b1 : (⟨1, ![N]⟩ : Shape).BroadcastsInDim ⟨2, ![N, 1]⟩ ![0])
    (b0 : (⟨0, ![]⟩ : Shape).BroadcastsInDim ⟨2, ![N, 1]⟩ ![])
    (b2 : (⟨2, ![N, 1]⟩ : Shape).BroadcastsInDim ⟨2, ![N, D]⟩ ![0, 1]) :
    Host.divf x (broadcastInDim ⟨2, ![N, D]⟩ ![0, 1] b2
        (maximumf (Host.sqrt (broadcastInDim ⟨2, ![N, 1]⟩ ![0] b1
            (Host.reduceAdd (mulf x x) (constant (F := Ideal) ⟨0, ![]⟩ .f32 0x00000000#32) h' hu)))
          (broadcastInDim ⟨2, ![N, 1]⟩ ![] b0 (constant (F := Ideal) ⟨0, ![]⟩ .f32 b))))
      = ofRows fun i => unitRow b (rowOf x i) := by
  rw [mulf_rows, hsum_eq _ h' h hu, hcol1_eq, hsqrt_rows, maximumf_rows, hspread_eq, hdivf_rows]
  rfl

/-! ## Inner products with every row of a table -/

/-- The inner products of `u` with the rows of `w`. -/
def dots (w : (⟨2, ![K, D]⟩ : Shape).Idx → EReal) (u : Fin D → EReal) : Fin K → EReal :=
  fun k => ∑ d : Fin D, u d * w (ix2 k d)

/-- The kernel's spelling, whatever the operands' float formats. -/
theorem kdots_eq {φ₁ φ₂ : FTy} (a : FVec Ideal ⟨2, ![N, D]⟩ φ₁) (w : FVec Ideal ⟨2, ![K, D]⟩ φ₂) :
    matmul (DotDims.transposedRhs N D K) none a w (constant ⟨2, ![N, K]⟩ .f32 0x00000000#32)
      = ofRows fun i => dots w fun d => a (ix2 i d) :=
  ext_ix2 fun i j => by rw [matmul_trhs_apply]; rfl

/-- The host's spelling. -/
theorem hdots_eq (a : FVec Ideal ⟨2, ![N, D]⟩ .f32) (w : FVec Ideal ⟨2, ![K, D]⟩ .f32) :
    Host.dotGeneral (DotDims.transposedRhs N D K) none a w = ofRows fun i => dots w (rowOf a i) :=
  ext_ix2 fun i j => by rw [dotGeneral_trhs_apply]; rfl

/-- The kernel's cosine scores: the rows divided by their clamped lengths, changed to a narrower float format (no change
    at the ideal values), multiplied with the table. -/
theorem kcosine_eq {φ₂ : FTy} (x : FVec Ideal ⟨2, ![N, D]⟩ .f32) (w : FVec Ideal ⟨2, ![K, D]⟩ φ₂) (b : BitVec 32)
    (h : (⟨2, ![N, D]⟩ : Shape).Reduces [1] ⟨1, ![N]⟩) (hφ : FKind.Formats .f32)
    (hacc : (0x00000000#32 : BitVec 32) = FKind.add.neutral .f32 hφ)
    (sc : (⟨1, ![N]⟩ : Shape).ShapeCasts ⟨2, ![N, 1]⟩) (bc : (⟨2, ![N, 1]⟩ : Shape).Broadcasts ⟨2, ![N, D]⟩)
    (hb : FTy.bits .bf16 < FTy.bits .f32) :
    matmul (DotDims.transposedRhs N D K) none
        (truncf .bf16 (divf x (broadcastTo ⟨2, ![N, D]⟩
          (maximumf (sqrt (shapeCast ⟨2, ![N, 1]⟩ (multiReduction .add [1] ⟨1, ![N]⟩ (mulf x x) 0x00000000#32 h hφ hacc) sc))
            (broadcast ⟨2, ![N, 1]⟩ (Scalar.ofBits (F := Ideal) .f32 b))) bc)) hb)
        w (constant ⟨2, ![N, K]⟩ .f32 0x00000000#32)
      = ofRows fun i => dots w (unitRow b (rowOf x i)) := by
  rw [kdots_eq, knormalize_eq]
  rfl

/-- The host's cosine scores: both operands' rows divided by their clamped lengths, then the product. -/
theorem hcosine_eq (x : FVec Ideal ⟨2, ![N, D]⟩ .f32) (mu : FVec Ideal ⟨2, ![K, D]⟩ .f32) (b : BitVec 32) :
    Host.dotGeneral (DotDims.transposedRhs N D K) none (ofRows fun i => unitRow b (rowOf x i)) (ofRows fun k => unitRow b (rowOf mu k))
      = ofRows fun i => dots (ofRows fun k => unitRow b (rowOf mu k)) (unitRow b (rowOf x i)) := by
  rw [hdots_eq]
  rfl

/-! ## Softmax along a row -/

/-- The softmax of a row, shifted by its maximum. -/
def softmaxRow (s : Fin K → EReal) : Fin K → EReal :=
  fun k => Ideal.div (Ideal.exp (s k - rowMax s)) (∑ j : Fin K, Ideal.exp (s j - rowMax s))

/-- The fold of `max` is at least the value it starts from. -/
theorem max_init_rowMax (v : Fin M → EReal) : max (Ideal.ofBits .f32 0xFF800000#32) (rowMax v) = rowMax v :=
  max_eq_right ((Finset.le_fold_max _).mpr (Or.inl le_rfl))

/-- The kernel's numerator: exp of the row shifted by its lane maximum. -/
theorem kexpshift_eq (s : FVec Ideal ⟨2, ![N, K]⟩ .f32)
    (h : (⟨2, ![N, K]⟩ : Shape).Reduces [1] ⟨1, ![N]⟩) (hφ : FKind.Formats .f32)
    (hacc : (0xFF800000#32 : BitVec 32) = FKind.maximumf.neutral .f32 hφ)
    (sc : (⟨1, ![N]⟩ : Shape).ShapeCasts ⟨2, ![N, 1]⟩) (bc : (⟨2, ![N, 1]⟩ : Shape).Broadcasts ⟨2, ![N, K]⟩) :
    exp (subf s (broadcastTo ⟨2, ![N, K]⟩
        (shapeCast ⟨2, ![N, 1]⟩ (multiReduction .maximumf [1] ⟨1, ![N]⟩ s 0xFF800000#32 h hφ hacc) sc) bc))
      = ofRows fun i k => Ideal.exp (rowOf s i k - rowMax (rowOf s i)) := by
  rw [kmax_eq, kcol_eq, subf_rows, exp_rows]
  rfl

/-- The kernel's quotient by the lane sum. -/
theorem kdivsum_eq (v e : FVec Ideal ⟨2, ![N, K]⟩ .f32)
    (h : (⟨2, ![N, K]⟩ : Shape).Reduces [1] ⟨1, ![N]⟩) (hφ : FKind.Formats .f32)
    (hacc : (0x00000000#32 : BitVec 32) = FKind.add.neutral .f32 hφ)
    (sc : (⟨1, ![N]⟩ : Shape).ShapeCasts ⟨2, ![N, 1]⟩) (bc : (⟨2, ![N, 1]⟩ : Shape).Broadcasts ⟨2, ![N, K]⟩) :
    divf v (broadcastTo ⟨2, ![N, K]⟩
        (shapeCast ⟨2, ![N, 1]⟩ (multiReduction .add [1] ⟨1, ![N]⟩ e 0x00000000#32 h hφ hacc) sc) bc)
      = ofRows fun i k => Ideal.div (rowOf v i k) (∑ j : Fin K, rowOf e i j) := by
  rw [ksum_eq, kcol_eq, divf_rows]
  rfl

/-- The host's numerator: the row maximum from −∞, joined once more with −∞, broadcast in two steps, subtracted,
    exponentiated. -/
theorem hexpshift_eq (s : FVec Ideal ⟨2, ![N, K]⟩ .f32)
    (h' : (⟨2, ![N, K]⟩ : Shape).ReducesTo [1] ⟨1, ![N]⟩) (h : (⟨2, ![N, K]⟩ : Shape).Reduces [1] ⟨1, ![N]⟩)
    (hu : 0 < (⟨0, ![]⟩ : Shape).numel)
    (b0 : (⟨0, ![]⟩ : Shape).BroadcastsInDim ⟨1, ![N]⟩ ![])
    (b1 : (⟨1, ![N]⟩ : Shape).BroadcastsInDim ⟨2, ![N, 1]⟩ ![0])
    (b2 : (⟨2, ![N, 1]⟩ : Shape).BroadcastsInDim ⟨2, ![N, K]⟩ ![0, 1]) :
    Host.exp (subf s (broadcastInDim ⟨2, ![N, K]⟩ ![0, 1] b2 (broadcastInDim ⟨2, ![N, 1]⟩ ![0] b1
        (maximumf (broadcastInDim ⟨1, ![N]⟩ ![] b0 (constant (F := Ideal) ⟨0, ![]⟩ .f32 0xFF800000#32))
          (Host.reduce FloatOps.maximumf s (constant (F := Ideal) ⟨0, ![]⟩ .f32 0xFF800000#32) h' hu)))))
      = ofRows fun i k => Ideal.exp (rowOf s i k - rowMax (rowOf s i)) := by
  rw [hmax_eq s h' h hu, maximumf_vals, hcol_eq, subf_rows, hexp_rows]
  refine ext_ix2 fun i k => ?_
  show Ideal.exp (s (ix2 i k) - max (Ideal.ofBits .f32 0xFF800000#32) (rowMax (rowOf s i))) = _
  rw [max_init_rowMax]
  rfl

/-- The host's quotient by the row sum. -/
theorem hdivsum_eq (v e : FVec Ideal ⟨2, ![N, K]⟩ .f32)
    (h' : (⟨2, ![N, K]⟩ : Shape).ReducesTo [1] ⟨1, ![N]⟩) (h : (⟨2, ![N, K]⟩ : Shape).Reduces [1] ⟨1, ![N]⟩)
    (hu : 0 < (⟨0, ![]⟩ : Shape).numel)
    (b1 : (⟨1, ![N]⟩ : Shape).BroadcastsInDim ⟨2, ![N, 1]⟩ ![0])
    (b2 : (⟨2, ![N, 1]⟩ : Shape).BroadcastsInDim ⟨2, ![N, K]⟩ ![0, 1]) :
    Host.divf v (broadcastInDim ⟨2, ![N, K]⟩ ![0, 1] b2 (broadcastInDim ⟨2, ![N, 1]⟩ ![0] b1
        (Host.reduceAdd e (constant (F := Ideal) ⟨0, ![]⟩ .f32 0x00000000#32) h' hu)))
      = ofRows fun i k => Ideal.div (rowOf v i k) (∑ j : Fin K, rowOf e i j) := by
  rw [hsum_eq e h' h hu, hcol_eq, hdivf_rows]
  rfl

/-- Numerator over its row sum is the softmax of the row. -/
theorem softmax_of_expshift (s : FVec Ideal ⟨2, ![N, K]⟩ .f32) :
    (ofRows fun i k => Ideal.div (rowOf (ofRows fun i k => Ideal.exp (rowOf s i k - rowMax (rowOf s i))) i k)
        (∑ j : Fin K, rowOf (ofRows fun i k => Ideal.exp (rowOf s i k - rowMax (rowOf s i))) i j))
      = (ofRows fun i => softmaxRow (rowOf s i) : FVec Ideal ⟨2, ![N, K]⟩ .f32) := rfl

/-! ## The whole operator -/

/-- Row `n` of the result: the softmax over the classes of the cosine similarities of row `n` of `x` with the rows of
    `mu`, every length clamped below by the value of the word `b`. -/
def cosineSoftmax (b : BitVec 32) (x : FVec Ideal ⟨2, ![N, D]⟩ .f32) (mu : FVec Ideal ⟨2, ![K, D]⟩ .f32) :
    FVec Ideal ⟨2, ![N, K]⟩ .f32 :=
  ofRows fun n => softmaxRow (dots (ofRows fun k => unitRow b (rowOf mu k)) (unitRow b (rowOf x n)))

end Idealize.ShloMosaic.Rows

end
-- ==== Proof.LibReal.lean ====
/-
  Real-valued arrays of extended reals, and the operations that keep them real-valued.

  An array of extended reals is called real-valued when every entry is the image of a real number
  (neither ⊤ nor ⊥). Sums, differences and products of reals are real; a finite sum of reals is
  real; a re-indexing of a real-valued array (broadcast, reshape, slice, gather) is real-valued,
  because each of its entries is an entry of the operand; a contraction, a scatter-add and a reduction
  of real-valued arrays are finite sums of reals; a quotient by a nonzero real and the inverse square
  root of a positive real are real. The last part gives the two positivity facts a batch normalisation
  over message-passing layers needs: a count plus one is at least one, and a mean of squares plus a
  positive offset is positive.
-/
import Idealize.ShloMosaic.PureOps.Ideal
import Idealize.ShloMosaic.PureOps.Ideal.Laws
import Mathlib.Data.EReal.Inv
import Mathlib.Algebra.BigOperators.Group.Finset.Basic
import Mathlib.Algebra.Order.BigOperators.Group.Finset

noncomputable section

namespace Cert.Lib

open Idealize.ShloMosaic
open scoped BigOperators

/-! ### Real-valued arrays -/

/-- An array of extended reals is real-valued when every entry is the image of a real number. -/
def IsReal {ι : Type} (f : ι → EReal) : Prop := ∀ i, ∃ r : ℝ, f i = (r : EReal)

/-- The image of a finite sum of reals is the sum of the images. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A sum of two reals is real. -/
theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

/-- A difference of two reals is real. -/
theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

/-- A product of two reals is real. -/
theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

/-- A finite sum of reals is real. -/
theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

/-- A finite sum of nonnegative reals is a nonnegative real. -/
theorem nonneg_real_sum {ι : Type} (s : Finset ι) (f : ι → EReal)
    (h : ∀ i ∈ s, ∃ r : ℝ, 0 ≤ r ∧ f i = (r : EReal)) : ∃ r : ℝ, 0 ≤ r ∧ ∑ i ∈ s, f i = (r : EReal) := by
  classical
  induction s using Finset.induction_on with
  | empty => exact ⟨0, le_rfl, by simp⟩
  | insert a s ha ih =>
    obtain ⟨x, hx0, hx⟩ := h a (Finset.mem_insert_self a s)
    obtain ⟨y, hy0, hy⟩ := ih fun i hi => h i (Finset.mem_insert_of_mem hi)
    exact ⟨x + y, add_nonneg hx0 hy0, by rw [Finset.sum_insert ha, hx, hy, EReal.coe_add]⟩

/-- A quotient by a nonzero real is real. -/
theorem real_div {x : EReal} (hx : ∃ r : ℝ, x = (r : EReal)) {n : ℝ} (hn : n ≠ 0) :
    ∃ r : ℝ, Ideal.div x (n : EReal) = (r : EReal) := by
  obtain ⟨a, rfl⟩ := hx
  exact ⟨a * (1 / n), by rw [Ideal.div_coe hn, EReal.coe_mul]⟩

/-- The inverse square root of a positive real is real. -/
theorem real_rsqrt {x : EReal} (hx : ∃ r : ℝ, 0 < r ∧ x = (r : EReal)) : ∃ r : ℝ, Ideal.rsqrt x = (r : EReal) := by
  obtain ⟨a, ha, rfl⟩ := hx
  exact ⟨(Real.sqrt a)⁻¹, by rw [Ideal.rsqrt_coe, if_neg (not_lt.2 ha.le), if_neg ha.ne']⟩

/-- A re-indexing of a real-valued array is real-valued: each entry is an entry of the operand. -/
theorem IsReal.comp {ι κ : Type} {f : ι → EReal} (hf : IsReal f) (g : κ → ι) : IsReal fun j => f (g j) :=
  fun j => hf (g j)

/-- An array all of whose entries are one real number is real-valued. -/
theorem isReal_const {ι : Type} (r : ℝ) : IsReal fun _ : ι => (r : EReal) := fun _ => ⟨r, rfl⟩

/-! ### The float constants zero and one -/

/-- The f32 pattern of +0.0 denotes 0. -/
theorem ofBits_zero : Ideal.ofBits .f32 0x00000000#32 = ((0 : ℝ) : EReal) := by
  simp [Ideal.ofBits, Ideal.ieee]

/-- The f32 pattern 0x3F800000 denotes 1. -/
theorem ofBits_one : Ideal.ofBits .f32 0x3F800000#32 = ((1 : ℝ) : EReal) := by
  simp [Ideal.ofBits, Ideal.ieee, -EReal.coe_mul]; norm_num

/-- A splat of a float constant whose pattern denotes a real number is real-valued. -/
theorem isReal_constant {s : Shape} {b : BitVec 32} {r : ℝ} (hb : Ideal.ofBits .f32 b = (r : EReal)) :
    IsReal (constant (F := Ideal) s .f32 b) := fun _ => ⟨r, hb⟩

/-! ### Pointwise operations -/

section Pointwise
variable {s : Shape} {φ : FTy} {x y : FVec Ideal s φ}

/-- The entrywise sum of real-valued arrays is real-valued. -/
theorem isReal_addf (hx : IsReal x) (hy : IsReal y) : IsReal (addf x y) := fun i => real_add (hx i) (hy i)

/-- The entrywise difference of real-valued arrays is real-valued. -/
theorem isReal_subf (hx : IsReal x) (hy : IsReal y) : IsReal (subf x y) := fun i => real_sub (hx i) (hy i)

/-- The entrywise product of real-valued arrays is real-valued. -/
theorem isReal_mulf (hx : IsReal x) (hy : IsReal y) : IsReal (mulf x y) := fun i => real_mul (hx i) (hy i)

/-- The host's entrywise quotient by a splat of a nonzero real is real-valued. -/
theorem isReal_hostDivf_const (hx : IsReal x) {n : ℝ} (hn : n ≠ 0) (hy : ∀ i, y i = (n : EReal)) :
    IsReal (Host.divf x y) := fun i => by
  show ∃ r : ℝ, Ideal.div (x i) (y i) = (r : EReal)
  rw [hy i]; exact real_div (hx i) hn

/-- The kernel's entrywise quotient by a splat of a nonzero real is real-valued. -/
theorem isReal_divf_const (hx : IsReal x) {n : ℝ} (hn : n ≠ 0) (hy : ∀ i, y i = (n : EReal)) :
    IsReal (divf x y) := fun i => by
  show ∃ r : ℝ, Ideal.div (x i) (y i) = (r : EReal)
  rw [hy i]; exact real_div (hx i) hn

/-- The host's entrywise inverse square root of an array of positive reals is real-valued. -/
theorem isReal_hostRsqrt (hx : ∀ i, ∃ r : ℝ, 0 < r ∧ x i = (r : EReal)) : IsReal (Host.rsqrt x) :=
  fun i => real_rsqrt (hx i)

/-- The kernel's entrywise inverse square root of an array of positive reals is real-valued. -/
theorem isReal_rsqrt (hx : ∀ i, ∃ r : ℝ, 0 < r ∧ x i = (r : EReal)) : IsReal (rsqrt x) :=
  fun i => real_rsqrt (hx i)

end Pointwise

/-! ### Re-indexings: each output entry is an input entry -/

section Reindex
variable {s t : Shape}

/-- A broadcast along named axes of a real-valued array is real-valued. -/
theorem isReal_broadcastInDim {x : s.Idx → EReal} (hx : IsReal x) (dims : Fin s.rank → Fin t.rank)
    (h : s.BroadcastsInDim t dims) : IsReal (broadcastInDim t dims h x) := fun _ => hx _

/-- A trailing-axes broadcast of a real-valued array is real-valued. -/
theorem isReal_broadcastTo {x : s.Idx → EReal} (hx : IsReal x) (h : s.Broadcasts t) :
    IsReal (broadcastTo t x h) := fun _ => hx _

/-- A reshape of a real-valued array is real-valued. -/
theorem isReal_shapeCast {x : s.Idx → EReal} (hx : IsReal x) (h : s.ShapeCasts t) :
    IsReal (shapeCast t x h) := fun _ => hx _

/-- A slice of a real-valued array is real-valued. -/
theorem isReal_extractStridedSlice {x : s.Idx → EReal} (hx : IsReal x) (off : Fin s.rank → Nat)
    (h : s.Slices off t) : IsReal (extractStridedSlice t off x h) := fun _ => hx _

/-- A gather from a real-valued array is real-valued, whatever the (clamped) start indices. -/
theorem isReal_gather {si : Shape} {w : Nat} {x : s.Idx → EReal} (hx : IsReal x) (d : GatherDims s si t)
    (idx : IVec si w) : IsReal (Host.gather d x idx) := fun _ => hx _

end Reindex

/-! ### Contractions, scatter-adds, reductions: finite sums of reals -/

/-- A contraction of real-valued operands onto a real-valued accumulator is real-valued. -/
theorem isReal_matmul {sl sr so : Shape} (d : DotDims sl sr so) {lhs : sl.Idx → EReal} {rhs : sr.Idx → EReal}
    {acc : so.Idx → EReal} (hl : IsReal lhs) (hr : IsReal rhs) (ha : IsReal acc) :
    IsReal (Ideal.matmul d lhs rhs acc) := fun j =>
  real_add (ha j) (real_sum _ _ fun k _ => real_mul (hl _) (hr _))

/-- The kernel's matrix product of real-valued operands onto a real-valued accumulator is real-valued. -/
theorem isReal_matmulOp {sl sr so : Shape} {φ₁ φ₂ : FTy} (d : DotDims sl sr so) (prec : Option ContractPrecision)
    {lhs : FVec Ideal sl φ₁} {rhs : FVec Ideal sr φ₂} {acc : FVec Ideal so .f32}
    (hl : IsReal lhs) (hr : IsReal rhs) (ha : IsReal acc) : IsReal (matmul d prec lhs rhs acc) :=
  isReal_matmul d hl hr ha

/-- The host's dot product of real-valued operands is real-valued. -/
theorem isReal_dotGeneral {sl sr so : Shape} {φ₁ φ₂ : FTy} (d : DotDims sl sr so) (prec : Option ContractPrecision)
    {lhs : FVec Ideal sl φ₁} {rhs : FVec Ideal sr φ₂} (hl : IsReal lhs) (hr : IsReal rhs) :
    IsReal (Host.dotGeneral d prec lhs rhs) :=
  isReal_matmul d hl hr fun _ => ⟨0, rfl⟩

/-- A scatter-add of real-valued updates into a real-valued operand is real-valued: each entry is the
    operand's plus a finite sum of updates. -/
theorem isReal_hostScatterAdd {s si su : Shape} (d : ScatterDims s si su) {w : Nat} {x : s.Idx → EReal}
    (idx : IVec si w) {upd : su.Idx → EReal} (hx : IsReal x) (hu : IsReal upd) :
    IsReal (Ideal.hostScatterAdd d x idx upd) := fun i =>
  real_add (hx i) (real_sum _ _ fun j _ => hu j)

/-- The host's scatter-add operation on real-valued arrays is real-valued. -/
theorem isReal_scatterAdd {s si su : Shape} {φ : FTy} (d : ScatterDims s si su) {w : Nat} {x : FVec Ideal s φ}
    (idx : IVec si w) {upd : FVec Ideal su φ} (hx : IsReal x) (hu : IsReal upd) :
    IsReal (Host.scatterAdd d x idx upd) :=
  isReal_hostScatterAdd d idx hx hu

/-- The host's sum reduction of a real-valued array from a real initial value is real-valued. -/
theorem isReal_hostReduceAdd {s : Shape} {axes : List (Fin s.rank)} {t : Shape} (h : s.ReducesTo axes t)
    {x : s.Idx → EReal} {init : EReal} (hx : IsReal x) (hi : ∃ r : ℝ, init = (r : EReal)) :
    IsReal (Ideal.hostReduceAdd h x init) := fun _ =>
  real_add hi (real_sum _ _ fun i _ => hx i)

/-- The kernel's sum reduction of a real-valued array is real-valued. -/
theorem isReal_reduceAdd {s : Shape} {axes : List (Fin s.rank)} {t : Shape} (h : s.Reduces axes t)
    {x : s.Idx → EReal} (hx : IsReal x) : IsReal (Ideal.reduceAdd h x) := fun _ =>
  real_sum _ _ fun i _ => hx i

/-! ### Two positivity facts -/

/-- A scatter-add of nonnegative reals into nonnegative reals is a nonnegative real at every entry
    (with zeros and ones: the number of updates that land there). -/
theorem hostScatterAdd_nonneg {s si su : Shape} (d : ScatterDims s si su) {w : Nat} {x : s.Idx → EReal}
    (idx : IVec si w) {upd : su.Idx → EReal} (hx : ∀ i, ∃ r : ℝ, 0 ≤ r ∧ x i = (r : EReal))
    (hu : ∀ j, ∃ r : ℝ, 0 ≤ r ∧ upd j = (r : EReal)) (i : s.Idx) :
    ∃ r : ℝ, 0 ≤ r ∧ Ideal.hostScatterAdd d x idx upd i = (r : EReal) := by
  obtain ⟨a, ha0, ha⟩ := hx i
  obtain ⟨b, hb0, hb⟩ := nonneg_real_sum (Finset.univ.filter fun j => d.resultIdx? j idx = some i) upd fun j _ => hu j
  exact ⟨a + b, add_nonneg ha0 hb0, by unfold Ideal.hostScatterAdd; rw [ha, hb, EReal.coe_add]⟩

/-- A count — ones scatter-added into zeros — plus one is a real number at least one, so positive. -/
theorem count_add_one_pos {s si su : Shape} (d : ScatterDims s si su) {w : Nat} (idx : IVec si w) (i : s.Idx) :
    ∃ r : ℝ, 0 < r ∧
      Ideal.hostScatterAdd d (fun _ => ((0 : ℝ) : EReal)) idx (fun _ => ((1 : ℝ) : EReal)) i + ((1 : ℝ) : EReal)
        = (r : EReal) := by
  obtain ⟨a, ha0, ha⟩ := hostScatterAdd_nonneg d idx (x := fun _ => ((0 : ℝ) : EReal))
    (upd := fun _ => ((1 : ℝ) : EReal)) (fun _ => ⟨0, le_rfl, rfl⟩) (fun _ => ⟨1, zero_le_one, rfl⟩) i
  exact ⟨a + 1, by linarith, by rw [ha, EReal.coe_add]⟩

/-- The same over the host's operations as a program composes them: ones scatter-added into zeros, then a splat of
    one added entrywise, is a positive real at every entry, whatever the scatter indices. -/
theorem scatterAdd_ones_add_one_pos {s si su : Shape} (d : ScatterDims s si su) {w : Nat} (idx : IVec si w)
    (x one : FVec Ideal s .f32) (upd : FVec Ideal su .f32) (hx : ∀ i, x i = ((0 : ℝ) : EReal))
    (hu : ∀ j, upd j = ((1 : ℝ) : EReal)) (h1 : ∀ i, one i = ((1 : ℝ) : EReal)) (i : s.Idx) :
    ∃ r : ℝ, 0 < r ∧ addf (Host.scatterAdd d x idx upd) one i = (r : EReal) := by
  obtain ⟨a, ha0, ha⟩ := hostScatterAdd_nonneg d idx (x := x) (upd := upd) (fun i => ⟨0, le_rfl, hx i⟩)
    (fun j => ⟨1, zero_le_one, hu j⟩) i
  refine ⟨a + 1, by linarith, ?_⟩
  show Ideal.hostScatterAdd d x idx upd i + one i = _
  rw [ha, h1 i, EReal.coe_add]

/-- For real a_i, a real centre μ, a positive real N and a positive real ε, the mean of the squared
    deviations plus ε, ((Σ_i (a_i − μ)·(a_i − μ)) / N) + ε, is a positive real. -/
theorem meanSq_add_eps_pos {ι : Type} [Fintype ι] (a : ι → ℝ) (μ N ε : ℝ) (hN : 0 < N) (hε : 0 < ε) :
    ∃ r : ℝ, 0 < r ∧
      Ideal.div (∑ i, ((a i : EReal) - (μ : EReal)) * ((a i : EReal) - (μ : EReal))) (N : EReal) + (ε : EReal)
        = (r : EReal) := by
  refine ⟨(∑ i, (a i - μ) * (a i - μ)) * (1 / N) + ε, ?_, ?_⟩
  · have h1 : 0 ≤ ∑ i, (a i - μ) * (a i - μ) := Finset.sum_nonneg fun i _ => mul_self_nonneg _
    have h2 : 0 ≤ (∑ i, (a i - μ) * (a i - μ)) * (1 / N) := mul_nonneg h1 (by positivity)
    linarith
  · have hs : (∑ i, ((a i : EReal) - (μ : EReal)) * ((a i : EReal) - (μ : EReal)))
        = ((∑ i, (a i - μ) * (a i - μ) : ℝ) : EReal) := by
      rw [coe_sum]; exact Finset.sum_congr rfl fun i _ => by rw [EReal.coe_mul, EReal.coe_sub]
    rw [hs, Ideal.div_coe hN.ne', ← EReal.coe_mul, ← EReal.coe_add]

/-- The variance offset ε, the f32 pattern 0x3727C5AC (the float nearest 1e-5), denotes the positive real
    10995116 · 2⁻⁴⁰. -/
theorem ofBits_eps : Ideal.ofBits .f32 0x3727C5AC#32 = (((10995116 : ℝ) * (2 : ℝ) ^ (-40 : ℤ) : ℝ) : EReal) := by
  simp [Ideal.ofBits, Ideal.ieee, -EReal.coe_mul]

/-- The value of ε is positive. -/
theorem eps_pos : (0 : ℝ) < (10995116 : ℝ) * (2 : ℝ) ^ (-40 : ℤ) := by positivity

end Cert.Lib

end
-- ==== Proof.AttnSpec.lean ====
/-
  Scaled dot-product attention with a key mask, as a function on the extended reals, one query row at a time.

  For a query row q (a vector of 1024 features), key rows K_k and a mask row, the score of key k is
  (q · K_k) / 32 where the mask keeps it and −∞ where the mask is zero; the weights are the softmax of the scores
  shifted by their maximum; the mixed value is the weighted sum of the value rows; the result is one more affine layer.
  Queries, keys and values are themselves affine layers of the activations.

  Two spellings of the weights occur. One divides the shifted exponentials by their sum and stops there; the other
  then writes 0 at every masked position. They agree exactly when the division leaves 0 at a masked position, and
  that holds when the row keeps at least one key and every kept score is a real number: the maximum is then real, a
  masked exponential is exp(−∞) = 0, the sum is at least exp(0) = 1, and 0 divided by a nonzero sum is 0.
  (On a row with no key the sum is 0 and 0/0 is not 0 on the extended reals.)
-/
import proofs.«420197_j33234456936606_3_alg».proof.Proof.LibRows
import proofs.«420197_j33234456936606_3_alg».proof.Proof.LibCosineSoftmax
import proofs.«420197_j33234456936606_3_alg».proof.Proof.LibReal

noncomputable section

namespace Cert.Attn

open Idealize.ShloMosaic Idealize.ShloMosaic.ValueIdx Idealize.ShloMosaic.Rows

/-! ## Three-axis arrays from coordinates -/

/-- A three-axis array whose entry at (a, b, c) is `f a b c`. -/
def arr3 {α : Type} {n0 n1 n2 : ℕ} (f : Fin n0 → Fin n1 → Fin n2 → α) : (⟨3, ![n0, n1, n2]⟩ : Shape).Idx → α :=
  fun i => f (i 0) (i 1) (i 2)

theorem arr3_apply {α : Type} {n0 n1 n2 : ℕ} (f : Fin n0 → Fin n1 → Fin n2 → α) (a : Fin n0) (b : Fin n1) (c : Fin n2) :
    arr3 f (ix3 a b c) = f a b c := rfl

/-- Two three-axis arrays that agree at every (a, b, c) are equal. -/
theorem ext_ix3 {α : Type} {n0 n1 n2 : ℕ} {A B : (⟨3, ![n0, n1, n2]⟩ : Shape).Idx → α}
    (h : ∀ a b c, A (ix3 a b c) = B (ix3 a b c)) : A = B :=
  funext fun i => by rw [eq_ix3 i]; exact h _ _ _

/-! ## The shapes -/

/-- Activations: batch × position × feature. -/
abbrev SAct : Shape := ⟨3, ![4, 2048, 1024]⟩
/-- Attention weights: batch × query × key. -/
abbrev SAtt : Shape := ⟨3, ![4, 2048, 2048]⟩
/-- The mask: one batch entry × query × key. -/
abbrev SMask : Shape := ⟨3, ![1, 2048, 2048]⟩
/-- A weight matrix, input-major. -/
abbrev SMat : Shape := ⟨2, ![1024, 1024]⟩
/-- A bias vector. -/
abbrev SVec : Shape := ⟨1, ![1024]⟩

/-! ## One row at a time -/

/-- An affine layer on one row: e ↦ (∑_d u_d · W(d, e)) + b_e. -/
def affineRow (W : SMat.Idx → EReal) (b : Fin 1024 → EReal) (u : Fin 1024 → EReal) : Fin 1024 → EReal :=
  fun e => (∑ d : Fin 1024, u d * W (ix2 d e)) + b e

/-- The scores of one query row against every key row: −∞ where the mask is zero, else (q · K_k) / 32. -/
def scoreRow (mrow : Fin 2048 → BitVec 32) (q : Fin 1024 → EReal) (Kr : Fin 2048 → Fin 1024 → EReal) : Fin 2048 → EReal :=
  fun k => if mrow k = 0#32 then ⊥ else (∑ d : Fin 1024, q d * Kr k d) * ((1 / 32 : ℝ) : EReal)

/-- The softmax of a row of scores with 0 written at every masked position. -/
def maskedSoftmaxRow (mrow : Fin 2048 → BitVec 32) (s : Fin 2048 → EReal) : Fin 2048 → EReal :=
  fun k => if mrow k = 0#32 then 0 else softmaxRow s k

/-- The weighted sum of the value rows. -/
def mixRow (w : Fin 2048 → EReal) (Vr : Fin 2048 → Fin 1024 → EReal) : Fin 1024 → EReal :=
  fun d => ∑ k : Fin 2048, w k * Vr k d

/-! ## Whole arrays -/

/-- Row (bt, s) of an affine layer of the activations. -/
def projRow (x : SAct.Idx → EReal) (W : SMat.Idx → EReal) (b : SVec.Idx → EReal) (bt : Fin 4) (s : Fin 2048) : Fin 1024 → EReal :=
  affineRow W (fun e => b (ix1 e)) (fun d => x (ix3 bt s d))

/-- Query row `q` of the mask. -/
def maskRow (M : SMask.Idx → BitVec 32) (q : Fin 2048) : Fin 2048 → BitVec 32 := fun k => M (ix3 (0 : Fin 1) q k)

/-- The scores of query (bt, q). -/
def scoresOf (x : SAct.Idx → EReal) (M : SMask.Idx → BitVec 32) (Wq : SMat.Idx → EReal) (bq : SVec.Idx → EReal)
    (Wk : SMat.Idx → EReal) (bk : SVec.Idx → EReal) (bt : Fin 4) (q : Fin 2048) : Fin 2048 → EReal :=
  scoreRow (maskRow M q) (projRow x Wq bq bt q) (fun k => projRow x Wk bk bt k)

/-- The attention weights with 0 written at masked positions. -/
def weightsZeroed (x : SAct.Idx → EReal) (M : SMask.Idx → BitVec 32) (Wq : SMat.Idx → EReal) (bq : SVec.Idx → EReal)
    (Wk : SMat.Idx → EReal) (bk : SVec.Idx → EReal) : SAtt.Idx → EReal :=
  arr3 fun bt q => maskedSoftmaxRow (maskRow M q) (scoresOf x M Wq bq Wk bk bt q)

/-- The attention weights as the plain softmax of the masked scores. -/
def weightsPlain (x : SAct.Idx → EReal) (M : SMask.Idx → BitVec 32) (Wq : SMat.Idx → EReal) (bq : SVec.Idx → EReal)
    (Wk : SMat.Idx → EReal) (bk : SVec.Idx → EReal) : SAtt.Idx → EReal :=
  arr3 fun bt q => softmaxRow (scoresOf x M Wq bq Wk bk bt q)

/-- The layer's output from given weights: mix the value rows, then the output projection. -/
def outputOf (w : SAtt.Idx → EReal) (x : SAct.Idx → EReal) (Wv : SMat.Idx → EReal) (bv : SVec.Idx → EReal)
    (Wo : SMat.Idx → EReal) (bo : SVec.Idx → EReal) : SAct.Idx → EReal :=
  arr3 fun bt q => affineRow Wo (fun e => bo (ix1 e)) (mixRow (fun k => w (ix3 bt q k)) (fun k => projRow x Wv bv bt k))

/-! ## The same functions over the arrays each kernel region is handed -/

/-- A bias kept as a one-row matrix. -/
abbrev SRow : Shape := ⟨2, ![1, 1024]⟩

/-- One affine layer of every row of the activations, the bias a one-row matrix. -/
def projArr (X : SAct.Idx → EReal) (W : SMat.Idx → EReal) (B : SRow.Idx → EReal) : SAct.Idx → EReal :=
  arr3 fun bt s => affineRow W (fun e => B (ix2 (0 : Fin 1) e)) (fun d => X (ix3 bt s d))

/-- The zeroed attention weights from query and key arrays. -/
def weightsArr (Q K : SAct.Idx → EReal) (M : SMask.Idx → BitVec 32) : SAtt.Idx → EReal :=
  arr3 fun bt q => maskedSoftmaxRow (maskRow M q)
    (scoreRow (maskRow M q) (fun d => Q (ix3 bt q d)) (fun k d => K (ix3 bt k d)))

/-- Weights mixed with a value array, then the output projection, the bias a one-row matrix. -/
def outArr (w : SAtt.Idx → EReal) (Vv : SAct.Idx → EReal) (Wo : SMat.Idx → EReal) (Bo : SRow.Idx → EReal) : SAct.Idx → EReal :=
  arr3 fun bt q => affineRow Wo (fun e => Bo (ix2 (0 : Fin 1) e)) (mixRow (fun k => w (ix3 bt q k)) (fun k d => Vv (ix3 bt k d)))

/-! ## The two spellings of the weights agree -/

/-- The word 0xFF800000 (sign 1, exponent all ones, fraction 0) denotes −∞. -/
theorem ofBits_neg_inf_word : Ideal.ofBits .f32 0xFF800000#32 = (⊥ : EReal) := by
  simp [Ideal.ofBits, Ideal.ieee]

/-- The maximum of a row whose entries are −∞ or real, with at least one real entry, is a real number: it is below
    ⊤ because −∞ and every entry are, and it is at least the real entry, so it is not −∞. -/
theorem rowMax_real {K : ℕ} (s : Fin K → EReal) (hs : ∀ k, s k = ⊥ ∨ ∃ r : ℝ, s k = (r : EReal))
    (hex : ∃ k, ∃ r : ℝ, s k = (r : EReal)) : ∃ m : ℝ, rowMax s = (m : EReal) := by
  have htop : rowMax s ≠ ⊤ := by
    refine ne_of_lt ?_
    unfold rowMax
    rw [ofBits_neg_inf_word, Finset.fold_max_lt]
    refine ⟨bot_lt_top, fun j _ => ?_⟩
    rcases hs j with h | ⟨r, h⟩
    · rw [h]; exact bot_lt_top
    · rw [h]; exact EReal.coe_lt_top r
  have hbot : rowMax s ≠ ⊥ := by
    obtain ⟨j, r, hj⟩ := hex
    have hle : (r : EReal) ≤ rowMax s := by
      unfold rowMax
      rw [Finset.le_fold_max]
      exact Or.inr ⟨j, Finset.mem_univ j, hj.ge⟩
    intro h
    rw [h] at hle
    exact absurd hle (not_le.2 (EReal.bot_lt_coe r))
  exact ⟨(rowMax s).toReal, (EReal.coe_toReal htop hbot).symm⟩

/-- A masked position of a softmax row is 0 when every entry is −∞ or real and some entry is real. -/
theorem softmaxRow_eq_zero_of_bot (s : Fin 2048 → EReal) (hs : ∀ k, s k = ⊥ ∨ ∃ r : ℝ, s k = (r : EReal))
    (hex : ∃ k, ∃ r : ℝ, s k = (r : EReal)) (k : Fin 2048) (hk : s k = ⊥) : softmaxRow s k = 0 := by
  -- the row maximum is a real number m
  obtain ⟨m, hm⟩ := rowMax_real s hs hex
  -- every shifted exponential is a nonnegative real: exp(−∞ − m) = exp(−∞) = 0, and exp(r − m) > 0
  have hterm : ∀ j, ∃ g : ℝ, 0 ≤ g ∧ Ideal.exp (s j - (m : EReal)) = (g : EReal) := by
    intro j
    rcases hs j with h | ⟨r, h⟩
    · exact ⟨0, le_rfl, by rw [h, EReal.bot_sub, Ideal.exp_bot, EReal.coe_zero]⟩
    · exact ⟨Real.exp (r - m), (Real.exp_pos _).le, by rw [h, ← EReal.coe_sub, Ideal.exp_coe]⟩
  -- the term of a real entry is positive and the others are nonnegative, so the sum is a positive real
  obtain ⟨j0, r0, hj0⟩ := hex
  obtain ⟨d, hd0, hd⟩ := Cert.Lib.nonneg_real_sum (Finset.univ.erase j0) (fun j => Ideal.exp (s j - (m : EReal)))
    fun j _ => hterm j
  have hsum : (∑ j : Fin 2048, Ideal.exp (s j - (m : EReal))) = ((Real.exp (r0 - m) + d : ℝ) : EReal) := by
    rw [← Finset.add_sum_erase Finset.univ (fun j => Ideal.exp (s j - (m : EReal))) (Finset.mem_univ j0), hd,
      hj0, ← EReal.coe_sub, Ideal.exp_coe, EReal.coe_add]
  have hne : Real.exp (r0 - m) + d ≠ 0 := by
    have := Real.exp_pos (r0 - m)
    linarith
  -- the numerator at a masked position is exp(−∞) = 0, and 0 divided by a nonzero real is 0
  unfold softmaxRow
  rw [hm, hsum, hk, EReal.bot_sub, Ideal.exp_bot, Ideal.div_coe hne, zero_mul]

/-- Every entry of an affine layer of real activations with a real matrix and a real bias is real. -/
theorem projRow_real (x : SAct.Idx → EReal) (W : SMat.Idx → EReal) (b : SVec.Idx → EReal)
    (hx : Cert.Lib.IsReal x) (hW : Cert.Lib.IsReal W) (hb : Cert.Lib.IsReal b) (bt : Fin 4) (s : Fin 2048) (e : Fin 1024) :
    ∃ r : ℝ, projRow x W b bt s e = (r : EReal) := by
  unfold projRow affineRow
  exact Cert.Lib.real_add (Cert.Lib.real_sum _ _ fun d _ => Cert.Lib.real_mul (hx _) (hW _)) (hb _)

/-- With real activations, weights and biases, and a mask that keeps a key on every query row, writing 0 at the
    masked positions changes nothing. -/
theorem weightsZeroed_eq_plain (x : SAct.Idx → EReal) (M : SMask.Idx → BitVec 32) (Wq : SMat.Idx → EReal) (bq : SVec.Idx → EReal)
    (Wk : SMat.Idx → EReal) (bk : SVec.Idx → EReal)
    (hx : Cert.Lib.IsReal x) (hWq : Cert.Lib.IsReal Wq) (hbq : Cert.Lib.IsReal bq) (hWk : Cert.Lib.IsReal Wk) (hbk : Cert.Lib.IsReal bk)
    (hM : ∀ q : Fin 2048, ∃ k : Fin 2048, M (ix3 (0 : Fin 1) q k) ≠ 0#32) :
    weightsZeroed x M Wq bq Wk bk = weightsPlain x M Wq bq Wk bk := by
  refine ext_ix3 fun bt q k => ?_
  unfold weightsZeroed weightsPlain
  rw [arr3_apply, arr3_apply]
  unfold maskedSoftmaxRow
  by_cases hmk : maskRow M q k = 0#32
  · rw [if_pos hmk]
    -- a kept score is a real number: a product with 1/32 of a finite sum of products of reals
    have hreal : ∀ j, maskRow M q j ≠ 0#32 → ∃ r : ℝ, scoresOf x M Wq bq Wk bk bt q j = (r : EReal) := by
      intro j hj
      unfold scoresOf scoreRow
      rw [if_neg hj]
      exact Cert.Lib.real_mul
        (Cert.Lib.real_sum _ _ fun d _ => Cert.Lib.real_mul (projRow_real x Wq bq hx hWq hbq bt q d)
          (projRow_real x Wk bk hx hWk hbk bt j d)) ⟨_, rfl⟩
    -- a masked score is −∞
    have hbot : ∀ j, maskRow M q j = 0#32 → scoresOf x M Wq bq Wk bk bt q j = ⊥ := by
      intro j hj
      unfold scoresOf scoreRow
      rw [if_pos hj]
    -- so the plain softmax already has 0 at the masked key k
    refine (softmaxRow_eq_zero_of_bot _ (fun j => ?_) ?_ k (hbot k hmk)).symm
    · by_cases hj : maskRow M q j = 0#32
      · exact Or.inl (hbot j hj)
      · exact Or.inr (hreal j hj)
    · obtain ⟨j, hj⟩ := hM q
      exact ⟨j, hreal j hj⟩
  · rw [if_neg hmk]

/-! ## The scale -/

/-- The word 0x44800000 (sign 0, exponent 137, fraction 0) denotes 2^(137−127) = 1024. -/
theorem ofBits_word_1024 : Ideal.ofBits .f32 0x44800000#32 = ((1024 : ℝ) : EReal) := by
  simp [Ideal.ofBits, Ideal.ieee, -EReal.coe_mul]; norm_num

/-- The kernel's scale word is 1/32. -/
theorem ofBits_scale : Ideal.ofBits .f32 0x3D000000#32 = ((1 / 32 : ℝ) : EReal) := by
  -- sign 0, exponent 122, fraction 0: 2^(122−127) = 2^(−5)
  simp [Ideal.ofBits, Ideal.ieee, -EReal.coe_mul]; norm_num

/-- Dividing by the square root of the word for 1024 is multiplying by 1/32. -/
theorem div_sqrt_1024 (t : EReal) : Ideal.div t (Ideal.sqrt (Ideal.ofBits .f32 0x44800000#32)) = t * ((1 / 32 : ℝ) : EReal) := by
  -- √1024 = √(32²) = 32, and a quotient by the nonzero real 32 is the product with 1/32
  have h32 : Real.sqrt 1024 = 32 := by
    rw [show (1024 : ℝ) = 32 ^ 2 by norm_num]
    exact Real.sqrt_sq (by norm_num)
  rw [ofBits_word_1024, Ideal.sqrt_coe, if_neg (by norm_num), h32]
  exact Ideal.div_coe (by norm_num) t

end Cert.Attn

end
-- ==== Proof.AttnCompose.lean ====
/-
  The region-level array functions composed: attention weights and output computed from the three projected arrays
  are the layer's weights and output as functions of the activations, the weight matrices and the bias vectors, once a
  bias kept as a one-row matrix is read as the vector it was reshaped from.
-/
import proofs.«420197_j33234456936606_3_alg».proof.Proof.AttnSpec

noncomputable section

namespace Cert.Attn

open Idealize.ShloMosaic Idealize.ShloMosaic.ValueIdx Idealize.ShloMosaic.Rows

/-- Weights from projected queries and keys. -/
theorem weightsArr_projArr (x : SAct.Idx → EReal) (M : SMask.Idx → BitVec 32)
    (Wq : SMat.Idx → EReal) (Bq : SRow.Idx → EReal) (bq : SVec.Idx → EReal)
    (Wk : SMat.Idx → EReal) (Bk : SRow.Idx → EReal) (bk : SVec.Idx → EReal)
    (hq : ∀ e : Fin 1024, Bq (ix2 (0 : Fin 1) e) = bq (ix1 e)) (hk : ∀ e : Fin 1024, Bk (ix2 (0 : Fin 1) e) = bk (ix1 e)) :
    weightsArr (projArr x Wq Bq) (projArr x Wk Bk) M = weightsZeroed x M Wq bq Wk bk := by
  have eq : (fun e : Fin 1024 => Bq (ix2 (0 : Fin 1) e)) = fun e => bq (ix1 e) := funext hq
  have ek : (fun e : Fin 1024 => Bk (ix2 (0 : Fin 1) e)) = fun e => bk (ix1 e) := funext hk
  unfold weightsArr weightsZeroed scoresOf projRow projArr
  rw [eq, ek]
  rfl

/-- Output from given weights, projected values and the output layer. -/
theorem outArr_projArr (w : SAtt.Idx → EReal) (x : SAct.Idx → EReal)
    (Wv : SMat.Idx → EReal) (Bv : SRow.Idx → EReal) (bv : SVec.Idx → EReal)
    (Wo : SMat.Idx → EReal) (Bo : SRow.Idx → EReal) (bo : SVec.Idx → EReal)
    (hv : ∀ e : Fin 1024, Bv (ix2 (0 : Fin 1) e) = bv (ix1 e)) (ho : ∀ e : Fin 1024, Bo (ix2 (0 : Fin 1) e) = bo (ix1 e)) :
    outArr w (projArr x Wv Bv) Wo Bo = outputOf w x Wv bv Wo bo := by
  have ev : (fun e : Fin 1024 => Bv (ix2 (0 : Fin 1) e)) = fun e => bv (ix1 e) := funext hv
  have eo : (fun e : Fin 1024 => Bo (ix2 (0 : Fin 1) e)) = fun e => bo (ix1 e) := funext ho
  unfold outArr outputOf projRow projArr
  rw [ev, eo]
  rfl

end Cert.Attn

end
-- ==== Proof.LibPlainAny.lean ====
/-
  A plain matrix product  a · b  (left operand N × K, right operand K × M, contracting the left operand's
  axis 1 with the right operand's axis 0) into a zero accumulator, read at (row, column) at the ideal values,
  WHATEVER THE OPERANDS' FLOAT FORMATS: at (i, j) it is the one sum  ∑ₖ a (i, k) · b (k, j).
  At the ideal values every float format is the extended reals, so a kernel that narrows its operands before
  the product computes the same sum; the statements hold for every size.
  Also: the squashing function `tanh` of an array read at an index.
-/
import proofs.«420197_j33234456936606_3_alg».proof.Proof.LibRows
import Idealize.ShloMosaic.Lib.ValueIdx
import Idealize.ShloMosaic.PureOps.Ideal.Laws

noncomputable section

namespace Idealize.ShloMosaic.Rows

open Idealize.ShloMosaic Idealize.ShloMosaic.ValueIdx

variable {N K M : ℕ}

/-- The contraction sum of a plain product re-indexed by the contracted coordinate, whatever the operands' float
    formats (at the ideal values every format is the extended reals). -/
theorem plain_sum_any {φ₁ φ₂ : FTy} (l : FVec Ideal ⟨2, ![N, K]⟩ φ₁) (r : FVec Ideal ⟨2, ![K, M]⟩ φ₂) (i : Fin N) (j : Fin M) :
    (∑ q : (DotDims.plain N K M).contr.Idx, l ((DotDims.plain N K M).lhsIdx (ix2 i j) q) * r ((DotDims.plain N K M).rhsIdx (ix2 i j) q))
      = ∑ k : Fin K, l (ix2 i k) * r (ix2 k j) := by
  rw [← Equiv.sum_comp (contrEquiv1 (DotDims.plain N K M) K rfl rfl).symm]
  refine Finset.sum_congr rfl fun k _ => ?_
  have hk := contrEquiv1_symm_val (DotDims.plain N K M) K rfl rfl k
  have el : (DotDims.plain N K M).lhsIdx (ix2 i j) ((contrEquiv1 (DotDims.plain N K M) K rfl rfl).symm k) = ix2 i k :=
    funext fun a => Fin.ext (by
      match a with
      | ⟨0, _⟩ => exact plain_lhs_0 _ _
      | ⟨1, _⟩ => exact (plain_lhs_1 _ _).trans hk)
  have er : (DotDims.plain N K M).rhsIdx (ix2 i j) ((contrEquiv1 (DotDims.plain N K M) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's plain product into a zero accumulator at (i, j), whatever the operands' float formats. -/
theorem matmul_plain_any {φ₁ φ₂ : FTy} (l : FVec Ideal ⟨2, ![N, K]⟩ φ₁) (r : FVec Ideal ⟨2, ![K, M]⟩ φ₂) (i : Fin N) (j : Fin M) :
    matmul (DotDims.plain N K M) none l r (constant ⟨2, ![N, M]⟩ .f32 0x00000000#32) (ix2 i j)
      = ∑ k : Fin K, l (ix2 i k) * r (ix2 k j) := by
  show FloatOps.matmul (DotDims.plain N K M) none l r (constant ⟨2, ![N, M]⟩ .f32 0x00000000#32) (ix2 i j) = _
  rw [Ideal.matmul_constant_zero_apply]
  exact plain_sum_any l r i j

/-- The squashing function at an index. -/
theorem tanh_at {s : Shape} {φ : FTy} (x : FVec Ideal s φ) (i : s.Idx) : tanh x i = Ideal.tanh (x i) := rfl

end Idealize.ShloMosaic.Rows

end
-- ==== Proof.QkvRegion.lean ====
/-
  The first kernel region: queries, keys and values.
  Grid point (b, s) takes rows 512·s … 512·s + 511 of batch entry b of the activations, multiplies them by a whole
  weight matrix and adds the bias row; the three products are written to the same rows of three output arrays. The
  blocks tile the arrays, so each output array is one affine layer of every row of the activations.
-/
import proofs.«420197_j33234456936606_3_alg».proof.Proof.Gen.KernelIdeal.Frame
import proofs.«420197_j33234456936606_3_alg».proof.Proof.AttnSpec
import proofs.«420197_j33234456936606_3_alg».proof.Proof.LibPlainAny
set_option maxRecDepth 16384

noncomputable section

namespace Cert.KernelIdeal.Qkv

open Cert.KernelIdeal Cert.KernelIdeal.Gen Cert.Attn
open Idealize.ShloMosaic Idealize.ShloMosaic.TcCoe Idealize.ShloMosaic.ValueIdx Idealize.ShloMosaic.Rows
open Idealize.ShloMosaic.Pipeline (Dat Cfg Window)

/-! ## The body's arithmetic, once for the three outputs -/

/-- The body's projection at (row r, column e) of a block: the row of the activations' block times column e of the
    weight matrix, summed over the 1024 features, plus entry e of the bias row. The block's leading unit axis is
    dropped before the product and put back after it, the bias row is laid along every row of the product, and the
    narrowing of the sum to the stored format changes nothing at the ideal values. -/
theorem proj_payload (x0 : Vec Ideal S1x512x1024 .bf16) (W : Vec Ideal S1024x1024 .bf16) (B : Vec Ideal S1x1024 .f32)
    (r : Fin 512) (e : Fin 1024) :
    k0_pay3 x0 W B (ix3 (0 : Fin 1) r e)
      = (∑ d : Fin 1024, x0 (ix3 (0 : Fin 1) r d) * W (ix2 d e)) + B (ix2 (0 : Fin 1) e) := by
  unfold k0_pay3 k0_pay2
  refine (shapeCast_apply _ _ (ix3 (0 : Fin 1) r e) (ix2 r e) ?_).trans ?_
  · rw [Shape.rowMajor_val_two, Shape.rowMajor_val_three]
    show r.val * 1024 + e.val = ((0 : Fin 1).val * 512 + r.val) * 1024 + e.val
    simp
  refine (truncf_apply (ψ := .bf16) _ bitsLt_bf16_f32 _).trans ((addf_apply _ _ _).trans ?_)
  refine congrArg₂ (· + ·) ?_ ?_
  · refine (matmul_plain_any (N := 512) (K := 1024) (M := 1024) _ _ r e).trans ?_
    refine Finset.sum_congr rfl fun d _ => ?_
    refine congrArg₂ (· * ·) ?_ ?_
    · refine shapeCast_apply x0 _ (ix2 r d) (ix3 (0 : Fin 1) r d) ?_
      rw [Shape.rowMajor_val_two, Shape.rowMajor_val_three]
      show ((0 : Fin 1).val * 512 + r.val) * 1024 + d.val = r.val * 1024 + d.val
      simp
    · exact congrFun (shapeCast_self W _) (ix2 d e)
  · refine (broadcastTo_1b_ab_apply _ _ r e).trans ?_
    exact congrFun (shapeCast_self B _) (ix2 (0 : Fin 1) e)

/-- The key and the value projections are the same arithmetic as the query projection (the value's is stored by the
    caller of the part that computes it, through one more cast of the unit axis). -/
theorem key_payload_eq (x0 : Vec Ideal S1x512x1024 .bf16) (W : Vec Ideal S1024x1024 .bf16) (B : Vec Ideal S1x1024 .f32) :
    k0_pay4 x0 W B = k0_pay3 x0 W B := rfl

theorem value_payload_eq (x0 : Vec Ideal S1x512x1024 .bf16) (W : Vec Ideal S1024x1024 .bf16) (B : Vec Ideal S1x1024 .f32) :
    k0_pay1 (k0_pay5 x0 W B) = k0_pay3 x0 W B := rfl

/-- The common part. A block's coordinate on an axis is its block index times the block's extent plus the coordinate
    inside the block. When the output block and the activations' block both sit at block index (t / 4, t % 4, 0) —
    rows 512·(t % 4) … 512·(t % 4) + 511 of batch entry t / 4 — and the weight matrix and the bias row are whole,
    the body's projection is, at each index j of the block, the affine layer of X at the array index i under j. -/
theorem proj_block (X : SAct.Idx → EReal) (W : SMat.Idx → EReal) (B : SRow.Idx → EReal)
    (x0 : Vec Ideal S1x512x1024 .bf16) (t : ℕ)
    (hx : ∀ (r : Fin 512) (d : Fin 1024) (i : SAct.Idx), (i 0).val = t / 4 → (i 1).val = t % 4 * 512 + r.val →
      (i 2).val = d.val → x0 (ix3 (0 : Fin 1) r d) = X i)
    (ix : Fin 3 → ℕ) (e0 : ix 0 = t / 4) (e1 : ix 1 = t % 4) (e2 : ix 2 = 0)
    (j : S1x512x1024.Idx) (i : SAct.Idx) (hi : ∀ a : Fin 3, (i a).val = ix a * S1x512x1024.size a + 1 * (j a).val) :
    k0_pay3 x0 W B j = projArr X W B i := by
  obtain ⟨j0, r, e, rfl⟩ : ∃ (j0 : Fin 1) (r : Fin 512) (e : Fin 1024), j = ix3 j0 r e := ⟨j 0, j 1, j 2, eq_ix3 j⟩
  obtain rfl : j0 = 0 := Subsingleton.elim _ _
  obtain ⟨bt, s, e', rfl⟩ : ∃ (bt : Fin 4) (s : Fin 2048) (e' : Fin 1024), i = ix3 bt s e' := ⟨i 0, i 1, i 2, eq_ix3 i⟩
  have h0 : bt.val = ix 0 * 1 + 1 * (0 : Fin 1).val := hi 0
  have h1 : s.val = ix 1 * 512 + 1 * r.val := hi 1
  have h2 : e'.val = ix 2 * 1024 + 1 * e.val := hi 2
  obtain rfl : e = e' := Fin.ext (by omega)
  rw [proj_payload]
  show _ = (∑ d : Fin 1024, X (ix3 bt s d) * W (ix2 d e)) + B (ix2 (0 : Fin 1) e)
  refine congrArg (· + B (ix2 (0 : Fin 1) e)) (Finset.sum_congr rfl fun d _ => ?_)
  have hb : bt.val = t / 4 := by simp at h0; omega
  have hs : s.val = t % 4 * 512 + r.val := by omega
  rw [hx r d (ix3 bt s d) hb hs rfl]

/-- A block with the extents of its whole array sits at block index zero, where the index under a block index is
    that block index. -/
theorem under_whole {n : ℕ} {sz : Fin n → ℕ} (ix : Fin n → ℕ) (h : ∀ a, ix a = 0) (y k : (⟨n, sz⟩ : Shape).Idx)
    (hk : ∀ a, (k a).val = ix a * sz a + 1 * (y a).val) : k = y :=
  funext fun a => Fin.ext (by have := hk a; rw [h a] at this; omega)

/-- The rows of an output array are tiled by the sixteen blocks: row s of batch entry b lies in the block of grid
    point 4·b + s / 512, whose block index is (b, s / 512, 0). -/
theorem rows_tiled {n : ℕ} (hn : n = 16) (i : SAct.Idx) :
    ∃ t : Fin n, ∀ ix : Fin 3 → ℕ, ix 0 = t.val / 4 → ix 1 = t.val % 4 → ix 2 = 0 →
      ∀ a : Fin 3, ix a * S1x512x1024.size a ≤ (i a).val ∧ (i a).val < ix a * S1x512x1024.size a + S1x512x1024.size a := by
  subst hn
  have hi0 : (i 0).val < 4 := (i 0).isLt
  have hi1 : (i 1).val < 2048 := (i 1).isLt
  have hi2 : (i 2).val < 1024 := (i 2).isLt
  refine ⟨⟨(i 0).val * 4 + (i 1).val / 512, by omega⟩, fun ix e0 e1 e2 a => ?_⟩
  have e0' : ix 0 = ((i 0).val * 4 + (i 1).val / 512) / 4 := e0
  have e1' : ix 1 = ((i 0).val * 4 + (i 1).val / 512) % 4 := e1
  match a with
  | ⟨0, _⟩ => show ix 0 * 1 ≤ (i 0).val ∧ (i 0).val < ix 0 * 1 + 1; omega
  | ⟨1, _⟩ => show ix 1 * 512 ≤ (i 1).val ∧ (i 1).val < ix 1 * 512 + 512; omega
  | ⟨2, _⟩ => show ix 2 * 1024 ≤ (i 2).val ∧ (i 2).val < ix 2 * 1024 + 1024; omega

/-! ## The block indices over the grid -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The block index of the activations' window and of each output window at grid point t, the points counted
    row-major over the 4 × 4 grid: (t / 4, t % 4, 0). -/
theorem row_indices : ∀ t : Fin cfg0.N,
    (win0_0.index t (0 : Fin 3) = t.val / 4 ∧ win0_0.index t (1 : Fin 3) = t.val % 4 ∧ win0_0.index t (2 : Fin 3) = 0)
    ∧ (win0_7.index t (0 : Fin 3) = t.val / 4 ∧ win0_7.index t (1 : Fin 3) = t.val % 4 ∧ win0_7.index t (2 : Fin 3) = 0)
    ∧ (win0_8.index t (0 : Fin 3) = t.val / 4 ∧ win0_8.index t (1 : Fin 3) = t.val % 4 ∧ win0_8.index t (2 : Fin 3) = 0)
    ∧ (win0_9.index t (0 : Fin 3) = t.val / 4 ∧ win0_9.index t (1 : Fin 3) = t.val % 4 ∧ win0_9.index t (2 : Fin 3) = 0) :=
  (by decide +kernel : ∀ t : Fin grid0.N, _)

/-- The weight and bias windows stay at block index (0, 0) at every grid point. -/
theorem whole_indices : ∀ t : Fin cfg0.N,
    (∀ a : Fin 2, win0_1.index t a = 0) ∧ (∀ a : Fin 2, win0_2.index t a = 0) ∧ (∀ a : Fin 2, win0_3.index t a = 0)
    ∧ (∀ a : Fin 2, win0_4.index t a = 0) ∧ (∀ a : Fin 2, win0_5.index t a = 0) ∧ (∀ a : Fin 2, win0_6.index t a = 0) :=
  (by decide +kernel : ∀ t : Fin grid0.N, _)

/-! ## The input windows' blocks -/

-- the TensorCore's buffer contents when the region is entered
variable (V : (c : Dev nD) → (b : Ref sig .tc) → Buf (Elt Ideal) ((c : Thread nD τ).loc b))

/-- The activations' block at grid point t is rows 512·(t % 4) … of batch entry t / 4. -/
theorem act_block_apply (c : Dev nD) (t : Fin cfg0.N) (r : Fin 512) (d : Fin 1024) (i : SAct.Idx)
    (h0 : (i 0).val = t.val / 4) (h1 : (i 1).val = t.val % 4 * 512 + r.val) (h2 : (i 2).val = d.val) :
    (iblk0 V c 0 t : Vec Ideal S1x512x1024 .bf16) (ix3 (0 : Fin 1) r d) = (V c main_v0 : SAct.Idx → EReal) i := by
  obtain ⟨e0, e1, e2⟩ := (row_indices t).1
  unfold iblk0
  show V c main_v0 (((cfg0.win 0).blk t).view.emb (ix3 (0 : Fin 1) r d)) = V c main_v0 i
  refine congrArg (V c main_v0) (funext fun a => Fin.ext ?_)
  match a with
  | ⟨0, _⟩ => show win0_0.index t (0 : Fin 3) * 1 + 1 * (0 : Fin 1).val = (i 0).val; rw [e0, h0]; simp
  | ⟨1, _⟩ => show win0_0.index t (1 : Fin 3) * 512 + 1 * r.val = (i 1).val; rw [e1, h1]; omega
  | ⟨2, _⟩ => show win0_0.index t (2 : Fin 3) * 1024 + 1 * d.val = (i 2).val; rw [e2, h2]; omega

/-- The query weights' block at any grid point is the whole matrix. -/
theorem wq_block_eq (c : Dev nD) (t : Fin cfg0.N) :
    (iblk0 V c 1 t : Vec Ideal S1024x1024 .bf16) = (V c main_v1 : SMat.Idx → EReal) := by
  unfold iblk0
  exact funext fun y => congrArg (V c main_v1) (under_whole (win0_1.index t) (whole_indices t).1 y _ fun _ => rfl)

/-- The key weights' block is the whole matrix. -/
theorem wk_block_eq (c : Dev nD) (t : Fin cfg0.N) :
    (iblk0 V c 2 t : Vec Ideal S1024x1024 .bf16) = (V c main_v2 : SMat.Idx → EReal) := by
  unfold iblk0
  exact funext fun y => congrArg (V c main_v2) (under_whole (win0_2.index t) (whole_indices t).2.1 y _ fun _ => rfl)

/-- The value weights' block is the whole matrix. -/
theorem wv_block_eq (c : Dev nD) (t : Fin cfg0.N) :
    (iblk0 V c 3 t : Vec Ideal S1024x1024 .bf16) = (V c main_v3 : SMat.Idx → EReal) := by
  unfold iblk0
  exact funext fun y => congrArg (V c main_v3) (under_whole (win0_3.index t) (whole_indices t).2.2.1 y _ fun _ => rfl)

/-- The query bias's block is the whole bias row. -/
theorem bq_block_eq (c : Dev nD) (t : Fin cfg0.N) :
    (iblk0 V c 4 t : Vec Ideal S1x1024 .f32) = (V c main_v5 : SRow.Idx → EReal) := by
  unfold iblk0
  exact funext fun y => congrArg (V c main_v5) (under_whole (win0_4.index t) (whole_indices t).2.2.2.1 y _ fun _ => rfl)

/-- The key bias's block is the whole bias row. -/
theorem bk_block_eq (c : Dev nD) (t : Fin cfg0.N) :
    (iblk0 V c 5 t : Vec Ideal S1x1024 .f32) = (V c main_v6 : SRow.Idx → EReal) := by
  unfold iblk0
  exact funext fun y => congrArg (V c main_v6) (under_whole (win0_5.index t) (whole_indices t).2.2.2.2.1 y _ fun _ => rfl)

/-- The value bias's block is the whole bias row. -/
theorem bv_block_eq (c : Dev nD) (t : Fin cfg0.N) :
    (iblk0 V c 6 t : Vec Ideal S1x1024 .f32) = (V c main_v7 : SRow.Idx → EReal) := by
  unfold iblk0
  exact funext fun y => congrArg (V c main_v7) (under_whole (win0_6.index t) (whole_indices t).2.2.2.2.2 y _ fun _ => rfl)

/-! ## The queries -/

/-- What grid point t writes back to the query array is the block under it of the affine layer of the activations. -/
theorem q_written (c : Dev nD) (t : Fin cfg0.N) :
    (cfg0.win 7).cut (grid0.coords t) ((dat0 (F := Ideal) V c).after 7 t)
      = ((cfg0.win 7).blk t).view.read (Elt Ideal) (projArr (V c main_v0) (V c main_v1) (V c main_v5)) := by
  rw [after0_7]
  unfold out0_7
  rw [View.canon_unit_zero zeros3]
  simp only [View.ld_unit_zero (S := S1x512x1024) zeros3, View.ld_unit_zero (S := S1024x1024) zeros2,
    View.ld_unit_zero (S := S1x1024) zeros2]
  rw [wq_block_eq, bq_block_eq]
  obtain ⟨e0, e1, e2⟩ := (row_indices t).2.1
  exact funext fun j => proj_block (V c main_v0) (V c main_v1) (V c main_v5) (iblk0 V c 0 t) t.val
    (fun r d i => act_block_apply V c t r d i) (win0_7.index t) e0 e1 e2 j _ fun _ => rfl

/-- Every index of the query array is written back by some grid point. -/
theorem q_tiled (i : SAct.Idx) :
    ∃ t : Fin cfg0.N, (cfg0.win 7).flush t = true ∧ i ∈ ((cfg0.win 7).blk t).view.set := by
  obtain ⟨t, ht⟩ := rows_tiled (n := cfg0.N) N_0 i
  obtain ⟨e0, e1, e2⟩ := (row_indices t).2.1
  refine ⟨t, flush0_7 t, ?_⟩
  show i ∈ ((View.whole main_v9_0).slice (win0_7.rect t)).set
  rw [View.set_slice_whole, Rect.mem_set_unit]
  exact ht (win0_7.index t) e0 e1 e2

/-- The query array after the region. -/
theorem q_array (c : Dev nD) :
    (dat0 (F := Ideal) V c).arrAt 7 cfg0.N = projArr (V c main_v0) (V c main_v1) (V c main_v5) :=
  (dat0 (F := Ideal) V c).arrAt_eq_of_cover 7 (projArr (V c main_v0) (V c main_v1) (V c main_v5))
    (fun t _ => q_written V c t) q_tiled

/-! ## The keys -/

/-- What grid point t writes back to the key array is the block under it of the affine layer of the activations. -/
theorem k_written (c : Dev nD) (t : Fin cfg0.N) :
    (cfg0.win 8).cut (grid0.coords t) ((dat0 (F := Ideal) V c).after 8 t)
      = ((cfg0.win 8).blk t).view.read (Elt Ideal) (projArr (V c main_v0) (V c main_v2) (V c main_v6)) := by
  rw [after0_8]
  unfold out0_8
  rw [View.canon_unit_zero zeros3]
  simp only [View.ld_unit_zero (S := S1x512x1024) zeros3, View.ld_unit_zero (S := S1024x1024) zeros2,
    View.ld_unit_zero (S := S1x1024) zeros2]
  rw [wk_block_eq, bk_block_eq, key_payload_eq]
  obtain ⟨e0, e1, e2⟩ := (row_indices t).2.2.1
  exact funext fun j => proj_block (V c main_v0) (V c main_v2) (V c main_v6) (iblk0 V c 0 t) t.val
    (fun r d i => act_block_apply V c t r d i) (win0_8.index t) e0 e1 e2 j _ fun _ => rfl

/-- Every index of the key array is written back by some grid point. -/
theorem k_tiled (i : SAct.Idx) :
    ∃ t : Fin cfg0.N, (cfg0.win 8).flush t = true ∧ i ∈ ((cfg0.win 8).blk t).view.set := by
  obtain ⟨t, ht⟩ := rows_tiled (n := cfg0.N) N_0 i
  obtain ⟨e0, e1, e2⟩ := (row_indices t).2.2.1
  refine ⟨t, flush0_8 t, ?_⟩
  show i ∈ ((View.whole main_v9_1).slice (win0_8.rect t)).set
  rw [View.set_slice_whole, Rect.mem_set_unit]
  exact ht (win0_8.index t) e0 e1 e2

/-- The key array after the region. -/
theorem k_array (c : Dev nD) :
    (dat0 (F := Ideal) V c).arrAt 8 cfg0.N = projArr (V c main_v0) (V c main_v2) (V c main_v6) :=
  (dat0 (F := Ideal) V c).arrAt_eq_of_cover 8 (projArr (V c main_v0) (V c main_v2) (V c main_v6))
    (fun t _ => k_written V c t) k_tiled

/-! ## The values -/

/-- What grid point t writes back to the value array is the block under it of the affine layer of the activations. -/
theorem v_written (c : Dev nD) (t : Fin cfg0.N) :
    (cfg0.win 9).cut (grid0.coords t) ((dat0 (F := Ideal) V c).after 9 t)
      = ((cfg0.win 9).blk t).view.read (Elt Ideal) (projArr (V c main_v0) (V c main_v3) (V c main_v7)) := by
  rw [after0_9]
  unfold out0_9
  rw [View.canon_unit_zero zeros3]
  simp only [View.ld_unit_zero (S := S1x512x1024) zeros3, View.ld_unit_zero (S := S1024x1024) zeros2,
    View.ld_unit_zero (S := S1x1024) zeros2]
  rw [wv_block_eq, bv_block_eq, value_payload_eq]
  obtain ⟨e0, e1, e2⟩ := (row_indices t).2.2.2
  exact funext fun j => proj_block (V c main_v0) (V c main_v3) (V c main_v7) (iblk0 V c 0 t) t.val
    (fun r d i => act_block_apply V c t r d i) (win0_9.index t) e0 e1 e2 j _ fun _ => rfl

/-- Every index of the value array is written back by some grid point. -/
theorem v_tiled (i : SAct.Idx) :
    ∃ t : Fin cfg0.N, (cfg0.win 9).flush t = true ∧ i ∈ ((cfg0.win 9).blk t).view.set := by
  obtain ⟨t, ht⟩ := rows_tiled (n := cfg0.N) N_0 i
  obtain ⟨e0, e1, e2⟩ := (row_indices t).2.2.2
  refine ⟨t, flush0_9 t, ?_⟩
  show i ∈ ((View.whole main_v9_2).slice (win0_9.rect t)).set
  rw [View.set_slice_whole, Rect.mem_set_unit]
  exact ht (win0_9.index t) e0 e1 e2

/-- The value array after the region. -/
theorem v_array (c : Dev nD) :
    (dat0 (F := Ideal) V c).arrAt 9 cfg0.N = projArr (V c main_v0) (V c main_v3) (V c main_v7) :=
  (dat0 (F := Ideal) V c).arrAt_eq_of_cover 9 (projArr (V c main_v0) (V c main_v3) (V c main_v7))
    (fun t _ => v_written V c t) v_tiled

end Cert.KernelIdeal.Qkv

end
-- ==== Proof.AttnBody.lean ====
/-
  The arithmetic of the second kernel region's body, as pure functions of the vectors it loads.
  From a block of 256 query rows, all 2048 key rows and the same 256 rows of the mask: the zeroed softmax weights of
  each query row. From those weights, all value rows, the output weights and the bias row: the weights mixed with the
  values and sent through the output layer. Changes of float format are the identity on the extended reals.
-/
import proofs.«420197_j33234456936606_3_alg».proof.Proof.Gen.KernelIdeal.Skeleton
import proofs.«420197_j33234456936606_3_alg».proof.Proof.AttnSpec
import proofs.«420197_j33234456936606_3_alg».proof.Proof.LibPlainAny
import proofs.«420197_j33234456936606_3_alg».proof.Proof.LibDotT
import proofs.«420197_j33234456936606_3_alg».proof.Proof.LibCosineSoftmax
import Idealize.ShloMosaic.PureOps.IdealRules
import Idealize.ShloMosaic.Lib.StableHlo.Predicate
import Idealize.ShloMosaic.Lib.ValueLayout

set_option maxRecDepth 16384

noncomputable section

namespace Cert.KernelIdeal.AttnBody

open Cert.KernelIdeal Cert.KernelIdeal.Gen Cert.Attn
open Idealize.ShloMosaic Idealize.ShloMosaic.TcCoe Idealize.ShloMosaic.ValueIdx Idealize.ShloMosaic.Rows

/-! ## The weights: scores, softmax along each row, zero at masked keys -/

/-- Queries times the transposed keys, at (i, j): the inner product of query row i with key row j. -/
theorem qk_at (q2 : FVec Ideal S256x1024 .bf16) (k2 : FVec Ideal S2048x1024 .bf16)
    (tr : S2048x1024.Transposes [1, 0] S1024x2048) (i : Fin 256) (j : Fin 2048) :
    matmul dot_S256x1024_S1024x2048_S256x2048_1_0_0_1_n_n none q2 (transpose S1024x2048 [1, 0] k2 tr)
        (constant S256x2048 .f32 0x00000000#32) (ix2 i j)
      = ∑ d : Fin 1024, q2 (ix2 i d) * k2 (ix2 j d) := by
  show matmul (DotDims.plain 256 1024 2048) none q2 (transpose ⟨2, ![1024, 2048]⟩ [1, 0] k2 tr)
      (constant ⟨2, ![256, 2048]⟩ .f32 0x00000000#32) (ix2 i j) = _
  rw [matmul_plain_any]
  exact Finset.sum_congr rfl fun d _ => by rw [transpose_ix2_apply]

/-- A select on "the mask word is zero" is the `if` on that equation. -/
theorem select_mask_zero {α : Type} (w : BitVec 32) (a b : α) :
    Scalar.select (IntOp.cmpi .eq w 0#32) a b = if w = 0#32 then a else b := by
  unfold Scalar.select
  by_cases h : w = 0#32
  · have hc : IntOp.cmpi .eq w 0#32 = (1 : BitVec 1) := StableHlo.Predicate.cmpi_eq_iff.mpr h
    rw [if_pos hc, if_pos h]
  · have hc : ¬ IntOp.cmpi .eq w 0#32 = (1 : BitVec 1) := fun hc => h (StableHlo.Predicate.cmpi_eq_iff.mp hc)
    rw [if_neg hc, if_neg h]

/-- Row i of the masked, scaled scores: −∞ where the mask word is zero, else the inner product over 32. -/
theorem kscore_row (q2 : FVec Ideal S256x1024 .bf16) (k2 : FVec Ideal S2048x1024 .bf16) (m2 : IVec S256x2048 32)
    (tr : S2048x1024.Transposes [1, 0] S1024x2048) (i : Fin 256) :
    rowOf (select (cmpi .eq m2 (broadcast S256x2048 0#32))
        (broadcast S256x2048 (Named.named (F := Ideal) κ "neg_big" 0xFF333332#32))
        (mulf (matmul dot_S256x1024_S1024x2048_S256x2048_1_0_0_1_n_n none q2 (transpose S1024x2048 [1, 0] k2 tr)
            (constant S256x2048 .f32 0x00000000#32))
          (broadcast S256x2048 (Scalar.ofBits (F := Ideal) .f32 0x3D000000#32)))) i
      = scoreRow (fun j => m2 (ix2 i j)) (fun d => q2 (ix2 i d)) (fun j d => k2 (ix2 j d)) := by
  funext j
  unfold rowOf scoreRow
  refine (select_apply _ _ _ _).trans ?_
  show Scalar.select (IntOp.cmpi .eq (m2 (ix2 i j)) 0#32) (Named.named (F := Ideal) κ "neg_big" 0xFF333332#32)
      (matmul dot_S256x1024_S1024x2048_S256x2048_1_0_0_1_n_n none q2 (transpose S1024x2048 [1, 0] k2 tr)
          (constant S256x2048 .f32 0x00000000#32) (ix2 i j) * Ideal.ofBits .f32 0x3D000000#32) = _
  rw [select_mask_zero, IdealRules.named_const.ideal_named_scalar κ "neg_big" _ ⊥ rfl, ofBits_scale, qk_at]

/-- Exponentials of a block's rows shifted by their maxima, over their row sums, then 0 where the condition holds:
    at (i, k) the select between 0's word and the softmax of row i. -/
theorem zeroed_softmax_at (s z : FVec Ideal S256x2048 .f32) (c : IVec S256x2048 1)
    (h : S256x2048.Reduces [1] S256) (hφ : FKind.Formats .f32)
    (hmax : (0xFF800000#32 : BitVec 32) = FKind.maximumf.neutral .f32 hφ)
    (hsum : (0x00000000#32 : BitVec 32) = FKind.add.neutral .f32 hφ)
    (sc : S256.ShapeCasts S256x1) (bc : S256x1.Broadcasts S256x2048) (i : Fin 256) (k : Fin 2048) :
    select c z
        (divf (exp (subf s (broadcastTo S256x2048 (shapeCast S256x1 (multiReduction .maximumf [1] S256 s 0xFF800000#32 h hφ hmax) sc) bc)))
          (broadcastTo S256x2048
            (shapeCast S256x1
              (multiReduction .add [1] S256
                (exp (subf s (broadcastTo S256x2048 (shapeCast S256x1 (multiReduction .maximumf [1] S256 s 0xFF800000#32 h hφ hmax) sc) bc)))
                0x00000000#32 h hφ hsum) sc) bc)) (ix2 i k)
      = Scalar.select (c (ix2 i k)) (z (ix2 i k)) (softmaxRow (rowOf s i) k) := by
  refine (select_apply _ _ _ _).trans ?_
  rw [kexpshift_eq, kdivsum_eq, softmax_of_expshift]
  rfl

/-- The block's weights as a function of the three operands with their leading unit axis dropped. -/
def weightsBody (q2 : FVec Ideal S256x1024 .bf16) (k2 : FVec Ideal S2048x1024 .bf16) (m2 : IVec S256x2048 32) :
    FVec Ideal S256x2048 .f32 :=
  have v12 : FVec Ideal S1024x2048 .bf16 := transpose S1024x2048 [1, 0] k2 transposes_S2048x1024_p1_0_S1024x2048
  have v13 : FVec Ideal S256x2048 .f32 := matmul dot_S256x1024_S1024x2048_S256x2048_1_0_0_1_n_n none q2 v12 (constant S256x2048 .f32 0x00000000#32)
  have v15 : FVec Ideal S256x2048 .f32 := mulf v13 (broadcast S256x2048 (Scalar.ofBits .f32 0x3D000000#32))
  have v19 : FVec Ideal S256x2048 .f32 :=
    select (cmpi .eq m2 (broadcast S256x2048 0#32)) (broadcast S256x2048 (Named.named κ "neg_big" 0xFF333332#32)) v15
  have v20 : FVec Ideal S256 .f32 := multiReduction .maximumf [1] S256 v19 0xFF800000#32 reduces_S256x2048_S256 (.inl rfl) rfl
  have v24 : FVec Ideal S256x2048 .f32 :=
    exp (subf v19 (broadcastTo S256x2048 (shapeCast S256x1 v20 shapeCasts_S256_S256x1) broadcasts_S256x1_S256x2048))
  have v25 : FVec Ideal S256 .f32 := multiReduction .add [1] S256 v24 0x00000000#32 reduces_S256x2048_S256 (.inl rfl) rfl
  select (cmpi .eq m2 (broadcast S256x2048 0#32)) (broadcast S256x2048 (Scalar.ofBits .f32 0x00000000#32))
    (divf v24 (broadcastTo S256x2048 (shapeCast S256x1 v25 shapeCasts_S256_S256x1) broadcasts_S256x1_S256x2048))

/-- The payload is that function of the reshaped loads. -/
theorem pay6_eq_body (v0 : Vec Ideal S1x256x1024 .bf16) (v2 : Vec Ideal S1x2048x1024 .bf16) (v6 : Vec Ideal S1x256x2048 .i32) :
    k1_pay6 (F := Ideal) v0 v2 v6
      = weightsBody (shapeCast S256x1024 v0 shapeCasts_S1x256x1024_S256x1024)
          (shapeCast S2048x1024 v2 shapeCasts_S1x2048x1024_S2048x1024)
          (shapeCast S256x2048 v6 shapeCasts_S1x256x2048_S256x2048) := rfl

/-- Entry (i, k) of that function: row i's zeroed softmax at key k. -/
theorem weightsBody_at (q2 : FVec Ideal S256x1024 .bf16) (k2 : FVec Ideal S2048x1024 .bf16) (m2 : IVec S256x2048 32)
    (i : Fin 256) (k : Fin 2048) :
    weightsBody q2 k2 m2 (ix2 i k)
      = maskedSoftmaxRow (fun j => m2 (ix2 i j))
          (scoreRow (fun j => m2 (ix2 i j)) (fun d => q2 (ix2 i d)) (fun j d => k2 (ix2 j d))) k := by
  unfold weightsBody
  refine (zeroed_softmax_at _ _ _ _ _ _ _ _ _ i k).trans ?_
  rw [kscore_row]
  unfold maskedSoftmaxRow
  show Scalar.select (IntOp.cmpi .eq (m2 (ix2 i k)) 0#32) (Ideal.ofBits .f32 0x00000000#32) _ = _
  rw [select_mask_zero, Ideal.ofBits_zero_f32]

/-- Entry (i, k) of the weights a block computes: row i's zeroed softmax at key k. -/
theorem weights_at (v0 : Vec Ideal S1x256x1024 .bf16) (v2 : Vec Ideal S1x2048x1024 .bf16) (v6 : Vec Ideal S1x256x2048 .i32)
    (i : Fin 256) (k : Fin 2048) :
    k1_pay6 (F := Ideal) v0 v2 v6 (ix2 i k)
      = maskedSoftmaxRow (fun j => v6 (ix3 (0 : Fin 1) i j))
          (scoreRow (fun j => v6 (ix3 (0 : Fin 1) i j)) (fun d => v0 (ix3 (0 : Fin 1) i d)) (fun j d => v2 (ix3 (0 : Fin 1) j d))) k := by
  rw [pay6_eq_body, weightsBody_at]
  simp only [shapeCast_1ab_ab_apply]

/-! ## The output: two plain products and a bias row -/

/-- The weights block times the value rows, at (i, d): the sum over the keys. A change of float format is the identity. -/
theorem mix_at (v5 : FVec Ideal S2048x1024 .bf16) (v32 : FVec Ideal S256x2048 .f32) (hb : FTy.bits .bf16 < FTy.bits .f32)
    (i : Fin 256) (d : Fin 1024) :
    matmul dot_S256x2048_S2048x1024_S256x1024_1_0_0_1_n_n none (truncf .bf16 v32 hb) v5 (constant S256x1024 .f32 0x00000000#32) (ix2 i d)
      = ∑ k : Fin 2048, v32 (ix2 i k) * v5 (ix2 k d) := by
  show matmul (DotDims.plain 256 2048 1024) none (truncf .bf16 v32 hb) v5 (constant ⟨2, ![256, 1024]⟩ .f32 0x00000000#32) (ix2 i d) = _
  rw [matmul_plain_any]
  rfl

/-- A block of 256 rows times the output weights, at (i, e): the sum over the features. -/
theorem outproj_at (u : FVec Ideal S256x1024 .f32) (v9 : FVec Ideal S1024x1024 .bf16) (hb : FTy.bits .bf16 < FTy.bits .f32)
    (i : Fin 256) (e : Fin 1024) :
    matmul dot_S256x1024_S1024x1024_S256x1024_1_0_0_1_n_n none (truncf .bf16 u hb) v9 (constant S256x1024 .f32 0x00000000#32) (ix2 i e)
      = ∑ d : Fin 1024, u (ix2 i d) * v9 (ix2 d e) := by
  show matmul (DotDims.plain 256 1024 1024) none (truncf .bf16 u hb) v9 (constant ⟨2, ![256, 1024]⟩ .f32 0x00000000#32) (ix2 i e) = _
  rw [matmul_plain_any]
  rfl

/-- Entry (0, i, e) of the output a block computes from its weights: mix the value rows, then the output layer. -/
theorem output_at (v5 : FVec Ideal S2048x1024 .bf16) (v9 : FVec Ideal S1024x1024 .bf16) (v11 : FVec Ideal S1x1024 .f32)
    (v32 : FVec Ideal S256x2048 .f32) (i : Fin 256) (e : Fin 1024) :
    k1_pay2 (F := Ideal) v5 v9 v11 v32 (ix3 (0 : Fin 1) i e)
      = affineRow v9 (fun e' => v11 (ix2 (0 : Fin 1) e')) (mixRow (fun k => v32 (ix2 i k)) (fun k d => v5 (ix2 k d))) e := by
  unfold k1_pay2
  refine (shapeCast_ab_1ab_apply _ _ (0 : Fin 1) i e).trans ?_
  refine (addf_apply _ _ _).trans ?_
  unfold affineRow mixRow
  refine congrArg₂ (· + ·) ?_ (broadcastTo_1b_ab_apply _ _ i e)
  refine (outproj_at _ v9 _ i e).trans ?_
  refine Finset.sum_congr rfl fun d _ => ?_
  exact congrArg (· * v9 (ix2 d e)) (mix_at v5 v32 _ i d)

end Cert.KernelIdeal.AttnBody

end
-- ==== Proof.AttnRegion.lean ====
/-
  The second kernel region: attention weights and the layer's output.
  Grid point (b, i) takes query rows 256·i … 256·i + 255 of batch entry b, all key and value rows of that batch entry,
  the same query rows of the mask, the output weights and bias; it writes those query rows of the weight array and of
  the output array. The blocks tile both arrays.

  The grid's 32 points are numbered batch entry first, so point t is (t / 8, t % 8). Entry (0, p, k) of a block of 256
  query rows at point t is entry (t / 8, 256·(t % 8) + p, k) of its array; a block of all 2048 key or value rows is batch
  entry t / 8 of its array; the mask has one batch entry, so its block is rows 256·(t % 8) … of that one; the output
  weights and the bias are read whole. With the body's arithmetic row by row (the two theorems of AttnBody), what
  point t writes back is its block of ONE whole-array function, and since entry (b, r, ·) lies in the block of point
  (b, r / 256) the blocks cover the arrays.
-/
import proofs.«420197_j33234456936606_3_alg».proof.Proof.Gen.KernelIdeal.Frame
import proofs.«420197_j33234456936606_3_alg».proof.Proof.AttnSpec
import proofs.«420197_j33234456936606_3_alg».proof.Proof.LibPlainAny
import proofs.«420197_j33234456936606_3_alg».proof.Proof.LibDotT
import proofs.«420197_j33234456936606_3_alg».proof.Proof.LibCosineSoftmax
import proofs.«420197_j33234456936606_3_alg».proof.Proof.AttnBody
import Idealize.ShloMosaic.Lib.Pipeline.Value
import Idealize.ShloMosaic.Lib.ValueLayout
set_option maxRecDepth 16384

noncomputable section

namespace Cert.KernelIdeal.AttnRegion

open Cert.KernelIdeal Cert.KernelIdeal.Gen Cert.Attn
open Idealize.ShloMosaic Idealize.ShloMosaic.TcCoe Idealize.ShloMosaic.ValueIdx Idealize.ShloMosaic.Rows
open Idealize.ShloMosaic.Pipeline (Dat Cfg Window)

-- the TensorCore's buffer contents when the region is entered
variable (V : (c : Dev nD) → (b : Ref sig .tc) → Buf (Elt Ideal) ((c : Thread nD τ).loc b))

/-! ## The grid and the windows' index maps -/

/-- The zero offsets of a rank-3 buffer's whole rectangle. -/
theorem zero3 : (![0, 0, 0] : Fin 3 → Nat) = fun _ => 0 := funext fun a => by fin_cases a <;> rfl

/-- The zero offsets of a rank-2 buffer's whole rectangle. -/
theorem zero2 : (![0, 0] : Fin 2 → Nat) = fun _ => 0 := funext fun a => by fin_cases a <;> rfl

/-- The grid has 4 · 8 = 32 points. -/
theorem point_lt (t : Fin cfg1.N) : t.val < 32 := by
  have h : cfg1.N = 32 := N_1
  have := t.isLt
  omega

/-- The batch entry of grid point t: t / 8. -/
def batchOf (t : Fin cfg1.N) : Fin 4 := ⟨t.val / 8, by have := point_lt t; omega⟩

/-- The array row that row p of a 256-row block is at grid point t: 256 · (t % 8) + p. -/
def rowOf (t : Fin cfg1.N) (p : Fin 256) : Fin 2048 := ⟨256 * (t.val % 8) + p.val, by have := p.isLt; omega⟩

/-- The block indices of the query, key, mask and weight windows at point t, decided over the grid: queries and
    weights at (t / 8, t % 8, 0), keys at (t / 8, 0, 0), the mask at (0, t % 8, 0). -/
theorem index_maps : ∀ t : Fin cfg1.N,
    win1_6.index t (0 : Fin 3) = t.val / 8 ∧ win1_6.index t (1 : Fin 3) = t.val % 8 ∧ win1_6.index t (2 : Fin 3) = 0
    ∧ win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_3.index t (0 : Fin 3) = 0 ∧ win1_3.index t (1 : Fin 3) = t.val % 8 ∧ win1_3.index t (2 : Fin 3) = 0 :=
  (by decide +kernel : ∀ t : Fin grid1.N, _)

/-- The block indices of the output, value, output-weight and bias windows at point t: the output at
    (t / 8, t % 8, 0), values at (t / 8, 0, 0), the output weights and the bias at (0, 0). -/
theorem index_maps_out : ∀ t : Fin cfg1.N,
    win1_7.index t (0 : Fin 3) = t.val / 8 ∧ win1_7.index t (1 : Fin 3) = t.val % 8 ∧ win1_7.index t (2 : Fin 3) = 0
    ∧ win1_2.index t (0 : Fin 3) = t.val / 8 ∧ win1_2.index t (1 : Fin 3) = 0 ∧ win1_2.index t (2 : Fin 3) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-! ## Where an entry of a block sits in its array

A block's coordinate on an axis is (block index) × (block size) + the coordinate inside the block. -/

/-- Entry (·, p, k) of the weight block at point t is entry (t / 8, 256 (t % 8) + p, k) of the weight array. -/
theorem emb_w (t : Fin cfg1.N) (u : Fin 1) (p : Fin 256) (k : Fin 2048) :
    ((cfg1.win 6).blk t).view.emb (ix3 u p k) = (ix3 (batchOf t) (rowOf t p) k : SAtt.Idx) := by
  obtain ⟨e0, e1, e2, -⟩ := index_maps t
  funext a; apply Fin.ext
  match a with
  | ⟨0, _⟩ => show win1_6.index t (0 : Fin 3) * 1 + 1 * u.val = t.val / 8; omega
  | ⟨1, _⟩ => show win1_6.index t (1 : Fin 3) * 256 + 1 * p.val = 256 * (t.val % 8) + p.val; omega
  | ⟨2, _⟩ => show win1_6.index t (2 : Fin 3) * 2048 + 1 * k.val = k.val; omega

/-- Entry (·, p, d) of the query block at point t is entry (t / 8, 256 (t % 8) + p, d) of the query array. -/
theorem emb_q (t : Fin cfg1.N) (u : Fin 1) (p : Fin 256) (d : Fin 1024) :
    ((cfg1.win 0).blk t).view.emb (ix3 u p d) = (ix3 (batchOf t) (rowOf t p) d : SAct.Idx) := by
  obtain ⟨-, -, -, e0, e1, e2, -⟩ := index_maps t
  funext a; apply Fin.ext
  match a with
  | ⟨0, _⟩ => show win1_0.index t (0 : Fin 3) * 1 + 1 * u.val = t.val / 8; omega
  | ⟨1, _⟩ => show win1_0.index t (1 : Fin 3) * 256 + 1 * p.val = 256 * (t.val % 8) + p.val; omega
  | ⟨2, _⟩ => show win1_0.index t (2 : Fin 3) * 1024 + 1 * d.val = d.val; omega

/-- Entry (·, j, d) of the key block at point t is entry (t / 8, j, d) of the key array. -/
theorem emb_k (t : Fin cfg1.N) (u : Fin 1) (j : Fin 2048) (d : Fin 1024) :
    ((cfg1.win 1).blk t).view.emb (ix3 u j d) = (ix3 (batchOf t) j d : SAct.Idx) := by
  obtain ⟨-, -, -, -, -, -, e0, e1, e2, -⟩ := index_maps t
  funext a; apply Fin.ext
  match a with
  | ⟨0, _⟩ => show win1_1.index t (0 : Fin 3) * 1 + 1 * u.val = t.val / 8; omega
  | ⟨1, _⟩ => show win1_1.index t (1 : Fin 3) * 2048 + 1 * j.val = j.val; omega
  | ⟨2, _⟩ => show win1_1.index t (2 : Fin 3) * 1024 + 1 * d.val = d.val; omega

/-- Entry (·, p, k) of the mask block at point t is entry (0, 256 (t % 8) + p, k) of the mask. -/
theorem emb_m (t : Fin cfg1.N) (u : Fin 1) (p : Fin 256) (k : Fin 2048) :
    ((cfg1.win 3).blk t).view.emb (ix3 u p k) = (ix3 (0 : Fin 1) (rowOf t p) k : SMask.Idx) := by
  obtain ⟨-, -, -, -, -, -, -, -, -, e0, e1, e2⟩ := index_maps t
  funext a; apply Fin.ext
  match a with
  | ⟨0, _⟩ => show win1_3.index t (0 : Fin 3) * 1 + 1 * u.val = 0; omega
  | ⟨1, _⟩ => show win1_3.index t (1 : Fin 3) * 256 + 1 * p.val = 256 * (t.val % 8) + p.val; omega
  | ⟨2, _⟩ => show win1_3.index t (2 : Fin 3) * 2048 + 1 * k.val = k.val; omega

/-- Entry (·, p, e) of the output block at point t is entry (t / 8, 256 (t % 8) + p, e) of the output array. -/
theorem emb_o (t : Fin cfg1.N) (u : Fin 1) (p : Fin 256) (e : Fin 1024) :
    ((cfg1.win 7).blk t).view.emb (ix3 u p e) = (ix3 (batchOf t) (rowOf t p) e : SAct.Idx) := by
  obtain ⟨e0, e1, e2, -⟩ := index_maps_out t
  funext a; apply Fin.ext
  match a with
  | ⟨0, _⟩ => show win1_7.index t (0 : Fin 3) * 1 + 1 * u.val = t.val / 8; omega
  | ⟨1, _⟩ => show win1_7.index t (1 : Fin 3) * 256 + 1 * p.val = 256 * (t.val % 8) + p.val; omega
  | ⟨2, _⟩ => show win1_7.index t (2 : Fin 3) * 1024 + 1 * e.val = e.val; omega

/-- Entry (·, j, d) of the value block at point t is entry (t / 8, j, d) of the value array. -/
theorem emb_v (t : Fin cfg1.N) (u : Fin 1) (j : Fin 2048) (d : Fin 1024) :
    ((cfg1.win 2).blk t).view.emb (ix3 u j d) = (ix3 (batchOf t) j d : SAct.Idx) := by
  obtain ⟨-, -, -, e0, e1, e2, -⟩ := index_maps_out t
  funext a; apply Fin.ext
  match a with
  | ⟨0, _⟩ => show win1_2.index t (0 : Fin 3) * 1 + 1 * u.val = t.val / 8; omega
  | ⟨1, _⟩ => show win1_2.index t (1 : Fin 3) * 2048 + 1 * j.val = j.val; omega
  | ⟨2, _⟩ => show win1_2.index t (2 : Fin 3) * 1024 + 1 * d.val = d.val; omega

/-! ## The input blocks at a grid point, as rows of the arrays -/

/-- Row p of the mask block at point t is query row 256 (t % 8) + p of the mask. -/
theorem blk_mask_row (c : Dev nD) (t : Fin cfg1.N) (p : Fin 256) :
    (fun j => iblk1 V c 3 t (ix3 (0 : Fin 1) p j)) = maskRow (V c main_arg1) (rowOf t p) := funext fun j => by
  show V c main_arg1 (((cfg1.win 3).blk t).view.emb (ix3 (0 : Fin 1) p j)) = V c main_arg1 (ix3 (0 : Fin 1) (rowOf t p) j)
  exact congrArg (V c main_arg1) (emb_m t 0 p j)

/-- Row p of the query block at point t is row (t / 8, 256 (t % 8) + p) of the query array. -/
theorem blk_query_row (c : Dev nD) (t : Fin cfg1.N) (p : Fin 256) :
    (fun d => iblk1 V c 0 t (ix3 (0 : Fin 1) p d)) = fun d => V c main_v9_0 (ix3 (batchOf t) (rowOf t p) d) := funext fun d => by
  show V c main_v9_0 (((cfg1.win 0).blk t).view.emb (ix3 (0 : Fin 1) p d)) = _
  exact congrArg (V c main_v9_0) (emb_q t 0 p d)

/-- The key block at point t is batch entry t / 8 of the key array. -/
theorem blk_key_rows (c : Dev nD) (t : Fin cfg1.N) :
    (fun j d => iblk1 V c 1 t (ix3 (0 : Fin 1) j d)) = fun j d => V c main_v9_1 (ix3 (batchOf t) j d) :=
  funext fun j => funext fun d => by
    show V c main_v9_1 (((cfg1.win 1).blk t).view.emb (ix3 (0 : Fin 1) j d)) = _
    exact congrArg (V c main_v9_1) (emb_k t 0 j d)

/-- The value block at point t is batch entry t / 8 of the value array. -/
theorem blk_value_rows (c : Dev nD) (t : Fin cfg1.N) :
    (fun j d => iblk1 V c 2 t (ix3 (0 : Fin 1) j d)) = fun j d => V c main_v9_2 (ix3 (batchOf t) j d) :=
  funext fun j => funext fun d => by
    show V c main_v9_2 (((cfg1.win 2).blk t).view.emb (ix3 (0 : Fin 1) j d)) = _
    exact congrArg (V c main_v9_2) (emb_v t 0 j d)

/-- The output-weight block is the whole matrix at every grid point. -/
theorem blk_wo (c : Dev nD) (t : Fin cfg1.N) : (iblk1 V c 4 t : S1024x1024.Idx → EReal) = V c main_v4 := by
  obtain ⟨-, -, -, -, -, -, e0, e1, -⟩ := index_maps_out t
  funext y
  show V c main_v4 (((cfg1.win 4).blk t).view.emb y) = V c main_v4 y
  refine congrArg (V c main_v4) ?_
  funext a; apply Fin.ext
  match a with
  | ⟨0, _⟩ => show win1_4.index t (0 : Fin 2) * 1024 + 1 * (y 0).val = (y 0).val; omega
  | ⟨1, _⟩ => show win1_4.index t (1 : Fin 2) * 1024 + 1 * (y 1).val = (y 1).val; omega

/-- The bias block is the whole one-row matrix at every grid point. -/
theorem blk_bo (c : Dev nD) (t : Fin cfg1.N) : (iblk1 V c 5 t : S1x1024.Idx → EReal) = V c main_v8 := by
  obtain ⟨-, -, -, -, -, -, -, -, e0, e1⟩ := index_maps_out t
  funext y
  show V c main_v8 (((cfg1.win 5).blk t).view.emb y) = V c main_v8 y
  refine congrArg (V c main_v8) ?_
  funext a; apply Fin.ext
  match a with
  | ⟨0, _⟩ => show win1_5.index t (0 : Fin 2) * 1 + 1 * (y 0).val = (y 0).val; omega
  | ⟨1, _⟩ => show win1_5.index t (1 : Fin 2) * 1024 + 1 * (y 1).val = (y 1).val; omega

/-! ## The attention weights -/

/-- The weight payload at entry (·, p, k) of the block, over any blocks: the body's weights of query row p with the
    leading unit axis put back, so the zeroed softmax of row p's masked scores at key k. -/
theorem weight_pay_at (x0 : Vec Ideal S1x256x1024 .bf16) (x1 : Vec Ideal S1x2048x1024 .bf16) (x3 : Vec Ideal S1x256x2048 .i32)
    (u : Fin 1) (p : Fin 256) (k : Fin 2048) :
    k1_pay1 (F := Ideal) (k1_pay6 (F := Ideal) x0 x1 x3) (ix3 u p k)
      = maskedSoftmaxRow (fun j => x3 (ix3 (0 : Fin 1) p j))
          (scoreRow (fun j => x3 (ix3 (0 : Fin 1) p j)) (fun d => x0 (ix3 (0 : Fin 1) p d)) (fun j d => x1 (ix3 (0 : Fin 1) j d))) k := by
  unfold k1_pay1
  refine (shapeCast_ab_1ab_apply _ _ u p k).trans ?_
  exact AttnBody.weights_at x0 x1 x3 p k

/-- What grid point t writes back to the weight array is its block of the zeroed attention weights of the query and
    key arrays under the mask. -/
theorem flushed_weights (c : Dev nD) (t : Fin cfg1.N) :
    (dat1 (F := Ideal) V c).flushed 6 t = ((cfg1.win 6).blk t).view.read (Elt Ideal) (weightsArr (V c main_v9_0) (V c main_v9_1) (V c main_arg1)) := by
  show (cfg1.win 6).cut (grid1.coords t) ((dat1 V c).after 6 t) = _
  rw [after1_6]
  unfold out1_6
  rw [View.canon_unit_zero zero3]
  simp only [View.ld_unit_zero (S := S1x256x1024) zero3, View.ld_unit_zero (S := S1x2048x1024) zero3, View.ld_unit_zero (S := S1x256x2048) zero3]
  show (_ : S1x256x2048.Idx → EReal) = _
  refine ext_ix3 fun u p k => ?_
  show k1_pay1 (F := Ideal) (k1_pay6 (F := Ideal) (iblk1 V c 0 t) (iblk1 V c 1 t) (iblk1 V c 3 t)) (ix3 u p k)
    = weightsArr (V c main_v9_0) (V c main_v9_1) (V c main_arg1) (((cfg1.win 6).blk t).view.emb (ix3 u p k))
  refine (weight_pay_at (iblk1 V c 0 t) (iblk1 V c 1 t) (iblk1 V c 3 t) u p k).trans ?_
  refine Eq.trans ?_ (congrArg (weightsArr (V c main_v9_0) (V c main_v9_1) (V c main_arg1)) (emb_w t u p k).symm)
  rw [blk_mask_row V c t p, blk_query_row V c t p, blk_key_rows V c t]
  rfl

/-- An entry of the weight array is in a grid point's block iff each coordinate is in the block's range. -/
theorem mem_blk_weights (t : Fin cfg1.N) (i : SAtt.Idx) :
    i ∈ ((cfg1.win 6).blk t).view.set ↔ ∀ a : Fin 3, win1_6.index t a * S1x256x2048.size a ≤ (i a).val ∧ (i a).val < win1_6.index t a * S1x256x2048.size a + S1x256x2048.size a := by
  show i ∈ ((View.whole main_v10_0).slice (win1_6.rect t)).set ↔ _
  rw [View.set_slice_whole, Rect.mem_set_unit]
  exact Iff.rfl

/-- Every entry (b, r, k) of the weight array is in the block of grid point (b, r / 256), which is point 8 b + r / 256. -/
theorem cover_weights (i : SAtt.Idx) : ∃ t : Fin cfg1.N, (cfg1.win 6).flush t = true ∧ i ∈ ((cfg1.win 6).blk t).view.set := by
  have h0 : (i 0).val < 4 := (i 0).isLt
  have h1 : (i 1).val < 2048 := (i 1).isLt
  have h2 : (i 2).val < 2048 := (i 2).isLt
  have hN : cfg1.N = 32 := N_1
  refine ⟨⟨(i 0).val * 8 + (i 1).val / 256, by omega⟩, flush1_6 _, ?_⟩
  rw [mem_blk_weights]
  obtain ⟨e0, e1, e2, -⟩ := index_maps ⟨(i 0).val * 8 + (i 1).val / 256, by omega⟩
  intro a
  match a with
  | ⟨0, _⟩ =>
    show win1_6.index _ (0 : Fin 3) * 1 ≤ (i 0).val ∧ (i 0).val < win1_6.index _ (0 : Fin 3) * 1 + 1
    rw [e0]; show ((i 0).val * 8 + (i 1).val / 256) / 8 * 1 ≤ _ ∧ _ < ((i 0).val * 8 + (i 1).val / 256) / 8 * 1 + 1; omega
  | ⟨1, _⟩ =>
    show win1_6.index _ (1 : Fin 3) * 256 ≤ (i 1).val ∧ (i 1).val < win1_6.index _ (1 : Fin 3) * 256 + 256
    rw [e1]; show ((i 0).val * 8 + (i 1).val / 256) % 8 * 256 ≤ _ ∧ _ < ((i 0).val * 8 + (i 1).val / 256) % 8 * 256 + 256; omega
  | ⟨2, _⟩ =>
    show win1_6.index _ (2 : Fin 3) * 2048 ≤ (i 2).val ∧ (i 2).val < win1_6.index _ (2 : Fin 3) * 2048 + 2048
    rw [e2]; omega

/-- The attention-weight array after the region. -/
theorem weights_array (c : Dev nD) :
    (dat1 (F := Ideal) V c).arrAt 6 cfg1.N = weightsArr (V c main_v9_0) (V c main_v9_1) (V c main_arg1) := by
  exact (dat1 (F := Ideal) V c).arrAt_eq_of_cover 6 (weightsArr (V c main_v9_0) (V c main_v9_1) (V c main_arg1))
    (fun t _ => flushed_weights V c t) cover_weights

/-! ## The layer's output -/

/-- The output payload at entry (·, p, e) of the block, over any blocks: the value rows mixed with row p's weights,
    then the output projection. The casts of the value block, the output weights and the bias only drop a unit axis
    or change nothing. -/
theorem out_pay_at (x0 : Vec Ideal S1x256x1024 .bf16) (x1 : Vec Ideal S1x2048x1024 .bf16) (x2 : Vec Ideal S1x2048x1024 .bf16)
    (x3 : Vec Ideal S1x256x2048 .i32) (x4 : Vec Ideal S1024x1024 .bf16) (x5 : Vec Ideal S1x1024 .f32)
    (u : Fin 1) (p : Fin 256) (e : Fin 1024) :
    k1_pay2 (F := Ideal) (k1_pay3 (F := Ideal) x2) (k1_pay4 (F := Ideal) x4) (k1_pay5 (F := Ideal) x5) (k1_pay6 (F := Ideal) x0 x1 x3) (ix3 u p e)
      = affineRow x4 (fun e' => x5 (ix2 (0 : Fin 1) e'))
          (mixRow (maskedSoftmaxRow (fun j => x3 (ix3 (0 : Fin 1) p j))
              (scoreRow (fun j => x3 (ix3 (0 : Fin 1) p j)) (fun d => x0 (ix3 (0 : Fin 1) p d)) (fun j d => x1 (ix3 (0 : Fin 1) j d))))
            (fun k d => x2 (ix3 (0 : Fin 1) k d))) e := by
  obtain rfl : u = 0 := Subsingleton.elim _ _
  refine (AttnBody.output_at (k1_pay3 (F := Ideal) x2) (k1_pay4 (F := Ideal) x4) (k1_pay5 (F := Ideal) x5) (k1_pay6 (F := Ideal) x0 x1 x3) p e).trans ?_
  have h4 : k1_pay4 (F := Ideal) x4 = x4 := by unfold k1_pay4; exact shapeCast_self _ _
  have h5 : k1_pay5 (F := Ideal) x5 = x5 := by unfold k1_pay5; exact shapeCast_self _ _
  have h3 : (fun k d => k1_pay3 (F := Ideal) x2 (ix2 k d)) = fun k d => x2 (ix3 (0 : Fin 1) k d) :=
    funext fun k => funext fun d => by unfold k1_pay3; exact shapeCast_1ab_ab_apply _ _ k d
  have h6 : (fun k => k1_pay6 (F := Ideal) x0 x1 x3 (ix2 p k))
      = maskedSoftmaxRow (fun j => x3 (ix3 (0 : Fin 1) p j))
          (scoreRow (fun j => x3 (ix3 (0 : Fin 1) p j)) (fun d => x0 (ix3 (0 : Fin 1) p d)) (fun j d => x1 (ix3 (0 : Fin 1) j d))) :=
    funext fun k => AttnBody.weights_at x0 x1 x3 p k
  rw [h4, h5, h3, h6]

/-- What grid point t writes back to the output array is its block of the layer's output from the zeroed weights,
    the value array, the output weights and the bias. -/
theorem flushed_out (c : Dev nD) (t : Fin cfg1.N) :
    (dat1 (F := Ideal) V c).flushed 7 t = ((cfg1.win 7).blk t).view.read (Elt Ideal)
      (outArr (weightsArr (V c main_v9_0) (V c main_v9_1) (V c main_arg1)) (V c main_v9_2) (V c main_v4) (V c main_v8)) := by
  show (cfg1.win 7).cut (grid1.coords t) ((dat1 V c).after 7 t) = _
  rw [after1_7]
  unfold out1_7
  rw [View.canon_unit_zero zero3]
  simp only [View.ld_unit_zero (S := S1x256x1024) zero3, View.ld_unit_zero (S := S1x2048x1024) zero3, View.ld_unit_zero (S := S1x256x2048) zero3,
    View.ld_unit_zero (S := S1024x1024) zero2, View.ld_unit_zero (S := S1x1024) zero2]
  show (_ : S1x256x1024.Idx → EReal) = _
  refine ext_ix3 fun u p e => ?_
  show k1_pay2 (F := Ideal) (k1_pay3 (F := Ideal) (iblk1 V c 2 t)) (k1_pay4 (F := Ideal) (iblk1 V c 4 t)) (k1_pay5 (F := Ideal) (iblk1 V c 5 t))
      (k1_pay6 (F := Ideal) (iblk1 V c 0 t) (iblk1 V c 1 t) (iblk1 V c 3 t)) (ix3 u p e)
    = outArr (weightsArr (V c main_v9_0) (V c main_v9_1) (V c main_arg1)) (V c main_v9_2) (V c main_v4) (V c main_v8)
        (((cfg1.win 7).blk t).view.emb (ix3 u p e))
  refine (out_pay_at (iblk1 V c 0 t) (iblk1 V c 1 t) (iblk1 V c 2 t) (iblk1 V c 3 t) (iblk1 V c 4 t) (iblk1 V c 5 t) u p e).trans ?_
  refine Eq.trans ?_ (congrArg (outArr (weightsArr (V c main_v9_0) (V c main_v9_1) (V c main_arg1)) (V c main_v9_2) (V c main_v4) (V c main_v8)) (emb_o t u p e).symm)
  rw [blk_mask_row V c t p, blk_query_row V c t p, blk_key_rows V c t, blk_value_rows V c t, blk_wo V c t, blk_bo V c t]
  rfl

/-- An entry of the output array is in a grid point's block iff each coordinate is in the block's range. -/
theorem mem_blk_out (t : Fin cfg1.N) (i : SAct.Idx) :
    i ∈ ((cfg1.win 7).blk t).view.set ↔ ∀ a : Fin 3, win1_7.index t a * S1x256x1024.size a ≤ (i a).val ∧ (i a).val < win1_7.index t a * S1x256x1024.size a + S1x256x1024.size a := by
  show i ∈ ((View.whole main_v10_1).slice (win1_7.rect t)).set ↔ _
  rw [View.set_slice_whole, Rect.mem_set_unit]
  exact Iff.rfl

/-- Every entry (b, r, e) of the output array is in the block of grid point (b, r / 256), which is point 8 b + r / 256. -/
theorem cover_out (i : SAct.Idx) : ∃ t : Fin cfg1.N, (cfg1.win 7).flush t = true ∧ i ∈ ((cfg1.win 7).blk t).view.set := by
  have h0 : (i 0).val < 4 := (i 0).isLt
  have h1 : (i 1).val < 2048 := (i 1).isLt
  have h2 : (i 2).val < 1024 := (i 2).isLt
  have hN : cfg1.N = 32 := N_1
  refine ⟨⟨(i 0).val * 8 + (i 1).val / 256, by omega⟩, flush1_7 _, ?_⟩
  rw [mem_blk_out]
  obtain ⟨e0, e1, e2, -⟩ := index_maps_out ⟨(i 0).val * 8 + (i 1).val / 256, by omega⟩
  intro a
  match a with
  | ⟨0, _⟩ =>
    show win1_7.index _ (0 : Fin 3) * 1 ≤ (i 0).val ∧ (i 0).val < win1_7.index _ (0 : Fin 3) * 1 + 1
    rw [e0]; show ((i 0).val * 8 + (i 1).val / 256) / 8 * 1 ≤ _ ∧ _ < ((i 0).val * 8 + (i 1).val / 256) / 8 * 1 + 1; omega
  | ⟨1, _⟩ =>
    show win1_7.index _ (1 : Fin 3) * 256 ≤ (i 1).val ∧ (i 1).val < win1_7.index _ (1 : Fin 3) * 256 + 256
    rw [e1]; show ((i 0).val * 8 + (i 1).val / 256) % 8 * 256 ≤ _ ∧ _ < ((i 0).val * 8 + (i 1).val / 256) % 8 * 256 + 256; omega
  | ⟨2, _⟩ =>
    show win1_7.index _ (2 : Fin 3) * 1024 ≤ (i 2).val ∧ (i 2).val < win1_7.index _ (2 : Fin 3) * 1024 + 1024
    rw [e2]; omega

/-- The output array after the region. -/
theorem out_array (c : Dev nD) :
    (dat1 (F := Ideal) V c).arrAt 7 cfg1.N
      = outArr (weightsArr (V c main_v9_0) (V c main_v9_1) (V c main_arg1)) (V c main_v9_2) (V c main_v4) (V c main_v8) := by
  exact (dat1 (F := Ideal) V c).arrAt_eq_of_cover 7
    (outArr (weightsArr (V c main_v9_0) (V c main_v9_1) (V c main_arg1)) (V c main_v9_2) (V c main_v4) (V c main_v8))
    (fun t _ => flushed_out V c t) cover_out

end Cert.KernelIdeal.AttnRegion

end
-- ==== Proof.KernelValue.lean ====
/-
  The kernel program's two results as functions of its arguments.
  The host lines before the first region only change float formats (the identity on the extended reals) and view each
  bias vector as a one-row matrix. The first region's three output arrays are the second region's query, key and value
  inputs; the mask, the output weights and the output bias reach the second region untouched.
-/
import proofs.«420197_j33234456936606_3_alg».proof.Proof.Gen.KernelIdeal.Frame
import proofs.«420197_j33234456936606_3_alg».proof.Proof.AttnSpec
import proofs.«420197_j33234456936606_3_alg».proof.Proof.AttnCompose
import proofs.«420197_j33234456936606_3_alg».proof.Proof.QkvRegion
import proofs.«420197_j33234456936606_3_alg».proof.Proof.AttnRegion
import Idealize.ShloMosaic.Lib.StableHlo.Run
import Idealize.ShloMosaic.Lib.Pipeline.Value

set_option maxRecDepth 16384

noncomputable section

namespace Cert.KernelIdeal.KValue

open Cert.KernelIdeal Cert.KernelIdeal.Gen Cert.Attn
open Idealize.ShloMosaic Idealize.ShloMosaic.TcCoe Idealize.ShloMosaic.ValueIdx Idealize.ShloMosaic.Rows Idealize.ShloMosaic.StableHlo

variable (m : (ℓ : Loc nD τ sig) → Buf (Elt Ideal) ℓ) (ρ : Dev nD → PrngReg)

/-! ## What the first region is handed: the host lines read back -/

/-- The activations in the narrower format are the activations. -/
theorem V1_x (c : Dev nD) : V1 m ρ c main_v0 = m ((c.tc : Thread nD τ).loc main_arg0) := by
  show StableHlo.after hostOps0 (W0 m ρ c) (Proc.devRef .tc main_v0) = _
  after_results
  rfl

theorem V1_wq (c : Dev nD) : V1 m ρ c main_v1 = m ((c.tc : Thread nD τ).loc main_arg2) := by
  show StableHlo.after hostOps0 (W0 m ρ c) (Proc.devRef .tc main_v1) = _
  after_results
  rfl

theorem V1_wk (c : Dev nD) : V1 m ρ c main_v2 = m ((c.tc : Thread nD τ).loc main_arg4) := by
  show StableHlo.after hostOps0 (W0 m ρ c) (Proc.devRef .tc main_v2) = _
  after_results
  rfl

theorem V1_wv (c : Dev nD) : V1 m ρ c main_v3 = m ((c.tc : Thread nD τ).loc main_arg6) := by
  show StableHlo.after hostOps0 (W0 m ρ c) (Proc.devRef .tc main_v3) = _
  after_results
  rfl

theorem V1_wo (c : Dev nD) : V1 m ρ c main_v4 = m ((c.tc : Thread nD τ).loc main_arg8) := by
  show StableHlo.after hostOps0 (W0 m ρ c) (Proc.devRef .tc main_v4) = _
  after_results
  rfl

/-- A bias vector viewed as a one-row matrix. -/
theorem V1_bq (c : Dev nD) : V1 m ρ c main_v5 = shapeCast S1x1024 (m ((c.tc : Thread nD τ).loc main_arg3)) shapeCasts_S1024_S1x1024 := by
  show StableHlo.after hostOps0 (W0 m ρ c) (Proc.devRef .tc main_v5) = _
  after_results
  rfl

theorem V1_bk (c : Dev nD) : V1 m ρ c main_v6 = shapeCast S1x1024 (m ((c.tc : Thread nD τ).loc main_arg5)) shapeCasts_S1024_S1x1024 := by
  show StableHlo.after hostOps0 (W0 m ρ c) (Proc.devRef .tc main_v6) = _
  after_results
  rfl

theorem V1_bv (c : Dev nD) : V1 m ρ c main_v7 = shapeCast S1x1024 (m ((c.tc : Thread nD τ).loc main_arg7)) shapeCasts_S1024_S1x1024 := by
  show StableHlo.after hostOps0 (W0 m ρ c) (Proc.devRef .tc main_v7) = _
  after_results
  rfl

theorem V1_bo (c : Dev nD) : V1 m ρ c main_v8 = shapeCast S1x1024 (m ((c.tc : Thread nD τ).loc main_arg9)) shapeCasts_S1024_S1x1024 := by
  show StableHlo.after hostOps0 (W0 m ρ c) (Proc.devRef .tc main_v8) = _
  after_results
  rfl

/-- No host line writes the mask. -/
theorem V1_mask (c : Dev nD) : V1 m ρ c main_arg1 = m ((c.tc : Thread nD τ).loc main_arg1) := by
  show StableHlo.after hostOps0 (W0 m ρ c) (Proc.devRef .tc main_arg1) = _
  after_results

/-- Entry (0, e) of a vector viewed as a one-row matrix is the vector's entry e. -/
theorem row_of_vec (b : FVec Ideal S1024 .f32) (e : Fin 1024) :
    shapeCast S1x1024 b shapeCasts_S1024_S1x1024 (ix2 (0 : Fin 1) e) = b (ix1 e) :=
  shapeCast_apply b shapeCasts_S1024_S1x1024 (ix2 (0 : Fin 1) e) (ix1 e) (by
    rw [Shape.rowMajor_val_two, Shape.rowMajor_val_one]; show e.val = 0 * 1024 + e.val; omega)

/-! ## What the second region is handed -/

/-- The first region's output arrays: the three projections. -/
theorem V2_q (c : Dev nD) : V2 m ρ c main_v9_0 = projArr (V1 m ρ c main_v0) (V1 m ρ c main_v1) (V1 m ρ c main_v5) :=
  (W2_arr m ρ c 7).trans (Cert.KernelIdeal.Qkv.q_array (V1 m ρ) c)

theorem V2_k (c : Dev nD) : V2 m ρ c main_v9_1 = projArr (V1 m ρ c main_v0) (V1 m ρ c main_v2) (V1 m ρ c main_v6) :=
  (W2_arr m ρ c 8).trans (Cert.KernelIdeal.Qkv.k_array (V1 m ρ) c)

theorem V2_v (c : Dev nD) : V2 m ρ c main_v9_2 = projArr (V1 m ρ c main_v0) (V1 m ρ c main_v3) (V1 m ρ c main_v7) :=
  (W2_arr m ρ c 9).trans (Cert.KernelIdeal.Qkv.v_array (V1 m ρ) c)

/-- The first region writes neither the mask nor the output layer's weights and bias. -/
theorem V2_mask (c : Dev nD) : V2 m ρ c main_arg1 = V1 m ρ c main_arg1 := W2_of_ne m ρ c main_arg1 (by decide)
theorem V2_wo (c : Dev nD) : V2 m ρ c main_v4 = V1 m ρ c main_v4 := W2_of_ne m ρ c main_v4 (by decide)
theorem V2_bo (c : Dev nD) : V2 m ρ c main_v8 = V1 m ρ c main_v8 := W2_of_ne m ρ c main_v8 (by decide)

/-! ## The results -/

/-- The attention-weight result. -/
theorem kernel_weights (c : Dev nD) :
    W3 m ρ c (Proc.devRef .tc main_v10_0)
      = weightsZeroed (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  refine ((W3_arr m ρ c 6).trans (Cert.KernelIdeal.AttnRegion.weights_array (V2 m ρ) c)).trans ?_
  rw [V2_q, V2_k, V2_mask, V1_x, V1_wq, V1_wk, V1_bq, V1_bk, V1_mask]
  exact weightsArr_projArr _ _ _ _ _ _ _ _ (row_of_vec _) (row_of_vec _)

/-- The output result. -/
theorem kernel_output (c : Dev nD) :
    W3 m ρ c (Proc.devRef .tc main_v10_1)
      = outputOf (weightsZeroed (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)))
        (m ((c.tc : Thread nD τ).loc main_arg0)) (m ((c.tc : Thread nD τ).loc main_arg6)) (m ((c.tc : Thread nD τ).loc main_arg7))
        (m ((c.tc : Thread nD τ).loc main_arg8)) (m ((c.tc : Thread nD τ).loc main_arg9)) := by
  refine ((W3_arr m ρ c 7).trans (Cert.KernelIdeal.AttnRegion.out_array (V2 m ρ) c)).trans ?_
  rw [V2_q, V2_k, V2_v, V2_mask, V2_wo, V2_bo, V1_x, V1_wq, V1_wk, V1_wv, V1_wo, V1_bq, V1_bk, V1_bv, V1_bo, V1_mask]
  rw [weightsArr_projArr _ _ _ _ _ _ _ _ (row_of_vec _) (row_of_vec _)]
  exact outArr_projArr _ _ _ _ _ _ _ _ (row_of_vec _) (row_of_vec _)

end Cert.KernelIdeal.KValue

end
-- ==== Proof.RefValue.lean ====
/-
  The reference program's two results as functions of its arguments: the plain softmax of the masked, scaled scores,
  and the output projection of the weights mixed with the values. The reference divides the scores by the square root
  of 1024, which is multiplication by 1/32 on every extended real.
-/
import proofs.«420197_j33234456936606_3_alg».proof.Proof.Gen.ReferenceIdeal.Run
import proofs.«420197_j33234456936606_3_alg».proof.Proof.Gen.ReferenceIdeal.Read
import proofs.«420197_j33234456936606_3_alg».proof.Proof.AttnSpec
import Idealize.ShloMosaic.Lib.ValueIdx
import Idealize.ShloMosaic.Lib.Pipeline.Value
import Idealize.ShloMosaic.PureOps.Ideal.Laws
import Idealize.ShloMosaic.Lib.StableHlo.Predicate

set_option maxRecDepth 16384

noncomputable section

namespace Cert.ReferenceIdeal.RefValue

open Cert.ReferenceIdeal Cert.ReferenceIdeal.Gen Cert.ReferenceIdeal.Value Cert.ReferenceIdeal.Read Cert.Attn
open Idealize.ShloMosaic Idealize.ShloMosaic.TcCoe Idealize.ShloMosaic.ValueIdx Idealize.ShloMosaic.Rows

/-! ## The word 0xFF800000 is −∞ -/

/-- The IEEE single-precision word with sign 1, all-ones exponent and zero fraction denotes −∞. -/
theorem negInf_word : Ideal.ofBits .f32 0xFF800000#32 = (⊥ : EReal) := by
  simp [Ideal.ofBits, Ideal.ieee]

/-! ## An affine layer of every row: product with an input-major matrix, plus the bias laid along every row -/

theorem lidx_affine (bt : Fin 4) (s : Fin 2048) (e k : Fin 1024) : lidx_main_v0 (ix3 bt s e) k = ix3 bt s k :=
  funext fun a => Fin.ext (by match a with | ⟨0, _⟩ => rfl | ⟨1, _⟩ => rfl | ⟨2, _⟩ => rfl)

theorem ridx_affine (bt : Fin 4) (s : Fin 2048) (e k : Fin 1024) : ridx_main_v0 (ix3 bt s e) k = ix2 k e :=
  funext fun a => Fin.ext (by match a with | ⟨0, _⟩ => rfl | ⟨1, _⟩ => rfl)

theorem idx_bias (bt : Fin 4) (s : Fin 2048) (e : Fin 1024) : idx_main_v1 (idx_main_v2 (ix3 bt s e)) = ix1 e :=
  funext fun a => Fin.ext (by match a with | ⟨0, _⟩ => rfl)

/-- The affine stage at (bt, s, e): (∑_d X(bt, s, d) · W(d, e)) + b(e). -/
theorem affine_apply (X : SAct.Idx → EReal) (W : SMat.Idx → EReal) (b : SVec.Idx → EReal)
    (bt : Fin 4) (s : Fin 2048) (e : Fin 1024) :
    val_main_v3 (F := Ideal) X W b (ix3 bt s e)
      = affineRow W (fun e => b (ix1 e)) (fun d => X (ix3 bt s d)) e := by
  rw [val_main_v3_apply, val_main_v0_apply, val_main_v2_apply, val_main_v1_apply, idx_bias]
  simp only [lidx_affine, ridx_affine, Ideal.addf_def]
  rfl

/-- The key, value and output stages are the same composition as the query stage. -/
theorem v7_eq (X : SAct.Idx → EReal) (W : SMat.Idx → EReal) (b : SVec.Idx → EReal) :
    val_main_v7 (F := Ideal) X W b = val_main_v3 (F := Ideal) X W b := rfl

theorem v11_eq (X : SAct.Idx → EReal) (W : SMat.Idx → EReal) (b : SVec.Idx → EReal) :
    val_main_v11 (F := Ideal) X W b = val_main_v3 (F := Ideal) X W b := rfl

/-! ## The masked, scaled scores -/

theorem lidx_scores (bt : Fin 4) (q k : Fin 2048) (d : Fin 1024) : lidx_main_v12 (ix3 bt q k) d = ix3 bt q d :=
  funext fun a => Fin.ext (by match a with | ⟨0, _⟩ => rfl | ⟨1, _⟩ => rfl | ⟨2, _⟩ => rfl)

theorem ridx_scores (bt : Fin 4) (q k : Fin 2048) (d : Fin 1024) : ridx_main_v12 (ix3 bt q k) d = ix3 bt k d :=
  funext fun a => Fin.ext (by match a with | ⟨0, _⟩ => rfl | ⟨1, _⟩ => rfl | ⟨2, _⟩ => rfl)

theorem idx_mask (bt : Fin 4) (q k : Fin 2048) : idx_main_call0_v0 (ix3 bt q k) = ix3 (0 : Fin 1) q k :=
  funext fun a => Fin.ext (by match a with | ⟨0, _⟩ => rfl | ⟨1, _⟩ => rfl | ⟨2, _⟩ => rfl)

/-- The integer comparison yields the bit 1 exactly on equal words. -/
theorem cmpi_eq_one_iff (a b : BitVec 32) : IntOp.cmpi .eq a b = 1 ↔ a = b := StableHlo.Predicate.cmpi_eq_iff

/-- The selected scores at (bt, q, k): −∞ where the mask word is zero, else the scaled product of the query and key rows. -/
theorem scores_apply (X : SAct.Idx → EReal) (M : SMask.Idx → BitVec 32) (Wq : SMat.Idx → EReal) (bq : SVec.Idx → EReal)
    (Wk : SMat.Idx → EReal) (bk : SVec.Idx → EReal) (bt : Fin 4) (q k : Fin 2048) :
    val_main_v18 (F := Ideal) X M Wq bq Wk bk (ix3 bt q k) = scoresOf X M Wq bq Wk bk bt q k := by
  rw [val_main_v18_apply, val_main_call0_v0_apply, val_main_v17_apply, val_main_v16_apply, val_main_c_apply,
    val_main_call0_v1_apply, val_main_cst_0_apply, val_main_v15_apply, val_main_v12_apply, val_main_v14_apply,
    val_main_v13_apply, val_main_cst_apply, idx_mask]
  simp only [lidx_scores, ridx_scores, v7_eq, affine_apply, Ideal.hostDivf_def, Ideal.hostUnary_sqrt_def, Ideal.ofBits_def,
    negInf_word, div_sqrt_1024, Scalar.select]
  unfold scoresOf scoreRow maskRow projRow
  by_cases h : M (ix3 (0 : Fin 1) q k) = 0#32
  · rw [if_pos h, if_pos ((cmpi_eq_one_iff _ _).mpr h)]
  · rw [if_neg h, if_neg fun hc => h ((cmpi_eq_one_iff _ _).mp hc)]

/-! ## The row maximum, the shifted exponentials, their sum, the quotient -/

/-- The key axis of the weights array is dropped by the two reductions. -/
theorem reduces_att : S4x2048x2048.Reduces [2] S4x2048 := by decide

theorem lift_att (bt : Fin 4) (q k : Fin 2048) : reduces_att.lift (ix2 bt q) k = ix3 bt q k :=
  funext fun a => Fin.ext (by match a with | ⟨0, _⟩ => rfl | ⟨1, _⟩ => rfl | ⟨2, _⟩ => rfl)

section Weights
variable (X : SAct.Idx → EReal) (M : SMask.Idx → BitVec 32) (Wq : SMat.Idx → EReal) (bq : SVec.Idx → EReal)
  (Wk : SMat.Idx → EReal) (bk : SVec.Idx → EReal)

/-- The maximum of row (bt, q), folded from −∞ and joined once more with −∞. -/
theorem rowmax_apply (bt : Fin 4) (q : Fin 2048) :
    val_main_v21 (F := Ideal) X M Wq bq Wk bk (ix2 bt q) = rowMax (scoresOf X M Wq bq Wk bk bt q) := by
  rw [val_main_v21_apply, val_main_v20_apply, val_main_cst_2_apply]
  unfold val_main_v19
  rw [Host.reduce_eq_fold_single FloatOps.maximumf _ _ reducesTo_S4x2048x2048_S4x2048_d2 reduces_att h_S_]
  have e : (val_main_v18 (F := Ideal) X M Wq bq Wk bk ∘ reduces_att.lift (ix2 bt q)) = scoresOf X M Wq bq Wk bk bt q :=
    funext fun k => (congrArg (val_main_v18 (F := Ideal) X M Wq bq Wk bk) (lift_att bt q k)).trans
      (scores_apply X M Wq bq Wk bk bt q k)
  rw [e]
  exact max_init_rowMax _

theorem idx_rowmax (bt : Fin 4) (q k : Fin 2048) : idx_main_v22 (idx_main_v23 (ix3 bt q k)) = ix2 bt q :=
  funext fun a => Fin.ext (by match a with | ⟨0, _⟩ => rfl | ⟨1, _⟩ => rfl)

/-- The exponential of the score shifted by its row's maximum. -/
theorem exp_apply (bt : Fin 4) (q k : Fin 2048) :
    val_main_v25 (F := Ideal) X M Wq bq Wk bk (ix3 bt q k)
      = Ideal.exp (scoresOf X M Wq bq Wk bk bt q k - rowMax (scoresOf X M Wq bq Wk bk bt q)) := by
  rw [val_main_v25_apply, val_main_v24_apply, val_main_v23_apply, val_main_v22_apply, idx_rowmax, rowmax_apply, scores_apply]
  rfl

theorem idx_sum (bt : Fin 4) (q k : Fin 2048) : idx_main_v26 (ix2 bt q) k = ix3 bt q k :=
  funext fun a => Fin.ext (by match a with | ⟨0, _⟩ => rfl | ⟨1, _⟩ => rfl | ⟨2, _⟩ => rfl)

/-- The sum of row (bt, q)'s shifted exponentials, from the zero word. -/
theorem sum_apply (bt : Fin 4) (q : Fin 2048) :
    val_main_v26 (F := Ideal) X M Wq bq Wk bk (ix2 bt q)
      = ∑ k : Fin 2048, Ideal.exp (scoresOf X M Wq bq Wk bk bt q k - rowMax (scoresOf X M Wq bq Wk bk bt q)) := by
  rw [val_main_v26_apply, val_main_cst_3_apply]
  simp only [idx_sum, exp_apply, Ideal.ofBits_def, Ideal.ofBits_zero_f32, zero_add]

theorem idx_rowsum (bt : Fin 4) (q k : Fin 2048) : idx_main_v27 (idx_main_v28 (ix3 bt q k)) = ix2 bt q :=
  funext fun a => Fin.ext (by match a with | ⟨0, _⟩ => rfl | ⟨1, _⟩ => rfl)

/-- The weights at (bt, q, k): the softmax of row (bt, q)'s scores at k. -/
theorem weights_apply (bt : Fin 4) (q k : Fin 2048) :
    val_main_v29 (F := Ideal) X M Wq bq Wk bk (ix3 bt q k) = softmaxRow (scoresOf X M Wq bq Wk bk bt q) k := by
  rw [val_main_v29_apply, val_main_v28_apply, val_main_v27_apply, idx_rowsum, sum_apply, exp_apply]
  rfl

/-- The weights stage is the plain softmax of the masked scores. -/
theorem weights_eq : val_main_v29 (F := Ideal) X M Wq bq Wk bk = weightsPlain X M Wq bq Wk bk :=
  ext_ix3 fun bt q k => weights_apply X M Wq bq Wk bk bt q k

end Weights

/-! ## The output: the weights mixed with the value rows, then one more affine layer -/

theorem lidx_mix (bt : Fin 4) (q k : Fin 2048) (d : Fin 1024) : lidx_main_v30 (ix3 bt q d) k = ix3 bt q k :=
  funext fun a => Fin.ext (by match a with | ⟨0, _⟩ => rfl | ⟨1, _⟩ => rfl | ⟨2, _⟩ => rfl)

theorem ridx_mix (bt : Fin 4) (q k : Fin 2048) (d : Fin 1024) : ridx_main_v30 (ix3 bt q d) k = ix3 bt k d :=
  funext fun a => Fin.ext (by match a with | ⟨0, _⟩ => rfl | ⟨1, _⟩ => rfl | ⟨2, _⟩ => rfl)

section Output
variable (X : SAct.Idx → EReal) (M : SMask.Idx → BitVec 32) (Wq : SMat.Idx → EReal) (bq : SVec.Idx → EReal)
  (Wk : SMat.Idx → EReal) (bk : SVec.Idx → EReal) (Wv : SMat.Idx → EReal) (bv : SVec.Idx → EReal)
  (Wo : SMat.Idx → EReal) (bo : SVec.Idx → EReal)

/-- The mixed values at (bt, q, d): the sum over the keys of the weight times the value row's feature d. -/
theorem mix_apply (bt : Fin 4) (q : Fin 2048) (d : Fin 1024) :
    val_main_v30 (F := Ideal) X M Wq bq Wk bk Wv bv (ix3 bt q d)
      = mixRow (fun k => weightsPlain X M Wq bq Wk bk (ix3 bt q k)) (fun k => projRow X Wv bv bt k) d := by
  rw [val_main_v30_apply, weights_eq, v11_eq]
  simp only [lidx_mix, ridx_mix, affine_apply]
  rfl

/-- The last stage is the affine stage applied to the mixed values. -/
theorem v34_eq :
    val_main_v34 (F := Ideal) X M Wq bq Wk bk Wv bv Wo bo
      = val_main_v3 (F := Ideal) (val_main_v30 (F := Ideal) X M Wq bq Wk bk Wv bv) Wo bo := rfl

/-- The output stage is the specification's output of the plain weights. -/
theorem output_eq :
    val_main_v34 (F := Ideal) X M Wq bq Wk bk Wv bv Wo bo = outputOf (weightsPlain X M Wq bq Wk bk) X Wv bv Wo bo := by
  refine ext_ix3 fun bt q e => ?_
  rw [v34_eq, affine_apply]
  simp only [mix_apply]
  rfl

end Output

variable (m : (ℓ : Loc nD τ sig) → Buf (Elt Ideal) ℓ)

/-- The attention-weight result. -/
theorem ref_weights (c : Dev nD) :
    res_main_v29 (F := Ideal) m c
      = weightsPlain (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (val_main_v29_eq m c).trans (weights_eq _ _ _ _ _ _)

/-- The output result. -/
theorem ref_output (c : Dev nD) :
    res_main_v34 (F := Ideal) m c
      = outputOf (weightsPlain (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)))
        (m ((c.tc : Thread nD τ).loc main_arg0)) (m ((c.tc : Thread nD τ).loc main_arg6)) (m ((c.tc : Thread nD τ).loc main_arg7))
        (m ((c.tc : Thread nD τ).loc main_arg8)) (m ((c.tc : Thread nD τ).loc main_arg9)) :=
  (val_main_v34_eq m c).trans (output_eq _ _ _ _ _ _ _ _ _ _)

end Cert.ReferenceIdeal.RefValue

end
-- ==== Proof.PreFacts.lean ====
/-
  What the precondition says of the inputs: every entry of the activations and of the query and key weights and biases
  is a real number (its absolute value is below +∞), and every query row of the mask has a nonzero entry (the "or" over
  a row of "entry ≠ 0" is true for every row).
-/
import proofs.«420197_j33234456936606_3_alg».proof.Proof.Gen.Pre_finite_inputs
import proofs.«420197_j33234456936606_3_alg».proof.Proof.AttnSpec
import proofs.«420197_j33234456936606_3_alg».proof.Proof.LibReal
import Idealize.ShloMosaic.Lib.ReduceAll
import Idealize.ShloMosaic.Lib.StableHlo.Predicate
import Idealize.ShloMosaic.Lib.ValueIdx

set_option maxRecDepth 16384

noncomputable section

namespace Cert.Attn.Pre

open Cert.Attn Cert.Lib
open Idealize.ShloMosaic Idealize.ShloMosaic.ValueIdx

/-! ## A reduction by "or" read back -/

/-- A left fold by "or" over one-bit words that came out 1 started at 1 or met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], init, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem a hn, hf⟩

/-- A reduction by "or" from 0 that is 1 at `j` met a 1 at some operand index that reduces into `j`. -/
theorem reduce_ori_eq_one {s t u : Shape} {axes : List (Fin s.rank)} (x : s.Idx → BitVec 1) (init : u.Idx → BitVec 1)
    (h : s.ReducesTo axes t) (hu : 0 < u.numel) (h0 : init (Shape.Idx.first hu) = 0#1) (j : t.Idx)
    (e : Host.reduce IntOp.ori x init h hu j = 1#1) : ∃ i : s.Idx, h.drop i = j ∧ x i = 1#1 := by
  rw [Host.reduce_eq_foldl] at e
  rcases foldl_ori_eq_one x _ _ e with h1 | ⟨i, hi, hx⟩
  · rw [h0] at h1; exact absurd h1 (by decide)
  · rw [List.mem_filter] at hi
    exact ⟨i, by simpa using hi.2, hx⟩

/-! ## The float inputs: an absolute value below +∞ is a real number -/

/-- The f32 pattern 0x7F800000 denotes +∞. -/
theorem ofBits_inf : Ideal.ofBits .f32 0x7F800000#32 = (⊤ : EReal) := by
  simp [Ideal.ofBits, Ideal.ieee]

/-- An extended real whose absolute value max(a, −a) is below +∞ is a real number. -/
theorem real_of_abs_lt_inf (a : EReal)
    (h : Ideal.cmp .olt (max a (-a)) (Ideal.ofBits .f32 0x7F800000#32) = 1#1) : ∃ r : ℝ, a = (r : EReal) := by
  rw [ofBits_inf] at h
  induction a using EReal.rec with
  | bot => exact absurd h (by simp [Ideal.cmp])
  | coe r => exact ⟨r, rfl⟩
  | top => exact absurd h (by simp [Ideal.cmp])

instance : Subsingleton Cert.Pre_finite_inputs.S_.Idx := ⟨fun a b => funext fun d => d.elim0⟩

/-- "every |a_i| is below +∞", as a program spells it, says that the array is real-valued. -/
theorem isReal_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf a) (broadcastInDim s ![] hb (constant (F := Ideal) Cert.Pre_finite_inputs.S_ .f32 0x7F800000#32)))
        (constantI Cert.Pre_finite_inputs.S_ 1 1#1) hr hu ix0 = 1#1) : IsReal a := fun i =>
  real_of_abs_lt_inf (a i) (Host.reduce_andi_all _ _ hr hu ix0 e i)

/-- The "and" of two one-element arrays is 1 exactly when both are. -/
theorem andi_ix0 (a b : IVec Cert.Pre_finite_inputs.S_ 1) :
    andi a b ix0 = 1#1 ↔ a ix0 = 1#1 ∧ b ix0 = 1#1 := IntOp.andi_eq_one

/-! ## The mask: every query row has a nonzero entry -/

/-- "every row's 'or' of (entry ≠ 0) is true", as a program spells it, says that every row has a nonzero entry. -/
theorem rows_nonzero (M : IVec Cert.Pre_finite_inputs.S1x2048x2048 32)
    (hb : Cert.Pre_finite_inputs.S_.BroadcastsInDim Cert.Pre_finite_inputs.S1x2048x2048
      (![] : Fin 0 → Fin Cert.Pre_finite_inputs.S1x2048x2048.rank))
    (hr1 : Cert.Pre_finite_inputs.S1x2048x2048.ReducesTo [2] Cert.Pre_finite_inputs.S1x2048)
    (hr2 : Cert.Pre_finite_inputs.S1x2048.ReducesTo [0, 1] Cert.Pre_finite_inputs.S_)
    (hu : 0 < Cert.Pre_finite_inputs.S_.numel)
    (e : Host.reduce IntOp.andi
        (Host.reduce IntOp.ori
          (cmpi .ne M (broadcastInDim Cert.Pre_finite_inputs.S1x2048x2048 ![] hb (constantI Cert.Pre_finite_inputs.S_ 32 0#32)))
          (constantI Cert.Pre_finite_inputs.S_ 1 0#1) hr1 hu)
        (constantI Cert.Pre_finite_inputs.S_ 1 1#1) hr2 hu ix0 = 1#1) (q : Fin 2048) :
    ∃ k : Fin 2048, M (ix3 (0 : Fin 1) q k) ≠ 0#32 := by
  have h1 := Host.reduce_andi_all _ _ hr2 hu ix0 e (ix2 (0 : Fin 1) q)
  obtain ⟨i, hi, hxi⟩ := reduce_ori_eq_one _ _ hr1 hu rfl _ h1
  have hne : M i ≠ 0#32 := IntOp.cmpi_ne.1 hxi
  have hi1 : i 1 = q := by
    apply Fin.ext
    have h2 := Shape.ReducesTo.drop_apply_val_of_eq hr1 i 1 1
    rw [hi] at h2
    exact h2.symm
  have hi0 : i 0 = (0 : Fin 1) := Fin.eq_zero (i 0)
  have hi' : i = ix3 (0 : Fin 1) q (i 2) := (eq_ix3 i).trans (by rw [hi0, hi1]; rfl)
  exact ⟨i 2, fun hz => hne ((congrArg M hi').trans hz)⟩

/-- The precondition, all ones, gives the facts the two spellings of the weights need to agree. -/
theorem facts_of_pre [hPre : Cert.Pre_finite_inputs.Facts]
    (x : SAct.Idx → EReal) (M : SMask.Idx → BitVec 32) (Wq : SMat.Idx → EReal) (bq : SVec.Idx → EReal)
    (Wk : SMat.Idx → EReal) (bk : SVec.Idx → EReal) (Wv : SMat.Idx → EReal) (bv : SVec.Idx → EReal)
    (Wo : SMat.Idx → EReal) (bo : SVec.Idx → EReal)
    (h : Cert.Pre_finite_inputs.fn (F := Ideal) x M Wq bq Wk bk Wv bv Wo bo = fun _ => 1#1) :
    IsReal x ∧ IsReal Wq ∧ IsReal bq ∧ IsReal Wk ∧ IsReal bk
      ∧ ∀ q : Fin 2048, ∃ k : Fin 2048, M (ix3 (0 : Fin 1) q k) ≠ 0#32 := by
  have e := congrFun h ValueIdx.ix0
  unfold Cert.Pre_finite_inputs.fn Cert.Pre_finite_inputs.fn_part1 Cert.Pre_finite_inputs.fn_part2 at e
  dsimp only at e
  simp only [andi_ix0] at e
  obtain ⟨⟨⟨⟨⟨⟨⟨⟨⟨hx, hWq⟩, hbq⟩, hWk⟩, hbk⟩, -⟩, -⟩, -⟩, -⟩, hM⟩ := e
  exact ⟨isReal_of_all x _ _ _ hx, isReal_of_all Wq _ _ _ hWq, isReal_of_all bq _ _ _ hbq,
    isReal_of_all Wk _ _ _ hWk, isReal_of_all bk _ _ _ hbk, rows_nonzero M _ _ _ _ hM⟩

end Cert.Attn.Pre

end
-- ==== Proof.lean ====
/-
  Masked scaled dot-product attention in two kernel regions against its plain array-language reference, on the
  extended reals.

  Both programs compute queries, keys and values as affine layers of the activations, scores (q · k) / 32 with −∞ where
  the mask is zero (the kernel's finite fill word is named −∞; the kernel multiplies by 1/32 where the reference divides
  by √1024), the softmax of each score row shifted by its maximum, the weighted sum of the values and an output
  projection. They differ in one step: the kernel writes 0 at every masked weight, the reference leaves the quotient.
  Under the precondition — real inputs, and a mask that keeps a key on every query row — a masked quotient is 0 (the row
  maximum is real, the masked exponential is 0 and the row sum is at least 1), so the two weight arrays are equal, and
  the outputs are one function of the weights.
-/
import proofs.«420197_j33234456936606_3_alg».proof.Defs
import proofs.«420197_j33234456936606_3_alg».proof.Proof.Gen.Kernel
import proofs.«420197_j33234456936606_3_alg».proof.Proof.Gen.Kernel.Skeleton
import proofs.«420197_j33234456936606_3_alg».proof.Proof.Gen.Kernel.Launch
import proofs.«420197_j33234456936606_3_alg».proof.Proof.Gen.Kernel.Points
import proofs.«420197_j33234456936606_3_alg».proof.Proof.Gen.Kernel.Frame
import proofs.«420197_j33234456936606_3_alg».proof.Proof.Gen.KernelIdeal
import proofs.«420197_j33234456936606_3_alg».proof.Proof.Gen.KernelIdeal.Skeleton
import proofs.«420197_j33234456936606_3_alg».proof.Proof.Gen.KernelIdeal.Launch
import proofs.«420197_j33234456936606_3_alg».proof.Proof.Gen.KernelIdeal.Points
import proofs.«420197_j33234456936606_3_alg».proof.Proof.Gen.KernelIdeal.Frame
import proofs.«420197_j33234456936606_3_alg».proof.Proof.Gen.ReferenceIdeal
import proofs.«420197_j33234456936606_3_alg».proof.Proof.Gen.Pre_finite_inputs
import proofs.«420197_j33234456936606_3_alg».proof.Proof.Gen.ReferenceIdeal.Run
import proofs.«420197_j33234456936606_3_alg».proof.Proof.Gen.ReferenceIdeal.Read
import proofs.«420197_j33234456936606_3_alg».proof.Proof.AttnSpec
import proofs.«420197_j33234456936606_3_alg».proof.Proof.RunNamed
import proofs.«420197_j33234456936606_3_alg».proof.Proof.KernelValue
import proofs.«420197_j33234456936606_3_alg».proof.Proof.RefValue
import proofs.«420197_j33234456936606_3_alg».proof.Proof.PreFacts
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel program runs and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference is a straight line of array operations: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The one named constant: the kernel's finite mask fill denotes −∞. -/
theorem preserves : Cert.preserves_Kernel_KernelIdeal :=
  IdealRules.named_const.statement Cert.KernelIdeal.κ "neg_big" .f32 0xFF333332#32 ⊥ rfl

/-- From memories that agree on the arguments the two programs end with the same output and the same weights. -/
theorem algebraic : Cert.algebraic_KernelIdeal_ReferenceIdeal := by
  intro m ρ m' ρ' hpre hagree
  refine ⟨fun c => (Cert.Attn.outputOf (Cert.Attn.weightsZeroed (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))),
    fun c => (Cert.Attn.weightsZeroed (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))), ?_, ?_⟩
  · refine (θ_run Cert.KernelIdeal.defs _ _).mono (fun r h c => ?_) (Cert.KernelIdeal.Named.run_named (F := Ideal) m ρ)
    obtain ⟨hout, hw, hargs⟩ := h c
    exact ⟨hout.trans (Cert.KernelIdeal.KValue.kernel_output m ρ c), hw.trans (Cert.KernelIdeal.KValue.kernel_weights m ρ c), hargs⟩
  · refine (θ_run Cert.ReferenceIdeal.defs _ _).mono (fun r h c => ?_) (Cert.ReferenceIdeal.Value.run (F := Ideal) m' ρ')
    obtain ⟨hout, hw, hargs⟩ := h c
    obtain ⟨a0, a1, a2, a3, a4, a5, a6, a7, a8, a9⟩ := hagree c
    obtain ⟨hx, hWq, hbq, hWk, hbk, hM⟩ := Cert.Attn.Pre.facts_of_pre _ _ _ _ _ _ _ _ _ _ (hpre c)
    have hweq := Cert.Attn.weightsZeroed_eq_plain _ _ _ _ _ _ hx hWq hbq hWk hbk hM
    refine ⟨hout.trans ?_, hw.trans ?_, hargs⟩
    · rw [Cert.ReferenceIdeal.RefValue.ref_output, a0, a1, a2, a3, a4, a5, a6, a7, a8, a9]
      exact congrArg (fun w => Cert.Attn.outputOf w _ _ _ _ _) hweq.symm
    · rw [Cert.ReferenceIdeal.RefValue.ref_weights, a0, a1, a2, a3, a4, a5]
      exact hweq.symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
